-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S2x16000000 : Shape := ⟨2, ![2, 16000000]⟩
abbrev S1x10 : Shape := ⟨2, ![1, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S1x10 : S_.BroadcastsInDim S1x10 (![] : Fin 0 → Fin S1x10.rank)
  reducesTo_S1x10_S_d0_1 : S1x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_
  bcast_S_S2x16000000 : S_.BroadcastsInDim S2x16000000 (![] : Fin 0 → Fin S2x16000000.rank)
  reducesTo_S2x16000000_S_d0_1 : S2x16000000.ReducesTo [0, 1] S_

variable [Facts]

def fn_part1 {F : FTy → Type} [FloatOps F] (main_arg1 : IVec S2x16000000 32) (main_arg5 : FVec F S1 .f32) (main_v13 : IVec S_ 1) (main_v16 : IVec S10x1 1) : IVec S_ 1 :=
  let main_c_5 : IVec S_ 1 := constantI S_ 1 1#1
  let main_v17 : IVec S_ 1 := (fun x v => Host.reduce IntOp.andi x v reducesTo_S10x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S2x16000000 32 := broadcastInDim S2x16000000 ![] bcast_S_S2x16000000 main_c_8
  let main_v25 : IVec S2x16000000 1 := cmpi .sge main_arg1 main_v24
  let main_c_9 : IVec S_ 1 := constantI S_ 1 1#1
  let main_v26 : IVec S_ 1 := (fun x v => Host.reduce IntOp.andi x v reducesTo_S2x16000000_S_d0_1 h_S_) main_v25 main_c_9
  let main_v27 : IVec S_ 1 := andi main_v23 main_v26
  let main_c_10 : IVec S_ 32 := constantI S_ 32 500000#32
  let main_v28 : IVec S2x16000000 32 := broadcastInDim S2x16000000 ![] bcast_S_S2x16000000 main_c_10
  let main_v29 : IVec S2x16000000 1 := cmpi .slt main_arg1 main_v28
  let main_c_11 : IVec S_ 1 := constantI S_ 1 1#1
  let main_v30 : IVec S_ 1 := (fun x v => Host.reduce IntOp.andi x v reducesTo_S2x16000000_S_d0_1 h_S_) main_v29 main_c_11
  let main_v31 : IVec S_ 1 := andi main_v27 main_v30
  main_v31

def fn {F : FTy → Type} [FloatOps F] (main_arg0 : FVec F S500000x1 .f32) (main_arg1 : IVec S2x16000000 32) (main_arg2 : FVec F S1x10 .f32) (main_arg3 : FVec F S10 .f32) (main_arg4 : FVec F S10x1 .f32) (main_arg5 : FVec F S1 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S1x10 .f32 := Host.absf main_arg2
  let main_cst_0 : FVec F S_ .f32 := constant S_ .f32 0x7F800000#32
  let main_v5 : FVec F S1x10 .f32 := broadcastInDim S1x10 ![] bcast_S_S1x10 main_cst_0
  let main_v6 : IVec S1x10 1 := cmpf .olt main_v4 main_v5
  let main_c_1 : IVec S_ 1 := constantI S_ 1 1#1
  let main_v7 : IVec S_ 1 := (fun x v => Host.reduce IntOp.andi x v reducesTo_S1x10_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x1 .f32 := Host.absf main_arg4
  let main_cst_4 : FVec F S_ .f32 := constant S_ .f32 0x7F800000#32
  let main_v15 : FVec F S10x1 .f32 := broadcastInDim S10x1 ![] bcast_S_S10x1 main_cst_4
  let main_v16 : IVec S10x1 1 := cmpf .olt main_v14 main_v15
  fn_part1 (F := F) main_arg1 main_arg5 main_v13 main_v16
-- ==== Kernel.lean ====
abbrev S500000x1 : Shape := ⟨2, ![500000, 1]⟩
abbrev S2x16000000 : Shape := ⟨2, ![2, 16000000]⟩
abbrev S1x10 : Shape := ⟨2, ![1, 10]⟩
abbrev S10 : Shape := ⟨1, ![10]⟩
abbrev S10x1 : Shape := ⟨2, ![10, 1]⟩
abbrev S1 : Shape := ⟨1, ![1]⟩
abbrev S1x16000000 : Shape := ⟨2, ![1, 16000000]⟩
abbrev S16000000 : Shape := ⟨1, ![16000000]⟩
abbrev S500000 : Shape := ⟨1, ![500000]⟩
abbrev S16500000 : Shape := ⟨1, ![16500000]⟩
abbrev S_ : Shape := ⟨0, ![]⟩
abbrev S16515072 : Shape := ⟨1, ![16515072]⟩
abbrev S16515072x1 : Shape := ⟨2, ![16515072, 1]⟩
abbrev S129024x128 : Shape := ⟨2, ![129024, 128]⟩
abbrev S6144x128 : Shape := ⟨2, ![6144, 128]⟩
abbrev S500000x10 : Shape := ⟨2, ![500000, 10]⟩
abbrev S10000x1 : Shape := ⟨2, ![10000, 1]⟩
abbrev S10000x10 : Shape := ⟨2, ![10000, 10]⟩
abbrev S1x1 : Shape := ⟨2, ![1, 1]⟩

abbrev nBuf : Space → Nat
  | .hbm => 87
  | .vmem => 22
  | .smem => 0
  | _ => 0

abbrev bufTy : (tb : Table) → Fin (tcTables nBuf tb) → BufTy
  | .hbm, ⟨0, _⟩ => ⟨S500000x1, .f32⟩
  | .hbm, ⟨1, _⟩ => ⟨S2x16000000, .i32⟩
  | .hbm, ⟨2, _⟩ => ⟨S1x10, .f32⟩
  | .hbm, ⟨3, _⟩ => ⟨S10, .f32⟩
  | .hbm, ⟨4, _⟩ => ⟨S10x1, .f32⟩
  | .hbm, ⟨5, _⟩ => ⟨S1, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S500000, .i32⟩
  | .hbm, ⟨11, _⟩ => ⟨S16500000, .i32⟩
  | .hbm, ⟨12, _⟩ => ⟨S16500000, .i32⟩
  | .hbm, ⟨13, _⟩ => ⟨S_, .i32⟩
  | .hbm, ⟨14, _⟩ => ⟨S_, .i32⟩
  | .hbm, ⟨15, _⟩ => ⟨S16515072, .i32⟩
  | .hbm, ⟨16, _⟩ => ⟨S_, .i32⟩
  | .hbm, ⟨17, _⟩ => ⟨S_, .i32⟩
  | .hbm, ⟨18, _⟩ => ⟨S16515072, .i32⟩
  | .hbm, ⟨19, _⟩ => ⟨S16515072, .i32⟩
  | .hbm, ⟨20, _⟩ => ⟨S_, .i32⟩
  | .hbm, ⟨21, _⟩ => ⟨S16515072, .i32⟩
  | .hbm, ⟨22, _⟩ => ⟨S16515072, .i1⟩
  | .hbm, ⟨23, _⟩ => ⟨S16515072, .f32⟩
  | .hbm, ⟨24, _⟩ => ⟨S_, .f32⟩
  | .hbm, ⟨25, _⟩ => ⟨S500000, .f32⟩
  | .hbm, ⟨26, _⟩ => ⟨S16515072x1, .i32⟩
  | .hbm, ⟨27, _⟩ => ⟨S500000, .f32⟩
  | .hbm, ⟨28, _⟩ => ⟨S_, .f32⟩
  | .hbm, ⟨29, _⟩ => ⟨S500000, .f32⟩
  | .hbm, ⟨30, _⟩ => ⟨S500000, .i1⟩
  | .hbm, ⟨31, _⟩ => ⟨S_, .f32⟩
  | .hbm, ⟨32, _⟩ => ⟨S500000, .f32⟩
  | .hbm, ⟨33, _⟩ => ⟨S500000, .f32⟩
  | .hbm, ⟨34, _⟩ => ⟨S500000, .f32⟩
  | .hbm, ⟨35, _⟩ => ⟨S_, .f32⟩
  | .hbm, ⟨36, _⟩ => ⟨S_, .f32⟩
  | .hbm, ⟨37, _⟩ => ⟨S500000, .f32⟩
  | .hbm, ⟨38, _⟩ => ⟨S500000, .f32⟩
  | .hbm, ⟨39, _⟩ => ⟨S16515072x1, .i32⟩
  | .hbm, ⟨40, _⟩ => ⟨S16515072, .f32⟩
  | .hbm, ⟨41, _⟩ => ⟨S16515072x1, .i32⟩
  | .hbm, ⟨42, _⟩ => ⟨S16515072, .f32⟩
  | .hbm, ⟨43, _⟩ => ⟨S16515072, .f32⟩
  | .hbm, ⟨44, _⟩ => ⟨S16515072, .f32⟩
  | .hbm, ⟨45, _⟩ => ⟨S129024x128, .f32⟩
  | .hbm, ⟨46, _⟩ => ⟨S500000, .f32⟩
  | .hbm, ⟨47, _⟩ => ⟨S16515072x1, .i32⟩
  | .hbm, ⟨48, _⟩ => ⟨S16515072, .f32⟩
  | .hbm, ⟨49, _⟩ => ⟨S129024x128, .f32⟩
  | .hbm, ⟨50, _⟩ => ⟨S129024x128, .f32⟩
  | .hbm, ⟨51, _⟩ => ⟨S16515072, .f32⟩
  | .hbm, ⟨52, _⟩ => ⟨S_, .f32⟩
  | .hbm, ⟨53, _⟩ => ⟨S500000, .f32⟩
  | .hbm, ⟨54, _⟩ => ⟨S16515072x1, .i32⟩
  | .hbm, ⟨55, _⟩ => ⟨S500000, .f32⟩
  | .hbm, ⟨56, _⟩ => ⟨S500000x1, .f32⟩
  | .hbm, ⟨57, _⟩ => ⟨S500000x10, .f32⟩
  | .hbm, ⟨58, _⟩ => ⟨S1x10, .f32⟩
  | .hbm, ⟨59, _⟩ => ⟨S500000x10, .f32⟩
  | .hbm, ⟨60, _⟩ => ⟨S500000x10, .f32⟩
  | .hbm, ⟨61, _⟩ => ⟨S_, .f32⟩
  | .hbm, ⟨62, _⟩ => ⟨S500000x10, .f32⟩
  | .hbm, ⟨63, _⟩ => ⟨S500000x10, .f32⟩
  | .hbm, ⟨64, _⟩ => ⟨S500000x1, .f32⟩
  | .hbm, ⟨65, _⟩ => ⟨S500000, .f32⟩
  | .hbm, ⟨66, _⟩ => ⟨S16515072x1, .i32⟩
  | .hbm, ⟨67, _⟩ => ⟨S16515072, .f32⟩
  | .hbm, ⟨68, _⟩ => ⟨S129024x128, .f32⟩
  | .hbm, ⟨69, _⟩ => ⟨S129024x128, .f32⟩
  | .hbm, ⟨70, _⟩ => ⟨S16515072, .f32⟩
  | .hbm, ⟨71, _⟩ => ⟨S_, .f32⟩
  | .hbm, ⟨72, _⟩ => ⟨S500000, .f32⟩
  | .hbm, ⟨73, _⟩ => ⟨S16515072x1, .i32⟩
  | .hbm, ⟨74, _⟩ => ⟨S500000, .f32⟩
  | .hbm, ⟨75, _⟩ => ⟨S500000x1, .f32⟩
  | .hbm, ⟨76, _⟩ => ⟨S1x1, .f32⟩
  | .hbm, ⟨77, _⟩ => ⟨S500000x1, .f32⟩
  | .hbm, ⟨78, _⟩ => ⟨S500000x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S500000x1, .f32⟩
  | .hbm, ⟨83, _⟩ => ⟨S500000x1, .f32⟩
  | .hbm, ⟨84, _⟩ => ⟨S_, .f32⟩
  | .hbm, ⟨85, _⟩ => ⟨S500000x1, .f32⟩
  | .hbm, ⟨86, _⟩ => ⟨S500000x1, .f32⟩
  | .local _ .vmem, ⟨0, _⟩ => ⟨S6144x128, .f32⟩
  | .local _ .vmem, ⟨1, _⟩ => ⟨S6144x128, .f32⟩
  | .local _ .vmem, ⟨2, _⟩ => ⟨S6144x128, .f32⟩
  | .local _ .vmem, ⟨3, _⟩ => ⟨S6144x128, .f32⟩
  | .local _ .vmem, ⟨4, _⟩ => ⟨S6144x128, .f32⟩
  | .local _ .vmem, ⟨5, _⟩ => ⟨S6144x128, .f32⟩
  | .local _ .vmem, ⟨6, _⟩ => ⟨S10000x1, .f32⟩
  | .local _ .vmem, ⟨7, _⟩ => ⟨S10000x1, .f32⟩
  | .local _ .vmem, ⟨8, _⟩ => ⟨S1x10, .f32⟩
  | .local _ .vmem, ⟨9, _⟩ => ⟨S10000x10, .f32⟩
  | .local _ .vmem, ⟨10, _⟩ => ⟨S10000x10, .f32⟩
  | .local _ .vmem, ⟨11, _⟩ => ⟨S10000x10, .f32⟩
  | .local _ .vmem, ⟨12, _⟩ => ⟨S10000x10, .f32⟩
  | .local _ .vmem, ⟨13, _⟩ => ⟨S10x1, .f32⟩
  | .local _ .vmem, ⟨14, _⟩ => ⟨S10000x1, .f32⟩
  | .local _ .vmem, ⟨15, _⟩ => ⟨S10000x1, .f32⟩
  | .local _ .vmem, ⟨16, _⟩ => ⟨S6144x128, .f32⟩
  | .local _ .vmem, ⟨17, _⟩ => ⟨S6144x128, .f32⟩
  | .local _ .vmem, ⟨18, _⟩ => ⟨S6144x128, .f32⟩
  | .local _ .vmem, ⟨19, _⟩ => ⟨S6144x128, .f32⟩
  | .local _ .vmem, ⟨20, _⟩ => ⟨S6144x128, .f32⟩
  | .local _ .vmem, ⟨21, _⟩ => ⟨S6144x128, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_call3_v0 : Ref sig .tc := ⟨.hbm, 39, rfl⟩
abbrev main_v22 : Ref sig .tc := ⟨.hbm, 40, rfl⟩
abbrev main_call4_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call5_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call6_cst : Ref sig .tc := ⟨.hbm, 61, rfl⟩
abbrev main_call6_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call7_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_cst_8 : Ref sig .tc := ⟨.hbm, 80, rfl⟩
abbrev main_call8_v0 : Ref sig .tc := ⟨.hbm, 81, rfl⟩
abbrev main_call8_v1 : Ref sig .tc := ⟨.hbm, 82, rfl⟩
abbrev main_call8_v2 : Ref sig .tc := ⟨.hbm, 83, rfl⟩
abbrev main_call8_v3 : Ref sig .tc := ⟨.hbm, 84, rfl⟩
abbrev main_call8_v4 : Ref sig .tc := ⟨.hbm, 85, rfl⟩
abbrev main_v54 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6144x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6144x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![21], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6144x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6144x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6144x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S500000_S16500000_d0 : Shape.Concatenates [S16000000, S500000] S16500000 0
  pads_S16500000_S16515072_0150720 : S16500000.Pads (![0] : Fin 1 → Nat) ![15072] ![0] S16515072
  h_S_ : 0 < S_.numel
  bcast_S_S16515072 : S_.BroadcastsInDim S16515072 (![] : Fin 0 → Fin S16515072.rank)
  bcast_S_S500000 : S_.BroadcastsInDim S500000 (![] : Fin 0 → Fin S500000.rank)
  bcast_S16515072_S16515072x1_0 : S16515072.BroadcastsInDim S16515072x1 (![0] : Fin 1 → Fin S16515072x1.rank)
  shapeCasts_S16515072_S129024x128 : S16515072.ShapeCasts S129024x128
  shapeCasts_S500000x1_S500000 : S500000x1.ShapeCasts S500000
  inb_S6144x128_S6144x128_0_0 : ∀ a, (![0, 0] : Fin 2 → Nat) a + S6144x128.size a ≤ S6144x128.size a
  h_S6144x128 : 0 < S6144x128.numel
  shapeCasts_S6144x128_S6144x128 : S6144x128.ShapeCasts S6144x128
  shapeCasts_S129024x128_S16515072 : S129024x128.ShapeCasts S16515072
  bcast_S500000_S500000x1_0 : S500000.BroadcastsInDim S500000x1 (![0] : Fin 1 → Fin S500000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x10_S1x10_0_0 : ∀ a, (![0, 0] : Fin 2 → Nat) a + S1x10.size a ≤ S1x10.size a
  h_S1x10 : 0 < S1x10.numel
  broadcasts_S10000x1_S10000x10 : S10000x1.Broadcasts S10000x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  bcast_S10_S1x10_1 : S10.BroadcastsInDim S1x10 (![1] : Fin 1 → Fin S1x10.rank)
  bcast_S1x10_S500000x10_0_1 : S1x10.BroadcastsInDim S500000x10 (![0, 1] : Fin 2 → Fin S500000x10.rank)
  bcast_S_S500000x10 : S_.BroadcastsInDim S500000x10 (![] : Fin 0 → Fin S500000x10.rank)
  shapeCasts_S10000x10_S10000x10 : S10000x10.ShapeCasts S10000x10
  inb_S10x1_S10x1_0_0 : ∀ a, (![0, 0] : Fin 2 → Nat) a + S10x1.size a ≤ S10x1.size a
  h_S10x1 : 0 < S10x1.numel
  slices_S10000x10_o0_0_S10000x1 : S10000x10.Slices ![0, 0] S10000x1
  slices_S10x1_o0_0_S1x1 : S10x1.Slices ![0, 0] S1x1
  broadcasts_S1x1_S10000x1 : S1x1.Broadcasts S10000x1
  slices_S10000x10_o0_1_S10000x1 : S10000x10.Slices ![0, 1] S10000x1
  slices_S10x1_o1_0_S1x1 : S10x1.Slices ![1, 0] S1x1
  slices_S10000x10_o0_2_S10000x1 : S10000x10.Slices ![0, 2] S10000x1
  slices_S10x1_o2_0_S1x1 : S10x1.Slices ![2, 0] S1x1
  slices_S10000x10_o0_3_S10000x1 : S10000x10.Slices ![0, 3] S10000x1
  slices_S10x1_o3_0_S1x1 : S10x1.Slices ![3, 0] S1x1
  slices_S10000x10_o0_4_S10000x1 : S10000x10.Slices ![0, 4] S10000x1
  slices_S10x1_o4_0_S1x1 : S10x1.Slices ![4, 0] S1x1
  slices_S10000x10_o0_5_S10000x1 : S10000x10.Slices ![0, 5] S10000x1
  slices_S10x1_o5_0_S1x1 : S10x1.Slices ![5, 0] S1x1
  slices_S10000x10_o0_6_S10000x1 : S10000x10.Slices ![0, 6] S10000x1
  slices_S10x1_o6_0_S1x1 : S10x1.Slices ![6, 0] S1x1
  slices_S10000x10_o0_7_S10000x1 : S10000x10.Slices ![0, 7] S10000x1
  slices_S10x1_o7_0_S1x1 : S10x1.Slices ![7, 0] S1x1
  slices_S10000x10_o0_8_S10000x1 : S10000x10.Slices ![0, 8] S10000x1
  slices_S10x1_o8_0_S1x1 : S10x1.Slices ![8, 0] S1x1
  slices_S10000x10_o0_9_S10000x1 : S10000x10.Slices ![0, 9] S10000x1
  slices_S10x1_o9_0_S1x1 : S10x1.Slices ![9, 0] S1x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  scatter_S500000_S16515072x1_S16515072_n_0_0_1_wf : ScatterDims.WF S500000 S16515072x1 S16515072 [] [0] [0] 1
  gather_S500000_S16515072x1_S16515072_n_0_n_n_0_1_1_wf : GatherDims.WF S500000 S16515072x1 S16515072 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6144x128.size a ≤ S129024x128.size a
  hwx0_0 : ∀ i : grid0.Coords, EltTy.bits .f32 = 32 ∨ (Rect.block (s := S129024x128) S6144x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x128.size a ≤ S129024x128.size a
  hwx0_1 : ∀ i : grid0.Coords, EltTy.bits .f32 = 32 ∨ (Rect.block (s := S129024x128) S6144x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6144x128.size a ≤ S129024x128.size a
  hwx0_2 : ∀ i : grid0.Coords, EltTy.bits .f32 = 32 ∨ (Rect.block (s := S129024x128) S6144x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S500000x1.size a
  hwx1_0 : ∀ i : grid1.Coords, EltTy.bits .f32 = 32 ∨ (Rect.block (s := S500000x1) S10000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x10.size a ≤ S1x10.size a
  hwx1_1 : ∀ i : grid1.Coords, EltTy.bits .f32 = 32 ∨ (Rect.block (s := S1x10) S1x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x10.size a ≤ S500000x10.size a
  hwx1_2 : ∀ i : grid1.Coords, EltTy.bits .f32 = 32 ∨ (Rect.block (s := S500000x10) S10000x10.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S500000x10.size a
  hwx2_0 : ∀ i : grid2.Coords, EltTy.bits .f32 = 32 ∨ (Rect.block (s := S500000x10) S10000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x1.size a ≤ S10x1.size a
  hwx2_1 : ∀ i : grid2.Coords, EltTy.bits .f32 = 32 ∨ (Rect.block (s := S10x1) S10x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S500000x1.size a
  hwx2_2 : ∀ i : grid2.Coords, EltTy.bits .f32 = 32 ∨ (Rect.block (s := S500000x1) S10000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6144x128.size a ≤ S129024x128.size a
  hwx3_0 : ∀ i : grid3.Coords, EltTy.bits .f32 = 32 ∨ (Rect.block (s := S129024x128) S6144x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6144x128.size a ≤ S129024x128.size a
  hwx3_1 : ∀ i : grid3.Coords, EltTy.bits .f32 = 32 ∨ (Rect.block (s := S129024x128) S6144x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6144x128.size a ≤ S129024x128.size a
  hwx3_2 : ∀ i : grid3.Coords, EltTy.bits .f32 = 32 ∨ (Rect.block (s := S129024x128) S6144x128.size (cc3_transform_2 i) (hinb3_2 i)).WholeWords (EltTy.packing .f32)

variable [Facts₀]

def scatter_S500000_S16515072x1_S16515072_n_0_0_1 : ScatterDims S500000 S16515072x1 S16515072 where
  updateWindowDims := []
  insertedWindowDims := [0]
  scatterDimsToOperandDims := [0]
  indexVectorDim := 1
  wf := scatter_S500000_S16515072x1_S16515072_n_0_0_1_wf
def gather_S500000_S16515072x1_S16515072_n_0_n_n_0_1_1 : GatherDims S500000 S16515072x1 S16515072 where
  offsetDims := []
  collapsedSliceDims := [0]
  operandBatchingDims := []
  startIndicesBatchingDims := []
  startIndexMap := [0]
  indexVectorDim := 1
  sliceSizes := ![1]
  wf := gather_S500000_S16515072x1_S16515072_n_0_n_n_0_1_1_wf

abbrev win0_0 : Pipeline.Window sig grid0 :=
  Pipeline.Window.ofSpec (Memref.whole main_v26) S6144x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S6144x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S6144x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S10000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S10x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v26) S6144x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S6144x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S6144x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S500000x1 : Shape := ⟨2, ![500000, 1]⟩
abbrev S2x16000000 : Shape := ⟨2, ![2, 16000000]⟩
abbrev S1x10 : Shape := ⟨2, ![1, 10]⟩
abbrev S10 : Shape := ⟨1, ![10]⟩
abbrev S10x1 : Shape := ⟨2, ![10, 1]⟩
abbrev S1 : Shape := ⟨1, ![1]⟩
abbrev S_ : Shape := ⟨0, ![]⟩
abbrev S16000000 : Shape := ⟨1, ![16000000]⟩
abbrev S500000 : Shape := ⟨1, ![500000]⟩
abbrev S1x500000 : Shape := ⟨2, ![1, 500000]⟩
abbrev S2x500000 : Shape := ⟨2, ![2, 500000]⟩
abbrev S2x16500000 : Shape := ⟨2, ![2, 16500000]⟩
abbrev S16500000 : Shape := ⟨1, ![16500000]⟩
abbrev S1x16500000 : Shape := ⟨2, ![1, 16500000]⟩
abbrev S16500000x1 : Shape := ⟨2, ![16500000, 1]⟩
abbrev S500000x10 : Shape := ⟨2, ![500000, 10]⟩
abbrev S16500000x10 : Shape := ⟨2, ![16500000, 10]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S500000x1, .f32⟩
  | 1 => ⟨S2x16000000, .i32⟩
  | 2 => ⟨S1x10, .f32⟩
  | 3 => ⟨S10, .f32⟩
  | 4 => ⟨S10x1, .f32⟩
  | 5 => ⟨S1, .f32⟩
  | 6 => ⟨S_, .f32⟩
  | 7 => ⟨S16000000, .f32⟩
  | 8 => ⟨S500000, .i32⟩
  | 9 => ⟨S1x500000, .i32⟩
  | 10 => ⟨S1x500000, .i32⟩
  | 11 => ⟨S2x500000, .i32⟩
  | 12 => ⟨S2x16500000, .i32⟩
  | 13 => ⟨S_, .f32⟩
  | 14 => ⟨S500000, .f32⟩
  | 15 => ⟨S16500000, .f32⟩
  | 16 => ⟨S1x16500000, .i32⟩
  | 17 => ⟨S16500000, .i32⟩
  | 18 => ⟨S1x16500000, .i32⟩
  | 19 => ⟨S16500000, .i32⟩
  | 20 => ⟨S_, .f32⟩
  | 21 => ⟨S500000, .f32⟩
  | 22 => ⟨S16500000x1, .i32⟩
  | 23 => ⟨S500000, .f32⟩
  | 24 => ⟨S_, .f32⟩
  | 25 => ⟨S500000, .f32⟩
  | 26 => ⟨S500000, .i1⟩
  | 27 => ⟨S_, .f32⟩
  | 28 => ⟨S500000, .f32⟩
  | 29 => ⟨S500000, .f32⟩
  | 30 => ⟨S500000, .f32⟩
  | 31 => ⟨S_, .f32⟩
  | 32 => ⟨S_, .f32⟩
  | 33 => ⟨S500000, .f32⟩
  | 34 => ⟨S500000, .f32⟩
  | 35 => ⟨S_, .i32⟩
  | 36 => ⟨S16500000, .i32⟩
  | 37 => ⟨S16500000, .i1⟩
  | 38 => ⟨S_, .i32⟩
  | 39 => ⟨S16500000, .i32⟩
  | 40 => ⟨S16500000, .i32⟩
  | 41 => ⟨S16500000, .i32⟩
  | 42 => ⟨S16500000x1, .i32⟩
  | 43 => ⟨S16500000, .f32⟩
  | 44 => ⟨S16500000, .f32⟩
  | 45 => ⟨S_, .i32⟩
  | 46 => ⟨S16500000, .i32⟩
  | 47 => ⟨S16500000, .i1⟩
  | 48 => ⟨S_, .i32⟩
  | 49 => ⟨S16500000, .i32⟩
  | 50 => ⟨S16500000, .i32⟩
  | 51 => ⟨S16500000, .i32⟩
  | 52 => ⟨S16500000x1, .i32⟩
  | 53 => ⟨S16500000, .f32⟩
  | 54 => ⟨S16500000, .f32⟩
  | 55 => ⟨S500000x10, .f32⟩
  | 56 => ⟨S16500000x1, .f32⟩
  | 57 => ⟨S_, .i32⟩
  | 58 => ⟨S16500000, .i32⟩
  | 59 => ⟨S16500000, .i1⟩
  | 60 => ⟨S_, .i32⟩
  | 61 => ⟨S16500000, .i32⟩
  | 62 => ⟨S16500000, .i32⟩
  | 63 => ⟨S16500000, .i32⟩
  | 64 => ⟨S16500000x1, .i32⟩
  | 65 => ⟨S16500000x10, .f32⟩
  | 66 => ⟨S16500000x10, .f32⟩
  | 67 => ⟨S16500000x10, .f32⟩
  | 68 => ⟨S_, .f32⟩
  | 69 => ⟨S500000x10, .f32⟩
  | 70 => ⟨S16500000x1, .i32⟩
  | 71 => ⟨S500000x10, .f32⟩
  | 72 => ⟨S1x10, .f32⟩
  | 73 => ⟨S500000x10, .f32⟩
  | 74 => ⟨S500000x10, .f32⟩
  | 75 => ⟨S_, .f32⟩
  | 76 => ⟨S500000x10, .f32⟩
  | 77 => ⟨S500000x10, .f32⟩
  | 78 => ⟨S500000, .i32⟩
  | 79 => ⟨S1x500000, .i32⟩
  | 80 => ⟨S1x500000, .i32⟩
  | 81 => ⟨S2x500000, .i32⟩
  | 82 => ⟨S2x16500000, .i32⟩
  | 83 => ⟨S_, .f32⟩
  | 84 => ⟨S500000, .f32⟩
  | 85 => ⟨S16500000, .f32⟩
  | 86 => ⟨S1x16500000, .i32⟩
  | 87 => ⟨S16500000, .i32⟩
  | 88 => ⟨S1x16500000, .i32⟩
  | 89 => ⟨S16500000, .i32⟩
  | 90 => ⟨S_, .f32⟩
  | 91 => ⟨S500000, .f32⟩
  | 92 => ⟨S16500000x1, .i32⟩
  | 93 => ⟨S500000, .f32⟩
  | 94 => ⟨S_, .f32⟩
  | 95 => ⟨S500000, .f32⟩
  | 96 => ⟨S500000, .i1⟩
  | 97 => ⟨S_, .f32⟩
  | 98 => ⟨S500000, .f32⟩
  | 99 => ⟨S500000, .f32⟩
  | 100 => ⟨S500000, .f32⟩
  | 101 => ⟨S_, .f32⟩
  | 102 => ⟨S_, .f32⟩
  | 103 => ⟨S500000, .f32⟩
  | 104 => ⟨S500000, .f32⟩
  | 105 => ⟨S_, .i32⟩
  | 106 => ⟨S16500000, .i32⟩
  | 107 => ⟨S16500000, .i1⟩
  | 108 => ⟨S_, .i32⟩
  | 109 => ⟨S16500000, .i32⟩
  | 110 => ⟨S16500000, .i32⟩
  | 111 => ⟨S16500000, .i32⟩
  | 112 => ⟨S16500000x1, .i32⟩
  | 113 => ⟨S16500000, .f32⟩
  | 114 => ⟨S16500000, .f32⟩
  | 115 => ⟨S_, .i32⟩
  | 116 => ⟨S16500000, .i32⟩
  | 117 => ⟨S16500000, .i1⟩
  | 118 => ⟨S_, .i32⟩
  | 119 => ⟨S16500000, .i32⟩
  | 120 => ⟨S16500000, .i32⟩
  | 121 => ⟨S16500000, .i32⟩
  | 122 => ⟨S16500000x1, .i32⟩
  | 123 => ⟨S16500000, .f32⟩
  | 124 => ⟨S16500000, .f32⟩
  | 125 => ⟨S500000x1, .f32⟩
  | 126 => ⟨S16500000x1, .f32⟩
  | 127 => ⟨S_, .i32⟩
  | _ => ⟨S500000x1, .f32⟩

abbrev hbmTy0_1 (i : Nat) : BufTy := match i % 128 with
  | 0 => ⟨S16500000, .i32⟩
  | 1 => ⟨S16500000, .i1⟩
  | 2 => ⟨S_, .i32⟩
  | 3 => ⟨S16500000, .i32⟩
  | 4 => ⟨S16500000, .i32⟩
  | 5 => ⟨S16500000, .i32⟩
  | 6 => ⟨S16500000x1, .i32⟩
  | 7 => ⟨S16500000x1, .f32⟩
  | 8 => ⟨S16500000x1, .f32⟩
  | 9 => ⟨S_, .f32⟩
  | 10 => ⟨S500000x1, .f32⟩
  | 11 => ⟨S16500000x1, .i32⟩
  | 12 => ⟨S500000x1, .f32⟩
  | 13 => ⟨S1x1, .f32⟩
  | 14 => ⟨S500000x1, .f32⟩
  | 15 => ⟨S500000x1, .f32⟩
  | 16 => ⟨S_, .f32⟩
  | 17 => ⟨S_, .f32⟩
  | 18 => ⟨S_, .f32⟩
  | 19 => ⟨S500000x1, .f32⟩
  | 20 => ⟨S500000x1, .f32⟩
  | 21 => ⟨S_, .f32⟩
  | 22 => ⟨S500000x1, .f32⟩
  | 23 => ⟨S500000x1, .f32⟩
  | _ => ⟨S500000x1, .f32⟩

abbrev hbmTy (i : Nat) : BufTy := match i / 128 with
  | 0 => hbmTy0_0 i
  | 1 => hbmTy0_1 i
  | _ => ⟨S500000x1, .f32⟩

abbrev bufTy : (tb : Table) → Fin (tcTables nBuf tb) → BufTy
  | .hbm, ⟨i, _⟩ => hbmTy i
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call1_cst : Ref sig .tc := ⟨.hbm, 75, rfl⟩
abbrev main_call1_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_call2_v0 : Ref sig .tc := ⟨.hbm, 102, rfl⟩
abbrev main_call2_v1 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_c_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_20 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_22 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_23 : Ref sig .tc := ⟨.hbm, 144, rfl⟩
abbrev main_cst_24 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_v107 : Ref sig .tc := ⟨.hbm, 151, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S500000_S1x500000_1 : S500000.BroadcastsInDim S1x500000 (![1] : Fin 1 → Fin S1x500000.rank)
  concatenates_S1x500000_S1x500000_S2x500000_d0 : Shape.Concatenates [S1x500000, S1x500000] S2x500000 0
  concatenates_S2x16000000_S2x500000_S2x16500000_d1 : Shape.Concatenates [S2x16000000, S2x500000] S2x16500000 1
  bcast_S_S500000 : S_.BroadcastsInDim S500000 (![] : Fin 0 → Fin S500000.rank)
  concatenates_S16000000_S500000_S16500000_d0 : Shape.Concatenates [S16000000, S500000] S16500000 0
  slices_S2x16500000_S1x16500000_0_0 : S2x16500000.Slices ![0, 0] S1x16500000
  shapeCasts_S1x16500000_S16500000 : S1x16500000.ShapeCasts S16500000
  slices_S2x16500000_S1x16500000_1_0 : S2x16500000.Slices ![1, 0] S1x16500000
  bcast_S16500000_S16500000x1_0 : S16500000.BroadcastsInDim S16500000x1 (![0] : Fin 1 → Fin S16500000x1.rank)
  bcast_S_S16500000 : S_.BroadcastsInDim S16500000 (![] : Fin 0 → Fin S16500000.rank)
  bcast_S16500000x1_S16500000x10_0_1 : S16500000x1.BroadcastsInDim S16500000x10 (![0, 1] : Fin 2 → Fin S16500000x10.rank)
  bcast_S_S500000x10 : S_.BroadcastsInDim S500000x10 (![] : Fin 0 → Fin S500000x10.rank)
  bcast_S10_S1x10_1 : S10.BroadcastsInDim S1x10 (![1] : Fin 1 → Fin S1x10.rank)
  bcast_S1x10_S500000x10_0_1 : S1x10.BroadcastsInDim S500000x10 (![0, 1] : Fin 2 → Fin S500000x10.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x1_S1x10_S500000x10_1_0_0_1_n_n_wf : DotDims.WF S500000x1 S1x10 S500000x10 [1] [0] [0] [1] [] []
  gather_S500000x10_S16500000x1_S16500000x10_1_0_n_n_0_1_110_wf : GatherDims.WF S500000x10 S16500000x1 S16500000x10 [1] [0] [] [0] [] 1 ![1, 10]
  scatter_S500000x10_S16500000x1_S16500000x10_1_0_0_1_wf : ScatterDims.WF S500000x10 S16500000x1 S16500000x10 [1] [0] [0] 1
  dot_S500000x10_S10x1_S500000x1_1_0_0_1_n_n_wf : DotDims.WF S500000x10 S10x1 S500000x1 [1] [0] [0] [1] [] []
  gather_S500000x1_S16500000x1_S16500000x1_1_0_n_n_0_1_11_wf : GatherDims.WF S500000x1 S16500000x1 S16500000x1 [1] [0] [] [0] [] 1 ![1, 1]
  scatter_S500000x1_S16500000x1_S16500000x1_1_0_0_1_wf : ScatterDims.WF S500000x1 S16500000x1 S16500000x1 [1] [0] [0] 1

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x1_S1x10_S500000x10_1_0_0_1_n_n : DotDims S500000x1 S1x10 S500000x10 where
  lhsContracting := [1]
  rhsContracting := [0]
  lhsNonContracting := [0]
  rhsNonContracting := [1]
  lhsBatch := []
  rhsBatch := []
  wf := dot_S500000x1_S1x10_S500000x10_1_0_0_1_n_n_wf
def gather_S500000x10_S16500000x1_S16500000x10_1_0_n_n_0_1_110 : GatherDims S500000x10 S16500000x1 S16500000x10 where
  offsetDims := [1]
  collapsedSliceDims := [0]
  operandBatchingDims := []
  startIndicesBatchingDims := []
  startIndexMap := [0]
  indexVectorDim := 1
  sliceSizes := ![1, 10]
  wf := gather_S500000x10_S16500000x1_S16500000x10_1_0_n_n_0_1_110_wf
def scatter_S500000x10_S16500000x1_S16500000x10_1_0_0_1 : ScatterDims S500000x10 S16500000x1 S16500000x10 where
  updateWindowDims := [1]
  insertedWindowDims := [0]
  scatterDimsToOperandDims := [0]
  indexVectorDim := 1
  wf := scatter_S500000x10_S16500000x1_S16500000x10_1_0_0_1_wf
def dot_S500000x10_S10x1_S500000x1_1_0_0_1_n_n : DotDims S500000x10 S10x1 S500000x1 where
  lhsContracting := [1]
  rhsContracting := [0]
  lhsNonContracting := [0]
  rhsNonContracting := [1]
  lhsBatch := []
  rhsBatch := []
  wf := dot_S500000x10_S10x1_S500000x1_1_0_0_1_n_n_wf
def gather_S500000x1_S16500000x1_S16500000x1_1_0_n_n_0_1_11 : GatherDims S500000x1 S16500000x1 S16500000x1 where
  offsetDims := [1]
  collapsedSliceDims := [0]
  operandBatchingDims := []
  startIndicesBatchingDims := []
  startIndexMap := [0]
  indexVectorDim := 1
  sliceSizes := ![1, 1]
  wf := gather_S500000x1_S16500000x1_S16500000x1_1_0_n_n_0_1_11_wf
def scatter_S500000x1_S16500000x1_S16500000x1_1_0_0_1 : ScatterDims S500000x1 S16500000x1 S16500000x1 where
  updateWindowDims := [1]
  insertedWindowDims := [0]
  scatterDimsToOperandDims := [0]
  indexVectorDim := 1
  wf := scatter_S500000x1_S16500000x1_S16500000x1_1_0_0_1_wf

class Facts : Prop extends Facts₀ where

variable [Facts]
-- ==== Proof.GcnSpec.lean ====
/-
  Two layers of graph convolution over an edge list, written index by index on the extended reals.

  An edge list is a source word and a target word per edge.  A target word is read SIGNED and names node `i`
  only when it equals `i` (anything else lands nowhere); a source word is read through the clamp of a table
  lookup (`node`): negative reads row 0, too large reads the last row.  `agg` sums a per-edge quantity over the
  edges whose target is a given node.

  The two programs differ in how they lay the list out and in where they multiply by the first weight row:
    * the padded list (`srcP`, `dstP`, weight `wP`): the 16,000,000 given edges, one self-loop per node, then
      15,072 padding edges aimed at the non-existent node 500000 with weight 0; the first layer aggregates
      `norm · x[src]` at width one and multiplies by the weight row AFTERWARDS;
    * the plain list (`srcL`, `dstL`, every weight 1): the given edges and the self-loops; source and target
      words are first sent through `wrapw` (a negative word has 500000 added); the first layer multiplies by the
      weight row BEFORE aggregating.
  `outP` and `outL` are the two results; that they agree (for finite features and weights and node words in
  range) is proved in another module.
-/
import Idealize.ShloMosaic.PureOps.Ideal
import Idealize.ShloMosaic.Lib.ValueIdx

noncomputable section

namespace Cert.Gcn

open Idealize.ShloMosaic

/-- The row of a 500000-row table that a lookup by the word `w` reads: `w` as a signed integer, clamped to the table. -/
def node (w : BitVec 32) : Fin 500000 := ⟨min w.toInt.toNat 499999, by omega⟩

/-- The sum of `f` over the edges whose target word, read signed, is exactly the node `i`. -/
def agg {K : Nat} (dst : Fin K → BitVec 32) (f : Fin K → EReal) (i : Fin 500000) : EReal :=
  ∑ e ∈ Finset.univ.filter (fun e : Fin K => (dst e).toInt = (i.val : Int)), f e

/-- Degree to normalisation factor: `1/√(max d ε)` where `d > 0`, else `0`; spelt with the scalar operations both
    programs print, so each program's chain is this function at every index by unfolding alone. -/
def dinvAt (d : EReal) : EReal :=
  Scalar.select (FloatOps.cmpf (F := Ideal) (φ := .f32) .ogt d (Ideal.ofBits .f32 0x00000000#32))
    (FloatOps.hostUnary (F := Ideal) (φ := .f32) .rsqrt (max d (Ideal.ofBits .f32 0x0DA24260#32)))
    (Ideal.ofBits .f32 0x00000000#32)

/-- The two clip bounds, kept as the words both programs carry. -/
def lo : EReal := Ideal.ofBits .f32 0xBF000000#32
def hi : EReal := Ideal.ofBits .f32 0x41180000#32

/-- A negative word has the table's length added (a from-the-end position); any other word is kept. -/
def wrapw (w : BitVec 32) : BitVec 32 := Scalar.select (IntOp.cmpi .slt w 0#32) (w + 500000#32) w

section
variable (x : Fin 500000 → EReal) (ei : Fin 2 → Fin 16000000 → BitVec 32)
  (w1 b1 w2 : Fin 10 → EReal) (b2 : EReal)

/-! ## The padded list -/

/-- Row `r` of the given edge words, then the self-loops' node numbers, then the padding word 500000. -/
def wordP (r : Fin 2) (e : Fin 16515072) : BitVec 32 :=
  if h : e.val < 16000000 then ei r ⟨e.val, h⟩
  else if e.val < 16500000 then BitVec.ofNat 32 (e.val - 16000000) else 500000#32
def srcP (e : Fin 16515072) : BitVec 32 := wordP ei 0 e
def dstP (e : Fin 16515072) : BitVec 32 := wordP ei 1 e
/-- Weight 1 on the real edges and self-loops, 0 on the padding. -/
def wP (e : Fin 16515072) : EReal := if e.val < 16500000 then 1 else 0

def degP (i : Fin 500000) : EReal := 0 + agg (dstP ei) wP i
def dinvP (i : Fin 500000) : EReal := dinvAt (degP ei i)
def normP (e : Fin 16515072) : EReal := (dinvP ei (node (srcP ei e)) * dinvP ei (node (dstP ei e))) * wP e
def s1P (i : Fin 500000) : EReal := 0 + agg (dstP ei) (fun e => normP ei e * x (node (srcP ei e))) i
def h1P (i : Fin 500000) (c : Fin 10) : EReal := max ((0 + s1P x ei i * w1 c) + b1 c) 0
/-- The second layer's ten products added one after the other onto zero. -/
def xw2P (i : Fin 500000) : EReal :=
  ((((((((((0 + h1P x ei w1 b1 i 0 * w2 0) + h1P x ei w1 b1 i 1 * w2 1) + h1P x ei w1 b1 i 2 * w2 2)
    + h1P x ei w1 b1 i 3 * w2 3) + h1P x ei w1 b1 i 4 * w2 4) + h1P x ei w1 b1 i 5 * w2 5)
    + h1P x ei w1 b1 i 6 * w2 6) + h1P x ei w1 b1 i 7 * w2 7) + h1P x ei w1 b1 i 8 * w2 8)
    + h1P x ei w1 b1 i 9 * w2 9)
def s2P (i : Fin 500000) : EReal :=
  0 + agg (dstP ei) (fun e => normP ei e * xw2P x ei w1 b1 w2 (node (srcP ei e))) i
def outP (i : Fin 500000) : EReal := min hi (max lo (s2P x ei w1 b1 w2 i + b2))

/-! ## The plain list -/

def wordL (r : Fin 2) (e : Fin 16500000) : BitVec 32 :=
  if h : e.val < 16000000 then ei r ⟨e.val, h⟩ else BitVec.ofNat 32 (e.val - 16000000)
def srcL (e : Fin 16500000) : BitVec 32 := wordL ei 0 e
def dstL (e : Fin 16500000) : BitVec 32 := wordL ei 1 e

def degL (i : Fin 500000) : EReal := 0 + agg (dstL ei) (fun _ => 1) i
def dinvL (i : Fin 500000) : EReal := dinvAt (degL ei i)
def normL (e : Fin 16500000) : EReal :=
  (dinvL ei (node (wrapw (srcL ei e))) * 1) * dinvL ei (node (wrapw (dstL ei e)))
/-- The first layer's linear map: a one-term contraction. -/
def xw1L (i : Fin 500000) (c : Fin 10) : EReal := ∑ _k : Fin 1, x i * w1 c
def h1L (i : Fin 500000) (c : Fin 10) : EReal :=
  max ((0 + agg (dstL ei) (fun e => normL ei e * xw1L x w1 (node (wrapw (srcL ei e))) c) i) + b1 c) 0
def xw2L (i : Fin 500000) : EReal := ∑ k : Fin 10, h1L x ei w1 b1 i k * w2 k
def s2L (i : Fin 500000) : EReal :=
  0 + agg (dstL ei) (fun e => normL ei e * xw2L x ei w1 b1 w2 (node (wrapw (srcL ei e)))) i
def outL (i : Fin 500000) : EReal := min hi (max lo (s2L x ei w1 b1 w2 i + b2))

end

end Cert.Gcn

end
-- ==== Proof.KBufs.lean ====
/-
  The idealized kernel program's arrays, named where the value proof reads them.

  The program is four pipelined regions among stretches of host operations; the generated frame names the buffer
  contents at every boundary between them (a fold from the launch memory).  Read at the extended reals, the arrays
  that carry the value are: the padded edge list's source and target words and its normalisation factors (made
  before the first region), the first region's per-edge products, their aggregate per node, the first linear
  map, the rectified hidden layer, the second linear map, its values gathered per edge, the last region's
  per-edge products, and the clipped result.  Each is given here as a plain function into the extended reals (or
  into 32-bit words), so that arithmetic on its entries is ordinary arithmetic.
-/
import proofs.«427156_j33560874451187_3_alg».proof.Proof.Gen.KernelIdeal.Frame
import proofs.«427156_j33560874451187_3_alg».proof.Proof.GcnSpec

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The arguments, as plain functions -/

/-- Node features (the one feature column). -/
def xIn : Fin 500000 → EReal := fun i => m ((c : Thread nD τ).loc main_arg0) (ix2 i 0)
/-- The given edges' words: row 0 sources, row 1 targets. -/
def eiIn : Fin 2 → Fin 16000000 → BitVec 32 := fun r e => m ((c : Thread nD τ).loc main_arg1) (ix2 r e)
/-- First layer's weight row and bias. -/
def w1In : Fin 10 → EReal := fun k => m ((c : Thread nD τ).loc main_arg2) (ix2 0 k)
def b1In : Fin 10 → EReal := fun k => m ((c : Thread nD τ).loc main_arg3) (ix1 k)
/-- Second layer's weight column and bias. -/
def w2In : Fin 10 → EReal := fun k => m ((c : Thread nD τ).loc main_arg4) (ix2 k 0)
def b2In : EReal := m ((c : Thread nD τ).loc main_arg5) (ix1 0)

/-- Lane `l` of row `r` of the 129024 × 128 layout is position `128 r + l` of the flat edge list. -/
def flat (r : Fin 129024) (l : Fin 128) : Fin 16515072 := ⟨r.val * 128 + l.val, by omega⟩

/-! ## The arrays that carry the value, at the boundary where each is complete -/

/-- Source and target words of the padded edge list (before the first region). -/
abbrev srcW : S16515072.Idx → BitVec 32 := W11 m ρ c (Proc.devRef .tc main_v7)
abbrev dstW : S16515072.Idx → BitVec 32 := W11 m ρ c (Proc.devRef .tc main_v8)
/-- The per-edge normalisation factors and the gathered features, both laid out 129024 × 128 (the first region's inputs). -/
abbrev normW : S129024x128.Idx → EReal := W11 m ρ c (Proc.devRef .tc main_v26)
abbrev val1W : S129024x128.Idx → EReal := W11 m ρ c (Proc.devRef .tc main_v29)
/-- The first region's output: per-edge products. -/
abbrev msg1W : S129024x128.Idx → EReal := W12 m ρ c (Proc.devRef .tc main_v30)
/-- Their aggregate per node, as a column (the second region's input). -/
abbrev s1W : S500000x1.Idx → EReal := W13 m ρ c (Proc.devRef .tc main_v35)
/-- The second region's output: the first linear map. -/
abbrev lin1W : S500000x10.Idx → EReal := W14 m ρ c (Proc.devRef .tc main_v36)
/-- Bias added and rectified (the third region's input). -/
abbrev h1W : S500000x10.Idx → EReal := W16 m ρ c (Proc.devRef .tc main_v40)
/-- The third region's output: the second linear map. -/
abbrev xw2W : S500000x1.Idx → EReal := W17 m ρ c (Proc.devRef .tc main_v41)
/-- Its values gathered per edge, laid out 129024 × 128, and the factors again, as the last region finds them. -/
abbrev val2W : S129024x128.Idx → EReal := W20 m ρ c (Proc.devRef .tc main_v44)
abbrev norm2W : S129024x128.Idx → EReal := W20 m ρ c (Proc.devRef .tc main_v26)
/-- The last region's output. -/
abbrev msg2W : S129024x128.Idx → EReal := W21 m ρ c (Proc.devRef .tc main_v45)
/-- The program's result. -/
abbrev outW : S500000x1.Idx → EReal := W23 m ρ c (Proc.devRef .tc main_v54)

end Cert.KernelIdeal.Val

end
-- ==== Proof.LibScatterTake.lean ====
/-
  General lemmas: a host scatter-add and a host gather along the leading axis, read at an index, at the extended reals.

  jnp's `segment_sum(data, ids, num_segments = N)` and `table.at[ids].add(data)` print as a `stablehlo.scatter` with an
  `add` body whose scatter indices are the [K × 1] column of the ids: update `e` lands on operand row `ids[e]` read as
  a SIGNED integer, and is dropped when that is outside `[0, N)` (nothing is clamped).  So an entry of the result is
  the operand's entry plus the sum of the updates whose id is that row.  jnp's `table[ids]` prints as a
  `stablehlo.gather` over the same column: result row `e` is operand row `ids[e]`, read signed and CLAMPED into
  `[0, N − 1]`.  Stated for any extents; the dimension numbers are taken as hypotheses that a printed record
  proves by `rfl`.
-/
import Idealize.ShloMosaic.PureOps.Ideal
import Idealize.ShloMosaic.PureOps.Contract
import Idealize.ShloMosaic.Lib.ValueIdx
import Idealize.ShloMosaic.Lib.StableHlo.Predicate

noncomputable section

namespace Cert.LibScatterTake

open Idealize.ShloMosaic Idealize.ShloMosaic.ValueIdx

/-- A list known to be a singleton reads its one entry at every valid position. -/
private theorem getElem_of_eq_singleton {α : Type} (l : List α) (v : α) (n : Nat) (h : n < l.length) (hl : l = [v]) :
    l[n]'h = v := by
  subst hl
  have : n = 0 := by simpa using h
  subst this; rfl

/-- Scatter-add of a length-`K` vector of updates into a length-`N` vector: entry `i` gains the updates whose id is `i`. -/
theorem scatterAdd_vec {N K : Nat} (d : ScatterDims ⟨1, ![N]⟩ ⟨2, ![K, 1]⟩ ⟨1, ![K]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![K, 1]⟩ 32) (upd : FVec Ideal ⟨1, ![K]⟩ .f32) (i : Fin N) :
    Host.scatterAdd d x idx upd (ix1 i)
      = x (ix1 i) + ∑ e ∈ Finset.univ.filter (fun e : Fin K => (idx (ix2 e 0)).toInt = (i.val : Int)), upd (ix1 e) := by
  have hskept : d.sKept = [] := by
    show (List.finRange 1).filter (· ∉ d.insertedWindowDims) = []
    rw [hiw]; rfl
  have hm : (0 : Fin 1) ∈ d.scatterDimsToOperandDims := by rw [hsd]; exact List.mem_singleton.mpr rfl
  -- the start of update e's window is its id, read signed
  have hstart : ∀ (e : Fin K) (a : Fin 1), d.start (ix1 e) idx a = (idx (ix2 e 0)).toInt := by
    intro e a
    obtain rfl : a = 0 := Subsingleton.elim _ _
    unfold ScatterDims.start
    rw [dif_pos hm]
    congr 2
    funext b
    refine Fin.ext ?_
    match b with
    | ⟨0, _⟩ =>
      unfold ScatterDims.siIdx
      rw [dif_neg (by rw [hivd]; simp)]
      unfold ScatterDims.siCoord
      simp only [Fin.val_cast]
      have e' : ∀ X : Fin 1, ((ix1 e : (⟨1, ![K]⟩ : Shape).Idx) X).val = e.val := fun X => by
        obtain rfl : X = 0 := Subsingleton.elim _ _
        rfl
      exact e' _
    | ⟨1, _⟩ =>
      unfold ScatterDims.siIdx
      rw [dif_pos (by rw [hivd])]
      show List.idxOf (0 : Fin 1) d.scatterDimsToOperandDims = 0
      rw [hsd]; simp
  -- the operand's one axis is inserted: no window coordinate
  have hwin : ∀ (e : Fin K) (a : Fin 1), d.window (ix1 e) a = 0 := by
    intro e a
    unfold ScatterDims.window
    rw [dif_neg (by rw [hskept]; exact List.not_mem_nil)]
  -- update e lands on entry i exactly when its id is i
  have hres : ∀ e : Fin K, d.resultIdx? (ix1 e) idx = some (ix1 i) ↔ (idx (ix2 e 0)).toInt = (i.val : Int) := by
    intro e
    unfold ScatterDims.resultIdx?
    split
    · next h =>
      rw [Option.some.injEq]
      have h0 := h 0
      rw [hstart, hwin] at h0
      constructor
      · intro hf
        have f0 : (d.start (ix1 e) idx 0 + d.window (ix1 e) 0).toNat = i.val := congrArg (fun f => (f 0).val) hf
        rw [hstart, hwin] at f0
        omega
      · intro ht
        funext a
        obtain rfl : a = 0 := Subsingleton.elim _ _
        refine Fin.ext ?_
        show (d.start (ix1 e) idx 0 + d.window (ix1 e) 0).toNat = i.val
        rw [hstart, hwin, ht]
        simp
    · next h =>
      constructor
      · intro hf; exact absurd hf (by simp)
      · intro ht
        exfalso
        apply h
        intro a
        obtain rfl : a = 0 := Subsingleton.elim _ _
        rw [hstart, hwin, ht]
        show 0 ≤ (i.val : Int) + ((0 : Nat) : Int) ∧ (i.val : Int) + ((0 : Nat) : Int) < ((N : Nat) : Int)
        have := i.isLt
        omega
  show x (ix1 i) + ∑ j ∈ Finset.univ.filter (fun j => d.resultIdx? j idx = some (ix1 i)), upd j = _
  congr 1
  refine Finset.sum_bij' (fun j _ => j 0) (fun e _ => ix1 e) ?_ ?_ ?_ ?_ ?_
  · intro j hj
    obtain ⟨e, rfl⟩ : ∃ e : Fin K, j = ix1 e := ⟨j 0, eq_ix1 j⟩
    exact Finset.mem_filter.2 ⟨Finset.mem_univ _, (hres e).1 (Finset.mem_filter.1 hj).2⟩
  · intro e he
    exact Finset.mem_filter.2 ⟨Finset.mem_univ _, (hres e).2 (Finset.mem_filter.1 he).2⟩
  · intro j _
    exact (eq_ix1 j).symm
  · intro e _
    rfl
  · intro j _
    exact congrArg upd (eq_ix1 j)

/-- Scatter-add of `K` rows of width `C` into an `N × C` array along the leading axis: entry `(i, k)` gains column `k` of
    the rows whose id is `i`. -/
theorem scatterAdd_rows {N K C : Nat} (d : ScatterDims ⟨2, ![N, C]⟩ ⟨2, ![K, 1]⟩ ⟨2, ![K, C]⟩)
    (huw : d.updateWindowDims = [1]) (hiw : d.insertedWindowDims = [0]) (hsd : d.scatterDimsToOperandDims = [0])
    (hivd : d.indexVectorDim = 1)
    (x : FVec Ideal ⟨2, ![N, C]⟩ .f32) (idx : IVec ⟨2, ![K, 1]⟩ 32) (upd : FVec Ideal ⟨2, ![K, C]⟩ .f32)
    (i : Fin N) (k : Fin C) :
    Host.scatterAdd d x idx upd (ix2 i k)
      = x (ix2 i k) + ∑ e ∈ Finset.univ.filter (fun e : Fin K => (idx (ix2 e 0)).toInt = (i.val : Int)), upd (ix2 e k) := by
  have hskept : d.sKept = [1] := by
    show (List.finRange 2).filter (· ∉ d.insertedWindowDims) = [1]
    rw [hiw]; rfl
  have huscatter : d.uScatter = [0] := by
    show (List.finRange 2).filter (· ∉ d.updateWindowDims) = [0]
    rw [huw]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hskept]; simp
  have hk1 : (1 : Fin 2) ∈ d.sKept := by rw [hskept]; simp
  -- on the leading axis the start of update (e, k')'s window is e's id, read signed
  have hstart0 : ∀ (e : Fin K) (k' : Fin C), d.start (ix2 e k') idx 0 = (idx (ix2 e 0)).toInt := by
    intro e k'
    unfold ScatterDims.start
    rw [dif_pos hm0]
    congr 2
    funext b
    refine Fin.ext ?_
    match b with
    | ⟨0, _⟩ =>
      unfold ScatterDims.siIdx
      rw [dif_neg (by rw [hivd]; simp)]
      unfold ScatterDims.siCoord
      simp only [Fin.val_cast]
      exact congrArg (fun a => ((ix2 e k' : (⟨2, ![K, C]⟩ : Shape).Idx) a).val) (getElem_of_eq_singleton _ 0 _ _ huscatter)
    | ⟨1, _⟩ =>
      unfold ScatterDims.siIdx
      rw [dif_pos (by rw [hivd])]
      show List.idxOf (0 : Fin 2) d.scatterDimsToOperandDims = 0
      rw [hsd]; simp
  -- the column axis is not start-indexed
  have hstart1 : ∀ (e : Fin K) (k' : Fin C), d.start (ix2 e k') idx 1 = 0 := by
    intro e k'
    unfold ScatterDims.start
    rw [dif_neg hm1]
  -- the leading axis is inserted, the column axis carries the update's column
  have hwin0 : ∀ (e : Fin K) (k' : Fin C), d.window (ix2 e k') 0 = 0 := by
    intro e k'
    unfold ScatterDims.window
    rw [dif_neg hk0]
  have hwin1 : ∀ (e : Fin K) (k' : Fin C), d.window (ix2 e k') 1 = k'.val := by
    intro e k'
    unfold ScatterDims.window
    rw [dif_pos hk1]
    exact congrArg (fun a => ((ix2 e k' : (⟨2, ![K, C]⟩ : Shape).Idx) a).val) (getElem_of_eq_singleton _ 1 _ _ huw)
  -- update (e, k') lands on entry (i, k) exactly when e's id is i and k' = k
  have hres : ∀ (e : Fin K) (k' : Fin C),
      d.resultIdx? (ix2 e k') idx = some (ix2 i k) ↔ (idx (ix2 e 0)).toInt = (i.val : Int) ∧ k' = k := by
    intro e k'
    unfold ScatterDims.resultIdx?
    split
    · next h =>
      rw [Option.some.injEq]
      have h0 := h 0
      rw [hstart0, hwin0] at h0
      constructor
      · intro hf
        have f0 : (d.start (ix2 e k') idx 0 + d.window (ix2 e k') 0).toNat = i.val := congrArg (fun f => (f 0).val) hf
        have f1 : (d.start (ix2 e k') idx 1 + d.window (ix2 e k') 1).toNat = k.val := congrArg (fun f => (f 1).val) hf
        rw [hstart0, hwin0] at f0
        rw [hstart1, hwin1] at f1
        exact ⟨by omega, Fin.ext (by omega)⟩
      · rintro ⟨ht, rfl⟩
        funext a
        refine Fin.ext ?_
        match a with
        | ⟨0, _⟩ =>
          show (d.start (ix2 e k') idx 0 + d.window (ix2 e k') 0).toNat = i.val
          rw [hstart0, hwin0, ht]
          simp
        | ⟨1, _⟩ =>
          show (d.start (ix2 e k') idx 1 + d.window (ix2 e k') 1).toNat = k'.val
          rw [hstart1, hwin1]
          simp
    · next h =>
      constructor
      · intro hf; exact absurd hf (by simp)
      · rintro ⟨ht, rfl⟩
        exfalso
        apply h
        intro a
        match a with
        | ⟨0, _⟩ =>
          show 0 ≤ d.start (ix2 e k') idx 0 + d.window (ix2 e k') 0 ∧ d.start (ix2 e k') idx 0 + d.window (ix2 e k') 0 < ((N : Nat) : Int)
          rw [hstart0, hwin0, ht]
          have := i.isLt
          omega
        | ⟨1, _⟩ =>
          show 0 ≤ d.start (ix2 e k') idx 1 + d.window (ix2 e k') 1 ∧ d.start (ix2 e k') idx 1 + d.window (ix2 e k') 1 < ((C : Nat) : Int)
          rw [hstart1, hwin1]
          have := k'.isLt
          omega
  show x (ix2 i k) + ∑ j ∈ Finset.univ.filter (fun j => d.resultIdx? j idx = some (ix2 i k)), upd j = _
  congr 1
  refine Finset.sum_bij' (fun j _ => j 0) (fun e _ => ix2 e k) ?_ ?_ ?_ ?_ ?_
  · intro j hj
    obtain ⟨e, k', rfl⟩ : ∃ (e : Fin K) (k' : Fin C), j = ix2 e k' := ⟨j 0, j 1, eq_ix2 j⟩
    exact Finset.mem_filter.2 ⟨Finset.mem_univ _, ((hres e k').1 (Finset.mem_filter.1 hj).2).1⟩
  · intro e he
    exact Finset.mem_filter.2 ⟨Finset.mem_univ _, (hres e k).2 ⟨(Finset.mem_filter.1 he).2, rfl⟩⟩
  · intro j hj
    obtain ⟨e, k', rfl⟩ : ∃ (e : Fin K) (k' : Fin C), j = ix2 e k' := ⟨j 0, j 1, eq_ix2 j⟩
    obtain rfl : k' = k := ((hres e k').1 (Finset.mem_filter.1 hj).2).2
    rfl
  · intro e _
    rfl
  · intro j hj
    obtain ⟨e, k', rfl⟩ : ∃ (e : Fin K) (k' : Fin C), j = ix2 e k' := ⟨j 0, j 1, eq_ix2 j⟩
    obtain rfl : k' = k := ((hres e k').1 (Finset.mem_filter.1 hj).2).2
    rfl

/-- Gather of entries of a length-`N` vector by a column of ids: position `e` reads the entry at its id, clamped. -/
theorem gather_vec {α : Type} {N K : Nat} (d : GatherDims ⟨1, ![N]⟩ ⟨2, ![K, 1]⟩ ⟨1, ![K]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![K, 1]⟩ 32) (e : Fin K) (hN : 0 < N) :
    Host.gather d x idx (ix1 e) = x (ix1 ⟨min (idx (ix2 e 0)).toInt.toNat (N - 1), by omega⟩) := by
  have h1 : ∀ {n : Nat} (p : Fin n), (Shape.Idx.ofFin p : (⟨1, ![n]⟩ : Shape).Idx) = ix1 p := by
    intro n p; funext a; match a with | ⟨0, _⟩ => rfl
  have h2 : StableHlo.Predicate.ixP e = ix2 e 0 := by
    funext a; match a with | ⟨0, _⟩ => rfl | ⟨1, _⟩ => rfl
  have h := StableHlo.Predicate.gather_take d hcoll hob hsim hivd x idx e hN
  simp only [h1, h2] at h
  exact h

/-- Gather of rows of an `N × C` array by a column of ids: row `e` of the result is the row at its id, clamped. -/
theorem gather_rows {α : Type} {N K C : Nat} (d : GatherDims ⟨2, ![N, C]⟩ ⟨2, ![K, 1]⟩ ⟨2, ![K, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![K, 1]⟩ 32) (e : Fin K) (k : Fin C) (hN : 0 < N) :
    Host.gather d x idx (ix2 e k) = x (ix2 ⟨min (idx (ix2 e 0)).toInt.toNat (N - 1), by omega⟩ k) := by
  unfold Host.gather
  congr 1
  have hb : ∀ a : Fin 2, a ∉ d.operandBatchingDims := fun a => by rw [hob]; exact List.not_mem_nil
  have hskept : d.sKept = [1] := by
    show (List.finRange 2).filter (· ∉ d.collapsedSliceDims ++ d.operandBatchingDims) = [1]
    rw [hcoll, hob]; rfl
  have hbatch : d.batchDims = [0] := by
    show (List.finRange 2).filter (· ∉ d.offsetDims) = [0]
    rw [hoff]; rfl
  have hsik : d.siKept = [0] := by
    show (List.finRange 2).filter (·.val ≠ d.indexVectorDim) = [0]
    rw [hivd]; rfl
  funext a
  refine Fin.ext ?_
  show d.start (ix2 e k) idx a + d.batchCoord (ix2 e k) a + d.offCoord (ix2 e k) a = _
  rw [GatherDims.batchCoord_eq_zero _ _ _ (hb a), Nat.add_zero]
  match a with
  | ⟨0, _⟩ =>
    have hk : (0 : Fin 2) ∉ d.sKept := by rw [hskept]; simp
    have hm : (0 : Fin 2) ∈ d.startIndexMap := by rw [hsim]; exact List.mem_singleton.mpr rfl
    have hsl : d.sliceSizes 0 = 1 := by rw [hss]; rfl
    rw [show (⟨0, by omega⟩ : Fin 2) = 0 from rfl, GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e 0 := by
      funext b
      refine Fin.ext ?_
      match b with
      | ⟨0, _⟩ =>
        unfold GatherDims.siIdx
        rw [dif_neg (by rw [hivd]; simp)]
        unfold GatherDims.siCoord
        simp only [Fin.val_cast]
        exact congrArg (fun a => ((ix2 e k : (⟨2, ![K, C]⟩ : Shape).Idx) a).val) (getElem_of_eq_singleton _ 0 _ _ hbatch)
      | ⟨1, _⟩ =>
        unfold GatherDims.siIdx
        rw [dif_pos (by rw [hivd])]
        show List.idxOf (0 : Fin 2) d.startIndexMap = 0
        rw [hsim]; simp
    rw [hsi]
    rfl
  | ⟨1, _⟩ =>
    have hk : (1 : Fin 2) ∈ d.sKept := by rw [hskept]; simp
    have hm : (1 : Fin 2) ∉ d.startIndexMap := by rw [hsim]; simp
    rw [show (⟨1, by omega⟩ : Fin 2) = 1 from rfl]
    unfold GatherDims.start GatherDims.offCoord
    rw [dif_neg hm, dif_pos hk, Nat.zero_add]
    exact congrArg (fun a => ((ix2 e k : (⟨2, ![K, C]⟩ : Shape).Idx) a).val) (getElem_of_eq_singleton _ 1 _ _ hoff)

end Cert.LibScatterTake

end
-- ==== Proof.KStage0.lean ====
/-
  The host operations before the first region, read at an index: the padded edge list and its factors.

  The source (target) words are row 0 (row 1) of the given edge words, then the node numbers 0 … 499999 (the
  self-loops), then 15,072 copies of the word 500000.  The weight is 1 below position 16,500,000 and 0 from there
  on.  The degree of node `i` is the sum of the weights over the edges whose target word is `i`; the factor of a
  node is the reciprocal square root of its degree; an edge's normalisation is the product of its two ends'
  factors (each end looked up through the clamp) and its weight.  The gathered feature of an edge is the feature
  of its source's clamped node.
-/
import proofs.«427156_j33560874451187_3_alg».proof.Proof.KBufs
import proofs.«427156_j33560874451187_3_alg».proof.Proof.LibScatterTake
import Idealize.ShloMosaic.Lib.KernelVsHost
import Idealize.ShloMosaic.Lib.IdealHost

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The layout operations that build the padded list, read at a position (no program state involved) -/

/-- Row `r` of the given words, cut out as a one-row slice and flattened, read at position `p`. -/
private theorem row_apply (A : S2x16000000.Idx → BitVec 32) (r : Fin 2) (off : Fin 2 → Nat)
    (h0 : off 0 = r.val) (h1 : off 1 = 0)
    (hs : S2x16000000.Slices off S1x16000000) (hc : S1x16000000.ShapeCasts S16000000) (p : Fin 16000000) :
    shapeCast S16000000 (extractStridedSlice S1x16000000 off A hs) hc (ix1 p) = A (ix2 r p) := by
  refine (shapeCast_apply _ hc (ix1 p) (ix2 (0 : Fin 1) p) ?_).trans ?_
  · rw [Shape.rowMajor_val_two, Shape.rowMajor_val_one]
    show 0 * 16000000 + p.val = p.val
    omega
  · refine extractStridedSlice_apply off A hs _ (ix2 r p) (fun a => ?_)
    match a with
    | ⟨0, _⟩ => show r.val = off 0 + 0; omega
    | ⟨1, _⟩ => show p.val = off 1 + p.val; omega

/-- A list of 16,000,000 words, then the node numbers 0 … 499999, then padding up to 16,515,072 with the one
    word of `v`: what a position reads depends only on which of the three stretches it falls in. -/
private theorem pad_concat_iota_apply (x₁ : S16000000.Idx → BitVec 32)
    (hcat : Shape.Concatenates [S16000000, S500000] S16500000 0)
    (hp : S16500000.Pads (![0] : Fin 1 → Nat) ![15072] ![0] S16515072)
    (v : S_.Idx → BitVec 32) (hu : 0 < S_.numel) (e : Fin 16515072) :
    pad S16515072 ![0] ![15072] ![0]
        (concatenate S16500000 0 [⟨S16000000, x₁⟩, ⟨S500000, iotaInDim S500000 32 0⟩] hcat) v hp hu (ix1 e)
      = if h : e.val < 16000000 then x₁ (ix1 ⟨e.val, h⟩)
        else if e.val < 16500000 then BitVec.ofNat 32 (e.val - 16000000) else v (Shape.Idx.first hu) := by
  by_cases h : e.val < 16000000
  · rw [dif_pos h]
    refine (pad_apply_of_inside _ _ _ _ v hp hu (ix1 e) (ix1 (⟨e.val, by omega⟩ : Fin 16500000)) (fun a => ?_)).trans ?_
    · obtain rfl : a = 0 := Subsingleton.elim _ _
      show e.val = 0 + e.val * (0 + 1)
      omega
    · exact concatenate_pair_apply_left 0 x₁ _ hcat _ rfl (ix1 ⟨e.val, h⟩) (fun b => by
        obtain rfl : b = 0 := Subsingleton.elim _ _
        rfl)
  · rw [dif_neg h]
    by_cases h2 : e.val < 16500000
    · rw [if_pos h2]
      refine (pad_apply_of_inside _ _ _ _ v hp hu (ix1 e) (ix1 (⟨e.val, h2⟩ : Fin 16500000)) (fun a => ?_)).trans ?_
      · obtain rfl : a = 0 := Subsingleton.elim _ _
        show e.val = 0 + e.val * (0 + 1)
        omega
      · exact concatenate_pair_apply_right 0 x₁ _ hcat _ rfl rfl (ix1 (⟨e.val - 16000000, by omega⟩ : Fin 500000))
          (fun b hb => absurd (Subsingleton.elim _ _) hb) (by
            show e.val - 16000000 + 16000000 = e.val
            omega)
    · rw [if_neg h2]
      refine pad_apply_of_not_inside _ _ _ _ v hp hu (ix1 e) 0 (fun hin => h2 ?_)
      have h3 : (e.val - 0) / (0 + 1) < 16500000 := hin.2.2
      simpa using h3

/-! ## What a stretch of host operations leaves at one buffer

Each lemma is about ONE literal stretch run from arbitrary contents `V`: the buffer it names is written by one
operation of the stretch, whose operands are read where the stretch found or made them. -/

section Stretches
variable (V : Valuation τ sig (Elt Ideal))

/-- The source words before padding: row 0 of the given words, then the node numbers. -/
private theorem after0_v5 : StableHlo.after (hostOps0 (F := Ideal)) V (Proc.devRef .tc main_v5)
    = concatenate S16500000 0
        [⟨S16000000, shapeCast S16000000 (extractStridedSlice S1x16000000 ![0, 0]
            (V (Proc.devRef .tc main_arg1) : S2x16000000.Idx → BitVec 32) slices_S2x16000000_S1x16000000_0_0)
            shapeCasts_S1x16000000_S16000000⟩,
         ⟨S500000, iotaInDim S500000 32 0⟩] concatenates_S16000000_S500000_S16500000_d0 := by
  simp only [hostOps0]
  after_results
  try rfl

/-- The target words before padding: row 1 of the given words, then the node numbers. -/
private theorem after0_v6 : StableHlo.after (hostOps0 (F := Ideal)) V (Proc.devRef .tc main_v6)
    = concatenate S16500000 0
        [⟨S16000000, shapeCast S16000000 (extractStridedSlice S1x16000000 ![1, 0]
            (V (Proc.devRef .tc main_arg1) : S2x16000000.Idx → BitVec 32) slices_S2x16000000_S1x16000000_1_0)
            shapeCasts_S1x16000000_S16000000⟩,
         ⟨S500000, iotaInDim S500000 32 0⟩] concatenates_S16000000_S500000_S16500000_d0 := by
  simp only [hostOps0]
  after_results
  try rfl

/-- The padding word of the source list. -/
private theorem after0_c : StableHlo.after (hostOps0 (F := Ideal)) V (Proc.devRef .tc main_c)
    = constantI S_ 32 500000#32 := by
  simp only [hostOps0]
  after_results
  try rfl

/-- The source words: the unpadded list padded at its end with the padding word. -/
private theorem after01_v7 : StableHlo.after (hostOps0_1 (F := Ideal)) V (Proc.devRef .tc main_v7)
    = pad S16515072 ![0] ![15072] ![0] (V (Proc.devRef .tc main_v5) : S16500000.Idx → BitVec 32)
        (V (Proc.devRef .tc main_c) : S_.Idx → BitVec 32) pads_S16500000_S16515072_0150720 h_S_ := by
  simp only [hostOps0_1]
  after_results
  try rfl

/-- The padding word of the target list. -/
private theorem after02_c0 : StableHlo.after (hostOps0_2 (F := Ideal)) V (Proc.devRef .tc main_c_0)
    = constantI S_ 32 500000#32 := by
  simp only [hostOps0_2]
  after_results
  try rfl

/-- The target words: the unpadded list padded at its end with the padding word. -/
private theorem after03_v8 : StableHlo.after (hostOps0_3 (F := Ideal)) V (Proc.devRef .tc main_v8)
    = pad S16515072 ![0] ![15072] ![0] (V (Proc.devRef .tc main_v6) : S16500000.Idx → BitVec 32)
        (V (Proc.devRef .tc main_c_0) : S_.Idx → BitVec 32) pads_S16500000_S16515072_0150720 h_S_ := by
  simp only [hostOps0_3]
  after_results
  try rfl

end Stretches

/-! ## Buffers a stretch does not write keep their contents -/

/-- One stretch that does not write the named buffer: every operation's result buffer is another reference. -/
local macro "kept_through " l:ident " at " r:ident : tactic =>
  `(tactic| exact StableHlo.after_of_forall_not_mem (b := Proc.devRef .tc $r) _ _ (List.forall_iff_forall_mem.mp (by
      simp only [$l:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

private theorem W9_v7 : W9 m ρ c (Proc.devRef .tc main_v7) = W2 m ρ c (Proc.devRef .tc main_v7) :=
  calc W9 m ρ c (Proc.devRef .tc main_v7)
    _ = W8 m ρ c (Proc.devRef .tc main_v7) := by kept_through hostOps0_8 at main_v7
    _ = W7 m ρ c (Proc.devRef .tc main_v7) := by kept_through hostOps0_7 at main_v7
    _ = W6 m ρ c (Proc.devRef .tc main_v7) := by kept_through hostOps0_6 at main_v7
    _ = W5 m ρ c (Proc.devRef .tc main_v7) := by kept_through hostOps0_5 at main_v7
    _ = W4 m ρ c (Proc.devRef .tc main_v7) := by kept_through hostOps0_4 at main_v7
    _ = W3 m ρ c (Proc.devRef .tc main_v7) := by kept_through hostOps0_3 at main_v7
    _ = W2 m ρ c (Proc.devRef .tc main_v7) := by kept_through hostOps0_2 at main_v7

private theorem W11_v7 : W11 m ρ c (Proc.devRef .tc main_v7) = W9 m ρ c (Proc.devRef .tc main_v7) :=
  calc W11 m ρ c (Proc.devRef .tc main_v7)
    _ = W10 m ρ c (Proc.devRef .tc main_v7) := by kept_through hostOps0_10 at main_v7
    _ = W9 m ρ c (Proc.devRef .tc main_v7) := by kept_through hostOps0_9 at main_v7

private theorem W11_v8 : W11 m ρ c (Proc.devRef .tc main_v8) = W4 m ρ c (Proc.devRef .tc main_v8) :=
  calc W11 m ρ c (Proc.devRef .tc main_v8)
    _ = W10 m ρ c (Proc.devRef .tc main_v8) := by kept_through hostOps0_10 at main_v8
    _ = W9 m ρ c (Proc.devRef .tc main_v8) := by kept_through hostOps0_9 at main_v8
    _ = W8 m ρ c (Proc.devRef .tc main_v8) := by kept_through hostOps0_8 at main_v8
    _ = W7 m ρ c (Proc.devRef .tc main_v8) := by kept_through hostOps0_7 at main_v8
    _ = W6 m ρ c (Proc.devRef .tc main_v8) := by kept_through hostOps0_6 at main_v8
    _ = W5 m ρ c (Proc.devRef .tc main_v8) := by kept_through hostOps0_5 at main_v8
    _ = W4 m ρ c (Proc.devRef .tc main_v8) := by kept_through hostOps0_4 at main_v8

private theorem W3_v6 : W3 m ρ c (Proc.devRef .tc main_v6) = W1 m ρ c (Proc.devRef .tc main_v6) :=
  calc W3 m ρ c (Proc.devRef .tc main_v6)
    _ = W2 m ρ c (Proc.devRef .tc main_v6) := by kept_through hostOps0_2 at main_v6
    _ = W1 m ρ c (Proc.devRef .tc main_v6) := by kept_through hostOps0_1 at main_v6

/-! ## The two word arrays as closed expressions over the launch memory -/

/-- A row of the given words, the node numbers, and the padding word, as one array. -/
private abbrev wordsOf (A : S2x16000000.Idx → BitVec 32) (off : Fin 2 → Nat) (hs : S2x16000000.Slices off S1x16000000) :
    S16515072.Idx → BitVec 32 :=
  pad S16515072 ![0] ![15072] ![0]
    (concatenate S16500000 0
      [⟨S16000000, shapeCast S16000000 (extractStridedSlice S1x16000000 off A hs) shapeCasts_S1x16000000_S16000000⟩,
       ⟨S500000, iotaInDim S500000 32 0⟩] concatenates_S16000000_S500000_S16500000_d0)
    (constantI S_ 32 500000#32) pads_S16500000_S16515072_0150720 h_S_

private theorem srcW_eq : srcW m ρ c
    = wordsOf (W0 m ρ c (Proc.devRef .tc main_arg1)) ![0, 0] slices_S2x16000000_S1x16000000_0_0 := by
  refine (W11_v7 m ρ c).trans ((W9_v7 m ρ c).trans ((after01_v7 (W1 m ρ c)).trans ?_))
  rw [show W1 m ρ c (Proc.devRef .tc main_v5) = _ from after0_v5 (W0 m ρ c),
    show W1 m ρ c (Proc.devRef .tc main_c) = _ from after0_c (W0 m ρ c)]

private theorem dstW_eq : dstW m ρ c
    = wordsOf (W0 m ρ c (Proc.devRef .tc main_arg1)) ![1, 0] slices_S2x16000000_S1x16000000_1_0 := by
  refine (W11_v8 m ρ c).trans ((after03_v8 (W3 m ρ c)).trans ?_)
  rw [W3_v6 m ρ c, show W1 m ρ c (Proc.devRef .tc main_v6) = _ from after0_v6 (W0 m ρ c),
    show W3 m ρ c (Proc.devRef .tc main_c_0) = _ from after02_c0 (W2 m ρ c)]

/-- The words of the padded list, read at a position. -/
private theorem wordsOf_apply (A : S2x16000000.Idx → BitVec 32) (r : Fin 2) (off : Fin 2 → Nat)
    (h0 : off 0 = r.val) (h1 : off 1 = 0) (hs : S2x16000000.Slices off S1x16000000) (e : Fin 16515072) :
    wordsOf A off hs (ix1 e) = Cert.Gcn.wordP (fun r p => A (ix2 r p)) r e := by
  refine (pad_concat_iota_apply _ _ _ _ _ e).trans ?_
  unfold Cert.Gcn.wordP
  by_cases h : e.val < 16000000
  · simp only [dif_pos h]
    exact row_apply A r off h0 h1 hs _ ⟨e.val, h⟩
  · simp only [dif_neg h]
    by_cases h2 : e.val < 16500000
    · simp only [if_pos h2]
    · simp only [if_neg h2]
      rfl

theorem src_apply (e : Fin 16515072) : srcW m ρ c (ix1 e) = Cert.Gcn.srcP (eiIn m c) e := by
  rw [srcW_eq]
  exact wordsOf_apply _ 0 ![0, 0] rfl rfl _ e
theorem dst_apply (e : Fin 16515072) : dstW m ρ c (ix1 e) = Cert.Gcn.dstP (eiIn m c) e := by
  rw [dstW_eq]
  exact wordsOf_apply _ 1 ![1, 0] rfl rfl _ e

/-- No operation of the named stretch writes the buffer read: each operation's written buffer is another one. -/
local macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The weight is complete after the fifth stretch: none of the later ones writes it. -/
theorem W11_v12 : W11 m ρ c (Proc.devRef .tc main_v12) = W5 m ρ c (Proc.devRef .tc main_v12) :=
  calc W11 m ρ c (Proc.devRef .tc main_v12)
    _ = W10 m ρ c (Proc.devRef .tc main_v12) := by keeps hostOps0_10
    _ = W9 m ρ c (Proc.devRef .tc main_v12) := by keeps hostOps0_9
    _ = W8 m ρ c (Proc.devRef .tc main_v12) := by keeps hostOps0_8
    _ = W7 m ρ c (Proc.devRef .tc main_v12) := by keeps hostOps0_7
    _ = W6 m ρ c (Proc.devRef .tc main_v12) := by keeps hostOps0_6
    _ = W5 m ρ c (Proc.devRef .tc main_v12) := by keeps hostOps0_5

/-- The factor is complete after the sixth stretch. -/
theorem W11_v21 : W11 m ρ c (Proc.devRef .tc main_v21) = W6 m ρ c (Proc.devRef .tc main_v21) :=
  calc W11 m ρ c (Proc.devRef .tc main_v21)
    _ = W10 m ρ c (Proc.devRef .tc main_v21) := by keeps hostOps0_10
    _ = W9 m ρ c (Proc.devRef .tc main_v21) := by keeps hostOps0_9
    _ = W8 m ρ c (Proc.devRef .tc main_v21) := by keeps hostOps0_8
    _ = W7 m ρ c (Proc.devRef .tc main_v21) := by keeps hostOps0_7
    _ = W6 m ρ c (Proc.devRef .tc main_v21) := by keeps hostOps0_6

/-- The weight's term at an edge: the position compared (signed) with 16,500,000, the bit read as a number. -/
theorem wterm_apply (e : Fin 16515072) :
    (uitofp .f32 (cmpi .slt (iotaInDim S16515072 32 0) (broadcastInDim S16515072 ![] bcast_S_S16515072 (constantI S_ 32 16500000#32)))
      : FVec Ideal S16515072 .f32) (ix1 e) = Cert.Gcn.wP e := by
  show (((IntOp.cmpi .slt (BitVec.ofNat 32 e.val) (16500000#32)).toNat : ℝ) : EReal) = Cert.Gcn.wP e
  have hbit : IntOp.cmpi .slt (BitVec.ofNat 32 e.val) (16500000#32) = if e.val < 16500000 then 1#1 else 0#1 := by
    have hiff := StableHlo.Predicate.slt_ofNat_iff e.val 16500000 (by have := e.isLt; omega) (by norm_num)
    split
    · next h => exact hiff.mpr h
    · next h => exact eq_zero_of_ne_one (fun h1 => h (hiff.mp h1))
  rw [hbit]
  unfold Cert.Gcn.wP
  split <;> simp

/-- The weight of edge `e`: 1 below position 16,500,000, 0 from there on. -/
theorem valid_apply (e : Fin 16515072) :
    (W11 m ρ c (Proc.devRef .tc main_v12) : S16515072.Idx → EReal) (ix1 e) = Cert.Gcn.wP e := by
  rw [W11_v12]
  dsimp only [W5]
  simp only [hostOps0_4]
  after_results
  exact wterm_apply e

/-- A vector kept as a column reads, at row `p`, the vector at `p`. -/
theorem bcast_col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p 0) = v (ix1 p) := by
  have h1 : (Shape.Idx.ofFin p : (⟨1, ![n]⟩ : Shape).Idx) = ix1 p := by
    funext a; match a with | ⟨0, _⟩ => rfl
  have h2 : StableHlo.Predicate.ixP p = ix2 p 0 := by
    funext a; match a with | ⟨0, _⟩ => rfl | ⟨1, _⟩ => rfl
  have h := StableHlo.Predicate.bcast_col1 h₁ v p
  simp only [h1, h2] at h
  exact h

set_option maxRecDepth 16384 in
/-- The degree's term at a node: zero plus the weights of the edges whose target word is that node. -/
theorem deg_term_apply (i : Fin 500000) :
    (Host.scatterAdd scatter_S500000_S16515072x1_S16515072_n_0_0_1
        (broadcastInDim S500000 ![] bcast_S_S500000 (constant S_ .f32 0x00000000#32))
        (broadcastInDim S16515072x1 ![0] bcast_S16515072_S16515072x1_0 (W4 m ρ c (Proc.devRef .tc main_v8)))
        (uitofp .f32 (cmpi .slt (iotaInDim S16515072 32 0)
          (broadcastInDim S16515072 ![] bcast_S_S16515072 (constantI S_ 32 16500000#32))))
      : FVec Ideal S500000 .f32) (ix1 i) = Cert.Gcn.degP (eiIn m c) i := by
  refine (Cert.LibScatterTake.scatterAdd_vec _ rfl rfl rfl rfl _ _ _ i).trans ?_
  have hz : Ideal.ofBits .f32 0x00000000#32 = (0 : EReal) := by simp [Ideal.ofBits, Ideal.ieee]
  have h0 : (broadcastInDim S500000 ![] bcast_S_S500000 (constant S_ .f32 0x00000000#32) : FVec Ideal S500000 .f32) (ix1 i) = (0 : EReal) := hz
  have hidx : ∀ e : Fin 16515072,
      (broadcastInDim S16515072x1 ![0] bcast_S16515072_S16515072x1_0 (W4 m ρ c (Proc.devRef .tc main_v8)) : IVec S16515072x1 32) (ix2 e 0)
        = Cert.Gcn.dstP (eiIn m c) e := by
    intro e
    refine (bcast_col_apply bcast_S16515072_S16515072x1_0 (W4 m ρ c (Proc.devRef .tc main_v8)) e).trans ?_
    rw [← W11_v8 m ρ c]
    exact dst_apply m ρ c e
  rw [h0]
  unfold Cert.Gcn.degP Cert.Gcn.agg
  exact congrArg (fun s => (0 : EReal) + s)
    (Finset.sum_congr (Finset.filter_congr fun e _ => by rw [hidx e]) fun e _ => wterm_apply e)

/-- The degree of node `i`: zero plus the weights of the edges whose target word is `i`. -/
theorem deg_apply (i : Fin 500000) :
    (W5 m ρ c (Proc.devRef .tc main_v15) : S500000.Idx → EReal) (ix1 i) = Cert.Gcn.degP (eiIn m c) i := by
  dsimp only [W5]
  generalize hV4 : W4 m ρ c = V4
  simp only [hostOps0_4]
  after_results
  subst hV4
  exact deg_term_apply m ρ c i

/-- The three arrays the factor is selected from, each in terms of the degree array: "degree above zero",
    the reciprocal square root of the degree kept above a tiny positive constant, and the zero scalar. -/
theorem v17_eq :
    (W5 m ρ c (Proc.devRef .tc main_v17) : IVec S500000 1)
      = (cmpf (F := Ideal) .ogt (W5 m ρ c (Proc.devRef .tc main_v15) : FVec Ideal S500000 .f32)
          (broadcastInDim S500000 ![] bcast_S_S500000 (constant (F := Ideal) S_ .f32 0x00000000#32)) : IVec S500000 1) := by
  dsimp only [W5]
  generalize W4 m ρ c = V4
  simp only [hostOps0_4]
  after_results <;> rfl
theorem v20_eq :
    (W5 m ρ c (Proc.devRef .tc main_v20) : FVec Ideal S500000 .f32)
      = (Host.rsqrt (F := Ideal) (maximumf (F := Ideal) (W5 m ρ c (Proc.devRef .tc main_v15) : FVec Ideal S500000 .f32)
          (broadcastInDim S500000 ![] bcast_S_S500000 (constant (F := Ideal) S_ .f32 0x0DA24260#32))) : FVec Ideal S500000 .f32) := by
  dsimp only [W5]
  generalize W4 m ρ c = V4
  simp only [hostOps0_4]
  after_results <;> rfl
theorem cst4_eq :
    (W5 m ρ c (Proc.devRef .tc main_cst_4) : FVec Ideal S_ .f32) = (constant (F := Ideal) S_ .f32 0x00000000#32 : FVec Ideal S_ .f32) := by
  dsimp only [W5]
  generalize W4 m ρ c = V4
  simp only [hostOps0_4]
  after_results <;> rfl

set_option maxRecDepth 16384 in
/-- The factor array is the selection, by "degree above zero", between the reciprocal square root and zero. -/
theorem v21_eq :
    (W6 m ρ c (Proc.devRef .tc main_v21) : FVec Ideal S500000 .f32)
      = (select (W5 m ρ c (Proc.devRef .tc main_v17) : IVec S500000 1) (W5 m ρ c (Proc.devRef .tc main_v20) : FVec Ideal S500000 .f32)
          (broadcastInDim S500000 ![] bcast_S_S500000 (W5 m ρ c (Proc.devRef .tc main_cst_4) : FVec Ideal S_ .f32)) : FVec Ideal S500000 .f32) := by
  dsimp only [W6]
  generalize W5 m ρ c = V5
  simp only [hostOps0_5]
  after_results_simp
  simp only [StableHlo.TRef.ofBuf, StableHlo.TRef.toBuf, cast_eq] <;> rfl

set_option maxRecDepth 16384 in
/-- The factor of node `i`: the reciprocal square root of its degree where that is positive, else zero. -/
theorem dinv_apply (i : Fin 500000) :
    (W11 m ρ c (Proc.devRef .tc main_v21) : S500000.Idx → EReal) (ix1 i) = Cert.Gcn.dinvP (eiIn m c) i := by
  rw [W11_v21, v21_eq, v17_eq, v20_eq, cst4_eq]
  have hdeg := deg_apply m ρ c i
  -- the degree enters the selection as one array: name it, so that the selection is read without opening its sum
  obtain ⟨D, hD⟩ : ∃ D : FVec Ideal S500000 .f32, D = W5 m ρ c (Proc.devRef .tc main_v15) := ⟨_, rfl⟩
  rw [← hD] at hdeg ⊢
  exact (show _ = Cert.Gcn.dinvAt (D (ix1 i)) from rfl).trans (congrArg Cert.Gcn.dinvAt hdeg)

/-- A table of one entry per node looked up at every position's word: the word goes in as a one-column array and
    the lookup reads the table at it, signed and clamped. -/
def takeV (tbl : FVec Ideal S500000 .f32) (idx : IVec S16515072 32) : FVec Ideal S16515072 .f32 :=
  Host.gather gather_S500000_S16515072x1_S16515072_n_0_n_n_0_1_1 tbl
    (broadcastInDim S16515072x1 ![0] bcast_S16515072_S16515072x1_0 idx)

/-- The lookup at position `e` reads the table at the clamped node of the word at `e`. -/
theorem takeV_apply (tbl : FVec Ideal S500000 .f32) (idx : IVec S16515072 32) (e : Fin 16515072) :
    takeV tbl idx (ix1 e) = tbl (ix1 (Cert.Gcn.node (idx (ix1 e)))) := by
  unfold takeV
  have hb : broadcastInDim S16515072x1 ![0] bcast_S16515072_S16515072x1_0 idx (ix2 e 0) = idx (ix1 e) :=
    broadcastInDim_apply _ bcast_S16515072_S16515072x1_0 idx (ix2 e 0) (ix1 e) (by
      intro a
      have ha : a = 0 := Subsingleton.elim _ _
      subst ha
      rfl)
  rw [Cert.LibScatterTake.gather_vec _ rfl rfl rfl rfl tbl _ e (by norm_num)]
  refine congrArg tbl (congrArg ix1 (Fin.ext ?_))
  show min (broadcastInDim S16515072x1 ![0] bcast_S16515072_S16515072x1_0 idx (ix2 e 0)).toInt.toNat (500000 - 1)
    = min (idx (ix1 e)).toInt.toNat 499999
  rw [hb]

/-- The factor looked up at the source words. -/
theorem fsrc_term :
    (W11 m ρ c (Proc.devRef .tc main_v22) : FVec Ideal S16515072 .f32)
      = takeV (W11 m ρ c (Proc.devRef .tc main_v21)) (srcW m ρ c) := by
  unfold takeV
  dsimp only [srcW, W11, W10, W9, W8, W7]
  generalize W6 m ρ c = V
  simp only [hostOps0_10, hostOps0_9, hostOps0_8, hostOps0_7, hostOps0_6]
  after_results_simp
  rfl

/-- The factor looked up at the target words. -/
theorem fdst_term :
    (W11 m ρ c (Proc.devRef .tc main_v23) : FVec Ideal S16515072 .f32)
      = takeV (W11 m ρ c (Proc.devRef .tc main_v21)) (dstW m ρ c) := by
  unfold takeV
  dsimp only [dstW, W11, W10, W9, W8]
  generalize W7 m ρ c = V
  simp only [hostOps0_10, hostOps0_9, hostOps0_8, hostOps0_7]
  after_results_simp
  rfl

/-- The normalisation buffer is the reshape of: (source factor times target factor) times the weight. -/
theorem norm_term :
    normW m ρ c = fun i =>
      shapeCast S129024x128
        (mulf (F := Ideal) (φ := .f32)
          (mulf (W11 m ρ c (Proc.devRef .tc main_v22)) (W11 m ρ c (Proc.devRef .tc main_v23)))
          (W11 m ρ c (Proc.devRef .tc main_v12)))
        shapeCasts_S16515072_S129024x128 i := by
  dsimp only [normW, W11, W10, W9]
  generalize W8 m ρ c = V
  simp only [hostOps0_10, hostOps0_9, hostOps0_8]
  after_results_simp
  rfl

theorem norm_apply (r : Fin 129024) (l : Fin 128) :
    normW m ρ c (ix2 r l) = Cert.Gcn.normP (eiIn m c) (flat r l) := by
  rw [norm_term]
  refine (shapeCast_apply _ shapeCasts_S16515072_S129024x128 (ix2 r l) (ix1 (flat r l)) (by
    rw [Shape.rowMajor_val_one, Shape.rowMajor_val_two]; rfl)).trans ?_
  rw [mulf_apply, mulf_apply, fsrc_term, fdst_term, takeV_apply, takeV_apply, dinv_apply, dinv_apply, valid_apply,
    src_apply, dst_apply]
  rfl

/-- The feature column as a vector: the reshape of the 500000 × 1 argument. -/
theorem feat_term :
    (W11 m ρ c (Proc.devRef .tc main_v27) : FVec Ideal S500000 .f32)
      = fun i => shapeCast S500000 (m ((c : Thread nD τ).loc main_arg0)) shapeCasts_S500000x1_S500000 i := by
  dsimp only [W11, W10, W9, W8, W7, W6, W5, W4, W3, W2, W1]
  simp only [hostOps0_10, hostOps0_9, hostOps0_8, hostOps0_7, hostOps0_6, hostOps0_5, hostOps0_4, hostOps0_3,
    hostOps0_2, hostOps0_1, hostOps0]
  after_results_simp
  rfl

/-- The feature looked up at the source words. -/
theorem gfeat_term :
    (W11 m ρ c (Proc.devRef .tc main_v28) : FVec Ideal S16515072 .f32)
      = takeV (W11 m ρ c (Proc.devRef .tc main_v27)) (srcW m ρ c) := by
  unfold takeV
  dsimp only [srcW, W11, W10]
  generalize W9 m ρ c = V
  simp only [hostOps0_10, hostOps0_9]
  after_results_simp
  rfl

/-- The gathered-feature buffer is the reshape of that lookup. -/
theorem val1_term :
    val1W m ρ c = fun i =>
      shapeCast S129024x128 (W11 m ρ c (Proc.devRef .tc main_v28) : FVec Ideal S16515072 .f32)
        shapeCasts_S16515072_S129024x128 i := by
  dsimp only [val1W, W11]
  generalize W10 m ρ c = V
  simp only [hostOps0_10]
  after_results_simp
  rfl

theorem val1_apply (r : Fin 129024) (l : Fin 128) :
    val1W m ρ c (ix2 r l) = xIn m c (Cert.Gcn.node (Cert.Gcn.srcP (eiIn m c) (flat r l))) := by
  rw [val1_term]
  refine (shapeCast_apply _ shapeCasts_S16515072_S129024x128 (ix2 r l) (ix1 (flat r l)) (by
    rw [Shape.rowMajor_val_one, Shape.rowMajor_val_two]; rfl)).trans ?_
  rw [gfeat_term, takeV_apply, feat_term, src_apply]
  exact shapeCast_apply _ shapeCasts_S500000x1_S500000 (ix1 _) (ix2 _ 0) (by
    rw [Shape.rowMajor_val_one, Shape.rowMajor_val_two]; exact Nat.mul_one _)

end Cert.KernelIdeal.Val

end
-- ==== Proof.KCarry.lean ====
/-
  Buffers that later boundaries find as an earlier one left them: no host operation and no region in between
  writes them.  The padded list's words and factors are made once before the first region and read again around
  the later ones; the weight and bias arguments are read where their layer runs.
-/
import proofs.«427156_j33560874451187_3_alg».proof.Proof.KBufs

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- A stretch of host operations none of which writes buffer `b` leaves `b` as it was.  The stretch is a
    literal list: each operation writes exactly one reference (its result), so the condition is one inequality
    of references per operation, and which reference is which is decidable. -/
local macro "host_keeps " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! Each lemma below walks the fold of boundary contents backwards, one boundary per step.  Through a host
    stretch the buffer is kept because the stretch does not write it.  Through a region the buffer is kept
    either because it is none of the region's three arrays, or because it is one of the region's INPUT arrays,
    which a region only reads (its contents at the exit are its contents at the entry). -/

/-- The target words as the first aggregation reads them (after the first region). -/
theorem dst_at12 : (W12 m ρ c (Proc.devRef .tc main_v8) : S16515072.Idx → BitVec 32) = dstW m ρ c :=
  W12_of_ne m ρ c main_v8 (by decide)
/-- The target words as the second aggregation reads them (after the last region). -/
theorem dst_at21 : (W21 m ρ c (Proc.devRef .tc main_v8) : S16515072.Idx → BitVec 32) = dstW m ρ c :=
  calc (W21 m ρ c (Proc.devRef .tc main_v8) : S16515072.Idx → BitVec 32)
    _ = W20 m ρ c (Proc.devRef .tc main_v8) := W21_of_ne m ρ c main_v8 (by decide)
    _ = W19 m ρ c (Proc.devRef .tc main_v8) := host_keeps hostOps3_2 main_v8
    _ = W18 m ρ c (Proc.devRef .tc main_v8) := host_keeps hostOps3_1 main_v8
    _ = W17 m ρ c (Proc.devRef .tc main_v8) := host_keeps hostOps3 main_v8
    _ = W16 m ρ c (Proc.devRef .tc main_v8) := W17_of_ne m ρ c main_v8 (by decide)
    _ = W15 m ρ c (Proc.devRef .tc main_v8) := host_keeps hostOps2_1 main_v8
    _ = W14 m ρ c (Proc.devRef .tc main_v8) := host_keeps hostOps2 main_v8
    _ = W13 m ρ c (Proc.devRef .tc main_v8) := W14_of_ne m ρ c main_v8 (by decide)
    _ = W12 m ρ c (Proc.devRef .tc main_v8) := host_keeps hostOps1 main_v8
    _ = dstW m ρ c := W12_of_ne m ρ c main_v8 (by decide)
/-- The source words as the second gather reads them (after the third region and one reshape). -/
theorem src_at18 : (W18 m ρ c (Proc.devRef .tc main_v7) : S16515072.Idx → BitVec 32) = srcW m ρ c :=
  calc (W18 m ρ c (Proc.devRef .tc main_v7) : S16515072.Idx → BitVec 32)
    _ = W17 m ρ c (Proc.devRef .tc main_v7) := host_keeps hostOps3 main_v7
    _ = W16 m ρ c (Proc.devRef .tc main_v7) := W17_of_ne m ρ c main_v7 (by decide)
    _ = W15 m ρ c (Proc.devRef .tc main_v7) := host_keeps hostOps2_1 main_v7
    _ = W14 m ρ c (Proc.devRef .tc main_v7) := host_keeps hostOps2 main_v7
    _ = W13 m ρ c (Proc.devRef .tc main_v7) := W14_of_ne m ρ c main_v7 (by decide)
    _ = W12 m ρ c (Proc.devRef .tc main_v7) := host_keeps hostOps1 main_v7
    _ = srcW m ρ c := W12_of_ne m ρ c main_v7 (by decide)
/-- The factors as the last region finds them.  They are the first region's first input array: that region
    reads them and leaves them. -/
theorem norm_at20 : norm2W m ρ c = normW m ρ c :=
  calc norm2W m ρ c
    _ = W19 m ρ c (Proc.devRef .tc main_v26) := host_keeps hostOps3_2 main_v26
    _ = W18 m ρ c (Proc.devRef .tc main_v26) := host_keeps hostOps3_1 main_v26
    _ = W17 m ρ c (Proc.devRef .tc main_v26) := host_keeps hostOps3 main_v26
    _ = W16 m ρ c (Proc.devRef .tc main_v26) := W17_of_ne m ρ c main_v26 (by decide)
    _ = W15 m ρ c (Proc.devRef .tc main_v26) := host_keeps hostOps2_1 main_v26
    _ = W14 m ρ c (Proc.devRef .tc main_v26) := host_keeps hostOps2 main_v26
    _ = W13 m ρ c (Proc.devRef .tc main_v26) := W14_of_ne m ρ c main_v26 (by decide)
    _ = W12 m ρ c (Proc.devRef .tc main_v26) := host_keeps hostOps1 main_v26
    _ = normW m ρ c := (W12_arr m ρ c 0).trans (((dat0 (V11 m ρ) c).arrAt_in 0 rfl _).trans (A_eq0 (V11 m ρ) c 0))
/-- The weight and bias arguments where their layer reads them. -/
theorem arg2_at13 : (W13 m ρ c (Proc.devRef .tc main_arg2) : S1x10.Idx → EReal) = m ((c : Thread nD τ).loc main_arg2) :=
  calc (W13 m ρ c (Proc.devRef .tc main_arg2) : S1x10.Idx → EReal)
    _ = W12 m ρ c (Proc.devRef .tc main_arg2) := host_keeps hostOps1 main_arg2
    _ = W11 m ρ c (Proc.devRef .tc main_arg2) := W12_of_ne m ρ c main_arg2 (by decide)
    _ = W10 m ρ c (Proc.devRef .tc main_arg2) := host_keeps hostOps0_10 main_arg2
    _ = W9 m ρ c (Proc.devRef .tc main_arg2) := host_keeps hostOps0_9 main_arg2
    _ = W8 m ρ c (Proc.devRef .tc main_arg2) := host_keeps hostOps0_8 main_arg2
    _ = W7 m ρ c (Proc.devRef .tc main_arg2) := host_keeps hostOps0_7 main_arg2
    _ = W6 m ρ c (Proc.devRef .tc main_arg2) := host_keeps hostOps0_6 main_arg2
    _ = W5 m ρ c (Proc.devRef .tc main_arg2) := host_keeps hostOps0_5 main_arg2
    _ = W4 m ρ c (Proc.devRef .tc main_arg2) := host_keeps hostOps0_4 main_arg2
    _ = W3 m ρ c (Proc.devRef .tc main_arg2) := host_keeps hostOps0_3 main_arg2
    _ = W2 m ρ c (Proc.devRef .tc main_arg2) := host_keeps hostOps0_2 main_arg2
    _ = W1 m ρ c (Proc.devRef .tc main_arg2) := host_keeps hostOps0_1 main_arg2
    _ = W0 m ρ c (Proc.devRef .tc main_arg2) := host_keeps hostOps0 main_arg2
    _ = m ((c : Thread nD τ).loc main_arg2) := rfl
theorem arg3_at14 : (W14 m ρ c (Proc.devRef .tc main_arg3) : S10.Idx → EReal) = m ((c : Thread nD τ).loc main_arg3) :=
  calc (W14 m ρ c (Proc.devRef .tc main_arg3) : S10.Idx → EReal)
    _ = W13 m ρ c (Proc.devRef .tc main_arg3) := W14_of_ne m ρ c main_arg3 (by decide)
    _ = W12 m ρ c (Proc.devRef .tc main_arg3) := host_keeps hostOps1 main_arg3
    _ = W11 m ρ c (Proc.devRef .tc main_arg3) := W12_of_ne m ρ c main_arg3 (by decide)
    _ = W10 m ρ c (Proc.devRef .tc main_arg3) := host_keeps hostOps0_10 main_arg3
    _ = W9 m ρ c (Proc.devRef .tc main_arg3) := host_keeps hostOps0_9 main_arg3
    _ = W8 m ρ c (Proc.devRef .tc main_arg3) := host_keeps hostOps0_8 main_arg3
    _ = W7 m ρ c (Proc.devRef .tc main_arg3) := host_keeps hostOps0_7 main_arg3
    _ = W6 m ρ c (Proc.devRef .tc main_arg3) := host_keeps hostOps0_6 main_arg3
    _ = W5 m ρ c (Proc.devRef .tc main_arg3) := host_keeps hostOps0_5 main_arg3
    _ = W4 m ρ c (Proc.devRef .tc main_arg3) := host_keeps hostOps0_4 main_arg3
    _ = W3 m ρ c (Proc.devRef .tc main_arg3) := host_keeps hostOps0_3 main_arg3
    _ = W2 m ρ c (Proc.devRef .tc main_arg3) := host_keeps hostOps0_2 main_arg3
    _ = W1 m ρ c (Proc.devRef .tc main_arg3) := host_keeps hostOps0_1 main_arg3
    _ = W0 m ρ c (Proc.devRef .tc main_arg3) := host_keeps hostOps0 main_arg3
    _ = m ((c : Thread nD τ).loc main_arg3) := rfl
theorem arg4_at16 : (W16 m ρ c (Proc.devRef .tc main_arg4) : S10x1.Idx → EReal) = m ((c : Thread nD τ).loc main_arg4) :=
  calc (W16 m ρ c (Proc.devRef .tc main_arg4) : S10x1.Idx → EReal)
    _ = W15 m ρ c (Proc.devRef .tc main_arg4) := host_keeps hostOps2_1 main_arg4
    _ = W14 m ρ c (Proc.devRef .tc main_arg4) := host_keeps hostOps2 main_arg4
    _ = W13 m ρ c (Proc.devRef .tc main_arg4) := W14_of_ne m ρ c main_arg4 (by decide)
    _ = W12 m ρ c (Proc.devRef .tc main_arg4) := host_keeps hostOps1 main_arg4
    _ = W11 m ρ c (Proc.devRef .tc main_arg4) := W12_of_ne m ρ c main_arg4 (by decide)
    _ = W10 m ρ c (Proc.devRef .tc main_arg4) := host_keeps hostOps0_10 main_arg4
    _ = W9 m ρ c (Proc.devRef .tc main_arg4) := host_keeps hostOps0_9 main_arg4
    _ = W8 m ρ c (Proc.devRef .tc main_arg4) := host_keeps hostOps0_8 main_arg4
    _ = W7 m ρ c (Proc.devRef .tc main_arg4) := host_keeps hostOps0_7 main_arg4
    _ = W6 m ρ c (Proc.devRef .tc main_arg4) := host_keeps hostOps0_6 main_arg4
    _ = W5 m ρ c (Proc.devRef .tc main_arg4) := host_keeps hostOps0_5 main_arg4
    _ = W4 m ρ c (Proc.devRef .tc main_arg4) := host_keeps hostOps0_4 main_arg4
    _ = W3 m ρ c (Proc.devRef .tc main_arg4) := host_keeps hostOps0_3 main_arg4
    _ = W2 m ρ c (Proc.devRef .tc main_arg4) := host_keeps hostOps0_2 main_arg4
    _ = W1 m ρ c (Proc.devRef .tc main_arg4) := host_keeps hostOps0_1 main_arg4
    _ = W0 m ρ c (Proc.devRef .tc main_arg4) := host_keeps hostOps0 main_arg4
    _ = m ((c : Thread nD τ).loc main_arg4) := rfl
theorem arg5_at21 : (W21 m ρ c (Proc.devRef .tc main_arg5) : S1.Idx → EReal) = m ((c : Thread nD τ).loc main_arg5) :=
  calc (W21 m ρ c (Proc.devRef .tc main_arg5) : S1.Idx → EReal)
    _ = W20 m ρ c (Proc.devRef .tc main_arg5) := W21_of_ne m ρ c main_arg5 (by decide)
    _ = W19 m ρ c (Proc.devRef .tc main_arg5) := host_keeps hostOps3_2 main_arg5
    _ = W18 m ρ c (Proc.devRef .tc main_arg5) := host_keeps hostOps3_1 main_arg5
    _ = W17 m ρ c (Proc.devRef .tc main_arg5) := host_keeps hostOps3 main_arg5
    _ = W16 m ρ c (Proc.devRef .tc main_arg5) := W17_of_ne m ρ c main_arg5 (by decide)
    _ = W15 m ρ c (Proc.devRef .tc main_arg5) := host_keeps hostOps2_1 main_arg5
    _ = W14 m ρ c (Proc.devRef .tc main_arg5) := host_keeps hostOps2 main_arg5
    _ = W13 m ρ c (Proc.devRef .tc main_arg5) := W14_of_ne m ρ c main_arg5 (by decide)
    _ = W12 m ρ c (Proc.devRef .tc main_arg5) := host_keeps hostOps1 main_arg5
    _ = W11 m ρ c (Proc.devRef .tc main_arg5) := W12_of_ne m ρ c main_arg5 (by decide)
    _ = W10 m ρ c (Proc.devRef .tc main_arg5) := host_keeps hostOps0_10 main_arg5
    _ = W9 m ρ c (Proc.devRef .tc main_arg5) := host_keeps hostOps0_9 main_arg5
    _ = W8 m ρ c (Proc.devRef .tc main_arg5) := host_keeps hostOps0_8 main_arg5
    _ = W7 m ρ c (Proc.devRef .tc main_arg5) := host_keeps hostOps0_7 main_arg5
    _ = W6 m ρ c (Proc.devRef .tc main_arg5) := host_keeps hostOps0_6 main_arg5
    _ = W5 m ρ c (Proc.devRef .tc main_arg5) := host_keeps hostOps0_5 main_arg5
    _ = W4 m ρ c (Proc.devRef .tc main_arg5) := host_keeps hostOps0_4 main_arg5
    _ = W3 m ρ c (Proc.devRef .tc main_arg5) := host_keeps hostOps0_3 main_arg5
    _ = W2 m ρ c (Proc.devRef .tc main_arg5) := host_keeps hostOps0_2 main_arg5
    _ = W1 m ρ c (Proc.devRef .tc main_arg5) := host_keeps hostOps0_1 main_arg5
    _ = W0 m ρ c (Proc.devRef .tc main_arg5) := host_keeps hostOps0 main_arg5
    _ = m ((c : Thread nD τ).loc main_arg5) := rfl

end Cert.KernelIdeal.Val

end
-- ==== Proof.KRegions.lean ====
/-
  What each of the four pipelined regions leaves in its output array, index by index.

  Every region's output blocks tile its output array and block `t` depends only on the input blocks at `t`, so
  the array after the region is one function of the input arrays: regions 0 and 3 multiply two 129024 × 128
  arrays entry by entry; region 1 sends the column `s` and the weight row `w` to `0 + s[i]·w[k]`; region 2 sends
  the 500000 × 10 array `h` and the weight column `w` to the ten products `h[i,k]·w[k]` added one after the other
  onto zero.

  Per region: the body's payload read at an index; the windows' block indices at a grid point, decided over the
  grid; what a point writes back as the point's block of one whole-array function; the blocks' cover of the array
  by arithmetic (row `r` lies in the block of point `r / rows-per-block`); hence the array after the region.
-/
import proofs.«427156_j33560874451187_3_alg».proof.Proof.KCarry
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat)

/-- The zero offsets of a whole-buffer access, however they are spelt. -/
theorem zero_offsets : (![0, 0] : Fin 2 → Nat) = fun _ => 0 := funext fun a => by fin_cases a <;> rfl

/-! ## Regions 0 and 3: the entrywise product of two 129024 × 128 arrays -/

/-- The entrywise product of two 129024 × 128 arrays. -/
abbrev mulArr (a b : S129024x128.Idx → EReal) : S129024x128.Idx → EReal := fun i => a i * b i

/-- Two entries read at the same index multiply to the product array's entry there. -/
theorem mulArr_of_idx (a b : S129024x128.Idx → EReal) (i0 i1 i2 : S129024x128.Idx) (h0 : i0 = i2) (h1 : i1 = i2) :
    a i0 * b i1 = mulArr a b i2 := by rw [h0, h1]

/-! ### Region 0 -/

/-- The body's payload is the entrywise product of its two loaded blocks. -/
theorem scale0_pay (x0 x1 : Vec Ideal S6144x128 .f32) : k0_pay1 x0 x1 = fun j => (x0 j : EReal) * x1 j := by
  unfold k0_pay1
  simp only [shapeCast_self]
  rfl

section Region0
variable (V : (c : Dev nD) → (b : Ref sig .tc) → Buf (Elt Ideal) ((c : Thread nD τ).loc b))

/-- At point `t` all three windows sit on block row `t`, block column 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

set_option maxHeartbeats 400000 in
/-- What point `t` writes back is block `t` of the entrywise product of the two input arrays: the three windows
    read and write the same rectangle of their arrays. -/
theorem flushed0_eq (c : Dev nD) (t : Fin cfg0.N) :
    (dat0 (F := Ideal) V c).flushed 2 t
      = ((cfg0.win 2).blk t).view.read (Elt Ideal) (mulArr (V c main_v26) (V c main_v29)) := by
  show (cfg0.win 2).cut (grid0.coords t) ((dat0 V c).after 2 t) = _
  rw [after0_2]
  unfold out0_2
  rw [View.canon_unit_zero zero_offsets]
  simp only [View.ld_unit_zero (S := S6144x128) zero_offsets]
  rw [scale0_pay]
  obtain ⟨e0, e1, e2, e3, e4, e5⟩ := idx0 t
  funext j
  have h0 : ((cfg0.win 0).blk t).view.emb j = ((cfg0.win 2).blk t).view.emb j := by
    funext a; apply Fin.ext
    match a with
    | ⟨0, _⟩ => show win0_0.index t (0 : Fin 2) * 6144 + 1 * (j 0).val = win0_2.index t (0 : Fin 2) * 6144 + 1 * (j 0).val; rw [e0, e4]
    | ⟨1, _⟩ => show win0_0.index t (1 : Fin 2) * 128 + 1 * (j 1).val = win0_2.index t (1 : Fin 2) * 128 + 1 * (j 1).val; rw [e1, e5]
  have h1 : ((cfg0.win 1).blk t).view.emb j = ((cfg0.win 2).blk t).view.emb j := by
    funext a; apply Fin.ext
    match a with
    | ⟨0, _⟩ => show win0_1.index t (0 : Fin 2) * 6144 + 1 * (j 0).val = win0_2.index t (0 : Fin 2) * 6144 + 1 * (j 0).val; rw [e2, e4]
    | ⟨1, _⟩ => show win0_1.index t (1 : Fin 2) * 128 + 1 * (j 1).val = win0_2.index t (1 : Fin 2) * 128 + 1 * (j 1).val; rw [e3, e5]
  exact mulArr_of_idx (V c main_v26) (V c main_v29) (((cfg0.win 0).blk t).view.emb j) (((cfg0.win 1).blk t).view.emb j) (((cfg0.win 2).blk t).view.emb j) h0 h1

set_option maxHeartbeats 50000 in
/-- An index of the output array is in point `t`'s block iff each coordinate is in the block's range on its axis. -/
theorem mem_blk0 (t : Fin cfg0.N) (i : S129024x128.Idx) :
    i ∈ ((cfg0.win 2).blk t).view.set ↔ ∀ a : Fin 2, win0_2.index t a * S6144x128.size a ≤ (i a).val
      ∧ (i a).val < win0_2.index t a * S6144x128.size a + S6144x128.size a := by
  show i ∈ ((View.whole main_v30).slice (win0_2.rect t)).set ↔ _
  rw [View.set_slice_whole, Rect.mem_set_unit]
  exact Iff.rfl

set_option maxHeartbeats 50000 in
/-- The 21 blocks of 6144 rows tile the 129024 rows: row `r` is in the block of point `r / 6144`. -/
theorem cover0 (i : S129024x128.Idx) :
    ∃ t : Fin cfg0.N, (cfg0.win 2).flush t = true ∧ i ∈ ((cfg0.win 2).blk t).view.set := by
  have hi0 : (i 0).val < 129024 := idx2_lt0 i
  have hi1 : (i 1).val < 128 := idx2_lt1 i
  obtain ⟨t, ht⟩ : ∃ t : Fin cfg0.N, t.val = (i 0).val / 6144 :=
    ⟨⟨(i 0).val / 6144, by rw [show cfg0.N = 21 from N_0]; omega⟩, rfl⟩
  obtain ⟨e0, e1, e2, e3, e4, e5⟩ := idx0 t
  refine ⟨t, flush0_2 t, ?_⟩
  rw [mem_blk0]
  intro a
  match a with
  | ⟨0, _⟩ =>
    show win0_2.index t (0 : Fin 2) * 6144 ≤ (i 0).val ∧ (i 0).val < win0_2.index t (0 : Fin 2) * 6144 + 6144
    rw [e4, ht]; omega
  | ⟨1, _⟩ =>
    show win0_2.index t (1 : Fin 2) * 128 ≤ (i 1).val ∧ (i 1).val < win0_2.index t (1 : Fin 2) * 128 + 128
    rw [e5]; omega

/-- The output array after the region: the entrywise product of the two input arrays as the region finds them. -/
theorem final0 (c : Dev nD) :
    (dat0 (F := Ideal) V c).arrAt 2 cfg0.N = mulArr (V c main_v26) (V c main_v29) :=
  (dat0 V c).arrAt_eq_of_cover 2 _ (fun t _ => flushed0_eq V c t) cover0

end Region0

/-! ### Region 3: the same body over the factors and the second layer's gathered values -/

/-- The body's payload is the entrywise product of its two loaded blocks. -/
theorem scale3_pay (x0 x1 : Vec Ideal S6144x128 .f32) : k3_pay1 x0 x1 = fun j => (x0 j : EReal) * x1 j := by
  unfold k3_pay1
  simp only [shapeCast_self]
  rfl

section Region3
variable (V : (c : Dev nD) → (b : Ref sig .tc) → Buf (Elt Ideal) ((c : Thread nD τ).loc b))

/-- At point `t` all three windows sit on block row `t`, block column 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

set_option maxHeartbeats 400000 in
/-- What point `t` writes back is block `t` of the entrywise product of the two input arrays: the three windows
    read and write the same rectangle of their arrays. -/
theorem flushed3_eq (c : Dev nD) (t : Fin cfg3.N) :
    (dat3 (F := Ideal) V c).flushed 2 t
      = ((cfg3.win 2).blk t).view.read (Elt Ideal) (mulArr (V c main_v26) (V c main_v44)) := by
  show (cfg3.win 2).cut (grid3.coords t) ((dat3 V c).after 2 t) = _
  rw [after3_2]
  unfold out3_2
  rw [View.canon_unit_zero zero_offsets]
  simp only [View.ld_unit_zero (S := S6144x128) zero_offsets]
  rw [scale3_pay]
  obtain ⟨e0, e1, e2, e3, e4, e5⟩ := idx3 t
  funext j
  have h0 : ((cfg3.win 0).blk t).view.emb j = ((cfg3.win 2).blk t).view.emb j := by
    funext a; apply Fin.ext
    match a with
    | ⟨0, _⟩ => show win3_0.index t (0 : Fin 2) * 6144 + 1 * (j 0).val = win3_2.index t (0 : Fin 2) * 6144 + 1 * (j 0).val; rw [e0, e4]
    | ⟨1, _⟩ => show win3_0.index t (1 : Fin 2) * 128 + 1 * (j 1).val = win3_2.index t (1 : Fin 2) * 128 + 1 * (j 1).val; rw [e1, e5]
  have h1 : ((cfg3.win 1).blk t).view.emb j = ((cfg3.win 2).blk t).view.emb j := by
    funext a; apply Fin.ext
    match a with
    | ⟨0, _⟩ => show win3_1.index t (0 : Fin 2) * 6144 + 1 * (j 0).val = win3_2.index t (0 : Fin 2) * 6144 + 1 * (j 0).val; rw [e2, e4]
    | ⟨1, _⟩ => show win3_1.index t (1 : Fin 2) * 128 + 1 * (j 1).val = win3_2.index t (1 : Fin 2) * 128 + 1 * (j 1).val; rw [e3, e5]
  exact mulArr_of_idx (V c main_v26) (V c main_v44) (((cfg3.win 0).blk t).view.emb j) (((cfg3.win 1).blk t).view.emb j) (((cfg3.win 2).blk t).view.emb j) h0 h1

set_option maxHeartbeats 50000 in
/-- An index of the output array is in point `t`'s block iff each coordinate is in the block's range on its axis. -/
theorem mem_blk3 (t : Fin cfg3.N) (i : S129024x128.Idx) :
    i ∈ ((cfg3.win 2).blk t).view.set ↔ ∀ a : Fin 2, win3_2.index t a * S6144x128.size a ≤ (i a).val
      ∧ (i a).val < win3_2.index t a * S6144x128.size a + S6144x128.size a := by
  show i ∈ ((View.whole main_v45).slice (win3_2.rect t)).set ↔ _
  rw [View.set_slice_whole, Rect.mem_set_unit]
  exact Iff.rfl

set_option maxHeartbeats 50000 in
/-- The 21 blocks of 6144 rows tile the 129024 rows: row `r` is in the block of point `r / 6144`. -/
theorem cover3 (i : S129024x128.Idx) :
    ∃ t : Fin cfg3.N, (cfg3.win 2).flush t = true ∧ i ∈ ((cfg3.win 2).blk t).view.set := by
  have hi0 : (i 0).val < 129024 := idx2_lt0 i
  have hi1 : (i 1).val < 128 := idx2_lt1 i
  obtain ⟨t, ht⟩ : ∃ t : Fin cfg3.N, t.val = (i 0).val / 6144 :=
    ⟨⟨(i 0).val / 6144, by rw [show cfg3.N = 21 from N_3]; omega⟩, rfl⟩
  obtain ⟨e0, e1, e2, e3, e4, e5⟩ := idx3 t
  refine ⟨t, flush3_2 t, ?_⟩
  rw [mem_blk3]
  intro a
  match a with
  | ⟨0, _⟩ =>
    show win3_2.index t (0 : Fin 2) * 6144 ≤ (i 0).val ∧ (i 0).val < win3_2.index t (0 : Fin 2) * 6144 + 6144
    rw [e4, ht]; omega
  | ⟨1, _⟩ =>
    show win3_2.index t (1 : Fin 2) * 128 ≤ (i 1).val ∧ (i 1).val < win3_2.index t (1 : Fin 2) * 128 + 128
    rw [e5]; omega

/-- The output array after the region: the entrywise product of the two input arrays as the region finds them. -/
theorem final3 (c : Dev nD) :
    (dat3 (F := Ideal) V c).arrAt 2 cfg3.N = mulArr (V c main_v26) (V c main_v44) :=
  (dat3 V c).arrAt_eq_of_cover 2 _ (fun t _ => flushed3_eq V c t) cover3

end Region3

/-! ## Region 1: a column times a weight row, added onto zero -/

/-- Entry (i, k) of the outer product of the column `s` and the row `w`, added onto zero. -/
abbrev linArr1 (s : S500000x1.Idx → EReal) (w : S1x10.Idx → EReal) : S500000x10.Idx → EReal :=
  fun i => 0 + s (ix2 (i 0) 0 : S500000x1.Idx) * w (ix2 0 (i 1) : S1x10.Idx)

/-- A column entry and a row entry read at the coordinates of an output index give that index's entry. -/
theorem linArr1_of_idx (s : S500000x1.Idx → EReal) (w : S1x10.Idx → EReal) (i0 : S500000x1.Idx) (i1 : S1x10.Idx)
    (i2 : S500000x10.Idx) (h0 : i0 = (ix2 (i2 0) 0 : S500000x1.Idx)) (h1 : i1 = (ix2 0 (i2 1) : S1x10.Idx)) :
    0 + s i0 * w i1 = linArr1 s w i2 := by rw [h0, h1]

/-- The zero word is the number zero. -/
theorem zero_word : Ideal.ofBits .f32 0x00000000#32 = (0 : EReal) := by simp [Ideal.ofBits, Ideal.ieee]

set_option maxHeartbeats 100000 in
/-- The body's payload at (a, b): zero plus the column block's entry in row a times the weight row's entry in column b. -/
theorem lin1_pay (x0 : Vec Ideal S10000x1 .f32) (x1 : Vec Ideal S1x10 .f32) :
    k1_pay1 x0 x1 = fun j => (0 : EReal) + (x0 (ix2 (j 0) 0 : S10000x1.Idx) : EReal) * x1 (ix2 0 (j 1) : S1x10.Idx) := by
  funext j
  unfold k1_pay1
  simp only [shapeCast_self]
  rw [addf_apply, mulf_apply, broadcast_apply,
    broadcastTo_apply x0 _ j (ix2 (j 0) 0 : S10000x1.Idx) (fun a => by
      match a with
      | ⟨0, _⟩ => rfl
      | ⟨1, _⟩ => rfl),
    broadcastTo_apply x1 _ j (ix2 0 (j 1) : S1x10.Idx) (fun a => by
      match a with
      | ⟨0, _⟩ => rfl
      | ⟨1, _⟩ => rfl)]
  show Ideal.ofBits .f32 0x00000000#32 + _ = _
  rw [zero_word]

section Region1
variable (V : (c : Dev nD) → (b : Ref sig .tc) → Buf (Elt Ideal) ((c : Thread nD τ).loc b))

/-- At point `t` the column's window and the output's sit on block row `t`; the weight row's window stays on its one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 400000 in
/-- What point `t` writes back is block `t` of the outer product of the column and the weight row, added onto zero. -/
theorem flushed1_eq (c : Dev nD) (t : Fin cfg1.N) :
    (dat1 (F := Ideal) V c).flushed 2 t
      = ((cfg1.win 2).blk t).view.read (Elt Ideal) (linArr1 (V c main_v35) (V c main_arg2)) := by
  show (cfg1.win 2).cut (grid1.coords t) ((dat1 V c).after 2 t) = _
  rw [after1_2]
  unfold out1_2
  rw [View.canon_unit_zero zero_offsets]
  simp only [View.ld_unit_zero (S := S10000x1) zero_offsets, View.ld_unit_zero (S := S1x10) zero_offsets]
  rw [lin1_pay]
  obtain ⟨e0, e1, e2, e3, e4, e5⟩ := idx1 t
  funext j
  have h0 : ((cfg1.win 0).blk t).view.emb (ix2 (j 0) 0 : S10000x1.Idx)
      = (ix2 ((((cfg1.win 2).blk t).view.emb j) 0) 0 : S500000x1.Idx) := by
    funext a; apply Fin.ext
    match a with
    | ⟨0, _⟩ => show win1_0.index t (0 : Fin 2) * 10000 + 1 * (j 0).val = win1_2.index t (0 : Fin 2) * 10000 + 1 * (j 0).val; rw [e0, e4]
    | ⟨1, _⟩ => show win1_0.index t (1 : Fin 2) * 1 + 1 * 0 = 0; rw [e1]
  have h1 : ((cfg1.win 1).blk t).view.emb (ix2 0 (j 1) : S1x10.Idx)
      = (ix2 0 ((((cfg1.win 2).blk t).view.emb j) 1) : S1x10.Idx) := by
    funext a; apply Fin.ext
    match a with
    | ⟨0, _⟩ => show win1_1.index t (0 : Fin 2) * 1 + 1 * 0 = 0; rw [e2]
    | ⟨1, _⟩ => show win1_1.index t (1 : Fin 2) * 10 + 1 * (j 1).val = win1_2.index t (1 : Fin 2) * 10 + 1 * (j 1).val; rw [e3, e5]
  exact linArr1_of_idx (V c main_v35) (V c main_arg2) _ _ (((cfg1.win 2).blk t).view.emb j) h0 h1

set_option maxHeartbeats 50000 in
/-- An index of the output array is in point `t`'s block iff each coordinate is in the block's range on its axis. -/
theorem mem_blk1 (t : Fin cfg1.N) (i : S500000x10.Idx) :
    i ∈ ((cfg1.win 2).blk t).view.set ↔ ∀ a : Fin 2, win1_2.index t a * S10000x10.size a ≤ (i a).val
      ∧ (i a).val < win1_2.index t a * S10000x10.size a + S10000x10.size a := by
  show i ∈ ((View.whole main_v36).slice (win1_2.rect t)).set ↔ _
  rw [View.set_slice_whole, Rect.mem_set_unit]
  exact Iff.rfl

set_option maxHeartbeats 50000 in
/-- The 50 blocks of 10000 rows tile the 500000 rows: row `r` is in the block of point `r / 10000`. -/
theorem cover1 (i : S500000x10.Idx) :
    ∃ t : Fin cfg1.N, (cfg1.win 2).flush t = true ∧ i ∈ ((cfg1.win 2).blk t).view.set := by
  have hi0 : (i 0).val < 500000 := idx2_lt0 i
  have hi1 : (i 1).val < 10 := idx2_lt1 i
  obtain ⟨t, ht⟩ : ∃ t : Fin cfg1.N, t.val = (i 0).val / 10000 :=
    ⟨⟨(i 0).val / 10000, by rw [show cfg1.N = 50 from N_1]; omega⟩, rfl⟩
  obtain ⟨e0, e1, e2, e3, e4, e5⟩ := idx1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 10 ≤ (i 1).val ∧ (i 1).val < win1_2.index t (1 : Fin 2) * 10 + 10
    rw [e5]; omega

/-- The output array after the region: the outer product of the column and the weight row as the region finds them, added onto zero. -/
theorem final1 (c : Dev nD) :
    (dat1 (F := Ideal) V c).arrAt 2 cfg1.N = linArr1 (V c main_v35) (V c main_arg2) :=
  (dat1 V c).arrAt_eq_of_cover 2 _ (fun t _ => flushed1_eq V c t) cover1

end Region1

/-! ## Region 2: the ten products of a row of the 500000 × 10 array with the weight column, added in order onto zero -/

/-- Row `r` of the hidden array against the weight column: the ten products added one after the other onto zero. -/
def lin2Row (h : S500000x10.Idx → EReal) (w : S10x1.Idx → EReal) (r : Fin 500000) : EReal :=
  ((((((((((0 + h (ix2 r 0) * w (ix2 0 0)) + h (ix2 r 1) * w (ix2 1 0)) + h (ix2 r 2) * w (ix2 2 0)) + h (ix2 r 3) * w (ix2 3 0)) + h (ix2 r 4) * w (ix2 4 0)) + h (ix2 r 5) * w (ix2 5 0)) + h (ix2 r 6) * w (ix2 6 0)) + h (ix2 r 7) * w (ix2 7 0)) + h (ix2 r 8) * w (ix2 8 0)) + h (ix2 r 9) * w (ix2 9 0))

/-- The column of those sums. -/
abbrev lin2Arr (h : S500000x10.Idx → EReal) (w : S10x1.Idx → EReal) : S500000x1.Idx → EReal :=
  fun i => lin2Row h w ⟨(i 0).val, idx2_lt0 i⟩

/-- The block's column `o`, sliced out, read at row `p`. -/
theorem lin2_col (x0 : Vec Ideal S10000x10 .f32) (o : ℕ) (k : Fin 10) (hk : k.val = o)
    (hs : S10000x10.Slices ![0, o] S10000x1) (p : Fin 10000) :
    extractStridedSlice S10000x1 ![0, o] x0 hs (ix2 p 0) = x0 (ix2 p k) :=
  extractStridedSlice_apply _ x0 hs (ix2 p 0) (ix2 p k) fun a => by
    match a with
    | ⟨0, _⟩ => show p.val = 0 + p.val; omega
    | ⟨1, _⟩ => show k.val = o + 0; omega

/-- The weight column's entry `o`, sliced out and broadcast down the rows, read at row `p`. -/
theorem lin2_wt (x1 : Vec Ideal S10x1 .f32) (o : ℕ) (k : Fin 10) (hk : k.val = o)
    (hs : S10x1.Slices ![o, 0] S1x1) (p : Fin 10000) :
    broadcastTo S10000x1 (extractStridedSlice S1x1 ![o, 0] x1 hs) broadcasts_S1x1_S10000x1 (ix2 p 0) = x1 (ix2 k 0) := by
  refine (broadcastTo_apply _ broadcasts_S1x1_S10000x1 (ix2 p 0) (ix2 0 0) fun a => ?_).trans ?_
  · match a with
    | ⟨0, _⟩ => rfl
    | ⟨1, _⟩ => rfl
  · exact extractStridedSlice_apply _ x1 hs (ix2 0 0) (ix2 k 0) fun a => by
      match a with
      | ⟨0, _⟩ => show k.val = o + 0; omega
      | ⟨1, _⟩ => show (0 : ℕ) = 0 + 0; rfl

set_option maxHeartbeats 100000 in
/-- The body's payload at row `p` of the block. -/
theorem lin2_pay (x0 : Vec Ideal S10000x10 .f32) (x1 : Vec Ideal S10x1 .f32) (p : Fin 10000) :
    k2_pay1 x0 x1 (ix2 p 0) =
      ((((((((((0 + (x0 (ix2 p 0) : EReal) * x1 (ix2 0 0)) + (x0 (ix2 p 1) : EReal) * x1 (ix2 1 0)) + (x0 (ix2 p 2) : EReal) * x1 (ix2 2 0)) + (x0 (ix2 p 3) : EReal) * x1 (ix2 3 0)) + (x0 (ix2 p 4) : EReal) * x1 (ix2 4 0)) + (x0 (ix2 p 5) : EReal) * x1 (ix2 5 0)) + (x0 (ix2 p 6) : EReal) * x1 (ix2 6 0)) + (x0 (ix2 p 7) : EReal) * x1 (ix2 7 0)) + (x0 (ix2 p 8) : EReal) * x1 (ix2 8 0)) + (x0 (ix2 p 9) : EReal) * x1 (ix2 9 0)) := by
  unfold k2_pay1
  simp only [shapeCast_self, addf_apply, mulf_apply, broadcast_apply]
  rw [lin2_col x0 0 0 rfl, lin2_col x0 1 1 rfl, lin2_col x0 2 2 rfl, lin2_col x0 3 3 rfl, lin2_col x0 4 4 rfl,
    lin2_col x0 5 5 rfl, lin2_col x0 6 6 rfl, lin2_col x0 7 7 rfl, lin2_col x0 8 8 rfl, lin2_col x0 9 9 rfl,
    lin2_wt x1 0 0 rfl, lin2_wt x1 1 1 rfl, lin2_wt x1 2 2 rfl, lin2_wt x1 3 3 rfl, lin2_wt x1 4 4 rfl,
    lin2_wt x1 5 5 rfl, lin2_wt x1 6 6 rfl, lin2_wt x1 7 7 rfl, lin2_wt x1 8 8 rfl, lin2_wt x1 9 9 rfl]
  rw [show (FloatOps.ofBits FTy.f32 0#32 : Ideal .f32) = 0 from zero_word]

/-- The payload at row `p` of a block whose rows are rows of `h` from row `r` on and whose weights are `w`. -/
theorem lin2_block (h : S500000x10.Idx → EReal) (w : S10x1.Idx → EReal)
    (x0 : Vec Ideal S10000x10 .f32) (x1 : Vec Ideal S10x1 .f32) (p : Fin 10000) (r : Fin 500000)
    (h0 : ∀ k : Fin 10, x0 (ix2 p k) = h (ix2 r k)) (h1 : ∀ k : Fin 10, x1 (ix2 k 0) = w (ix2 k 0)) :
    k2_pay1 x0 x1 (ix2 p 0) = lin2Row h w r := by
  rw [lin2_pay, h0, h0, h0, h0, h0, h0, h0, h0, h0, h0, h1, h1, h1, h1, h1, h1, h1, h1, h1, h1]
  rfl

section Region2
variable (V : (c : Dev nD) → (b : Ref sig .tc) → Buf (Elt Ideal) ((c : Thread nD τ).loc b))

/-- At point `t` the hidden array's and the output's windows sit on block row `t`; the weight column's window stays
    on its one block. -/
theorem lin2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 400000 in
/-- What point `t` writes back is block `t` of the column of row sums. -/
theorem lin2_flushed (c : Dev nD) (t : Fin cfg2.N) :
    (dat2 (F := Ideal) V c).flushed 2 t
      = ((cfg2.win 2).blk t).view.read (Elt Ideal) (lin2Arr (V c main_v40) (V c main_arg4)) := by
  show (cfg2.win 2).cut (grid2.coords t) ((dat2 V c).after 2 t) = _
  rw [after2_2]
  unfold out2_2
  rw [View.canon_unit_zero zero_offsets]
  simp only [View.ld_unit_zero (S := S10000x10) zero_offsets, View.ld_unit_zero (S := S10x1) zero_offsets]
  obtain ⟨e0, e1, e2, e3, e4, e5⟩ := lin2_idx t
  have ht : t.val < 50 := lt_of_lt_of_eq t.isLt N_2
  funext j
  obtain ⟨p, q, rfl⟩ : ∃ (p : Fin 10000) (q : Fin 1), j = (ix2 p q : S10000x1.Idx) := ⟨j 0, j 1, eq_ix2 j⟩
  obtain rfl : q = 0 := Subsingleton.elim _ _
  refine (lin2_block (V c main_v40) (V c main_arg4) (iblk2 V c 0 t) (iblk2 V c 1 t) p
    ⟨t.val * 10000 + p.val, by omega⟩ (fun k => ?_) (fun k => ?_)).trans ?_
  · show (V c main_v40) (((cfg2.win 0).blk t).view.emb (ix2 p k : S10000x10.Idx)) = _
    refine congrArg (V c main_v40) (funext fun a => Fin.ext ?_)
    match a with
    | ⟨0, _⟩ => show win2_0.index t (0 : Fin 2) * 10000 + 1 * p.val = t.val * 10000 + p.val; rw [e0]; omega
    | ⟨1, _⟩ => show win2_0.index t (1 : Fin 2) * 10 + 1 * k.val = k.val; rw [e1]; omega
  · show (V c main_arg4) (((cfg2.win 1).blk t).view.emb (ix2 k 0 : S10x1.Idx)) = _
    refine congrArg (V c main_arg4) (funext fun a => Fin.ext ?_)
    match a with
    | ⟨0, _⟩ => show win2_1.index t (0 : Fin 2) * 10 + 1 * k.val = k.val; rw [e2]; omega
    | ⟨1, _⟩ => show win2_1.index t (1 : Fin 2) * 1 + 1 * 0 = 0; rw [e3]
  · rw [View.read_apply]
    refine congrArg (lin2Row (V c main_v40) (V c main_arg4)) (Fin.ext ?_)
    show t.val * 10000 + p.val = win2_2.index t (0 : Fin 2) * 10000 + 1 * p.val
    rw [e4]; omega

set_option maxHeartbeats 50000 in
/-- An index of the output column is in point `t`'s block iff each coordinate is in the block's range on its axis. -/
theorem lin2_mem_blk (t : Fin cfg2.N) (i : S500000x1.Idx) :
    i ∈ ((cfg2.win 2).blk t).view.set ↔ ∀ a : Fin 2, win2_2.index t a * S10000x1.size a ≤ (i a).val
      ∧ (i a).val < win2_2.index t a * S10000x1.size a + S10000x1.size a := by
  show i ∈ ((View.whole main_v41).slice (win2_2.rect t)).set ↔ _
  rw [View.set_slice_whole, Rect.mem_set_unit]
  exact Iff.rfl

set_option maxHeartbeats 50000 in
/-- The 50 blocks of 10000 rows tile the 500000 rows: row `r` is in the block of point `r / 10000`. -/
theorem lin2_cover (i : S500000x1.Idx) :
    ∃ t : Fin cfg2.N, (cfg2.win 2).flush t = true ∧ i ∈ ((cfg2.win 2).blk t).view.set := by
  have hi0 : (i 0).val < 500000 := idx2_lt0 i
  have hi1 : (i 1).val < 1 := idx2_lt1 i
  obtain ⟨t, ht⟩ : ∃ t : Fin cfg2.N, t.val = (i 0).val / 10000 :=
    ⟨⟨(i 0).val / 10000, by rw [show cfg2.N = 50 from N_2]; omega⟩, rfl⟩
  obtain ⟨e0, e1, e2, e3, e4, e5⟩ := lin2_idx t
  refine ⟨t, flush2_2 t, ?_⟩
  rw [lin2_mem_blk]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 1 ≤ (i 1).val ∧ (i 1).val < win2_2.index t (1 : Fin 2) * 1 + 1
    rw [e5]; omega

/-- The output column after the region: the row sums of the hidden array against the weight column, both as the
    region finds them. -/
theorem lin2_final (c : Dev nD) :
    (dat2 (F := Ideal) V c).arrAt 2 cfg2.N = lin2Arr (V c main_v40) (V c main_arg4) :=
  (dat2 V c).arrAt_eq_of_cover 2 _ (fun t _ => lin2_flushed V c t) lin2_cover

end Region2

/-! ## The four regions' arrays -/

variable (m : (ℓ : Loc nD τ sig) → Buf (Elt Ideal) ℓ) (ρ : Dev nD → PrngReg) (c : Dev nD)

theorem msg1_eq (j : S129024x128.Idx) : msg1W m ρ c j = normW m ρ c j * val1W m ρ c j :=
  congrFun ((W12_arr m ρ c 2).trans (final0 (V11 m ρ) c)) j
set_option maxHeartbeats 200000 in
theorem lin1_eq (i : Fin 500000) (k : Fin 10) :
    lin1W m ρ c (ix2 i k) = 0 + s1W m ρ c (ix2 i 0) * w1In m c k := by
  have h := congrFun ((W14_arr m ρ c 2).trans (final1 (V13 m ρ) c)) (ix2 i k : S500000x10.Idx)
  have ha := congrFun (arg2_at13 m ρ c) (ix2 0 k : S1x10.Idx)
  refine h.trans ?_
  exact congrArg (fun z : EReal => (0 : EReal) + s1W m ρ c (ix2 i 0) * z) ha
theorem xw2_eq (i : Fin 500000) :
    xw2W m ρ c (ix2 i 0) =
      ((((((((((0 + h1W m ρ c (ix2 i 0) * w2In m c 0) + h1W m ρ c (ix2 i 1) * w2In m c 1) + h1W m ρ c (ix2 i 2) * w2In m c 2)
        + h1W m ρ c (ix2 i 3) * w2In m c 3) + h1W m ρ c (ix2 i 4) * w2In m c 4) + h1W m ρ c (ix2 i 5) * w2In m c 5)
        + h1W m ρ c (ix2 i 6) * w2In m c 6) + h1W m ρ c (ix2 i 7) * w2In m c 7) + h1W m ρ c (ix2 i 8) * w2In m c 8)
        + h1W m ρ c (ix2 i 9) * w2In m c 9) := by
  have e : xw2W m ρ c = lin2Arr (h1W m ρ c) (W16 m ρ c (Proc.devRef .tc main_arg4)) :=
    (W17_arr m ρ c 2).trans (lin2_final (V16 m ρ) c)
  rw [e, arg4_at16]
  rfl
theorem msg2_eq (j : S129024x128.Idx) : msg2W m ρ c j = normW m ρ c j * val2W m ρ c j := by
  have e : msg2W m ρ c = mulArr (norm2W m ρ c) (val2W m ρ c) := (W21_arr m ρ c 2).trans (final3 (V20 m ρ) c)
  rw [e, norm_at20]

end Cert.KernelIdeal.Val

end
-- ==== Proof.KLayers.lean ====
/-
  The host operations between and after the regions, read at an index: the two aggregations, the bias and
  rectifier, the second gather and the clip.  With the regions' functions this walks the padded edge list's
  two layers from the first aggregate to the result.
-/
import proofs.«427156_j33560874451187_3_alg».proof.Proof.KStage0
import proofs.«427156_j33560874451187_3_alg».proof.Proof.KRegions
import Idealize.ShloMosaic.Lib.Pipeline.Value
import Idealize.ShloMosaic.Lib.IdealHost

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The flat edge list and its 129024 × 128 layout -/

/-- Row and lane of position `e` of the flat list. -/
def rowOf (e : Fin 16515072) : Fin 129024 := ⟨e.val / 128, by omega⟩
def laneOf (e : Fin 16515072) : Fin 128 := ⟨e.val % 128, Nat.mod_lt _ (by decide)⟩

theorem flat_rowOf_laneOf (e : Fin 16515072) : flat (rowOf e) (laneOf e) = e :=
  Fin.ext (by show e.val / 128 * 128 + e.val % 128 = e.val; omega)

/-- The 129024 × 128 array laid flat reads, at position `e`, lane `e % 128` of row `e / 128`. -/
theorem toFlat_apply {α : Type} (M : S129024x128.Idx → α) (e : Fin 16515072) :
    shapeCast S16515072 M shapeCasts_S129024x128_S16515072 (ix1 e) = M (ix2 (rowOf e) (laneOf e)) :=
  shapeCast_apply M _ _ _ (by
    rw [Shape.rowMajor_val_two, Shape.rowMajor_val_one]
    show e.val / 128 * 128 + e.val % 128 = e.val
    omega)

/-- The flat list laid out 129024 × 128 reads, at lane `l` of row `r`, position `128 r + l`. -/
theorem ofFlat_apply {α : Type} (x : S16515072.Idx → α) (r : Fin 129024) (l : Fin 128) :
    shapeCast S129024x128 x shapeCasts_S16515072_S129024x128 (ix2 r l) = x (ix1 (flat r l)) :=
  shapeCast_apply x _ _ _ (by
    rw [Shape.rowMajor_val_two, Shape.rowMajor_val_one]
    rfl)

theorem agg_congr {K : Nat} {d d' : Fin K → BitVec 32} {f f' : Fin K → EReal}
    (hd : ∀ e, d e = d' e) (hf : ∀ e, f e = f' e) (i : Fin 500000) :
    Cert.Gcn.agg d f i = Cert.Gcn.agg d' f' i := by
  rw [funext hd, funext hf]

/-- Zeros, scatter-added to at the column of target words, then made a column: entry `i` is zero plus the sum of
    the updates whose target word is `i`. -/
theorem aggCol_apply (D : S16515072.Idx → BitVec 32) (U : S16515072.Idx → EReal) (i : Fin 500000) :
    broadcastInDim S500000x1 ![0] bcast_S500000_S500000x1_0
      (Host.scatterAdd scatter_S500000_S16515072x1_S16515072_n_0_0_1
        (broadcastInDim S500000 ![] bcast_S_S500000 (constant (F := Ideal) S_ .f32 0x00000000#32))
        (broadcastInDim S16515072x1 ![0] bcast_S16515072_S16515072x1_0 D) U)
      (ix2 i 0)
      = 0 + Cert.Gcn.agg (fun e => D (ix1 e)) (fun e => U (ix1 e)) i := by
  refine (broadcastInDim_apply _ _ _ _ (ix1 i) (fun a => by
    match a with
    | ⟨0, _⟩ => show i.val = if 500000 = 1 then 0 else i.val; simp)).trans ?_
  refine (Cert.LibScatterTake.scatterAdd_vec _ rfl rfl rfl rfl _ _ _ i).trans ?_
  rw [broadcastInDim_scalar_apply, constant_apply, Ideal.ofBits_zero_f32]
  refine congrArg (0 + ·) ?_
  unfold Cert.Gcn.agg
  refine Finset.sum_congr ?_ (fun _ _ => rfl)
  refine Finset.filter_congr (fun e _ => ?_)
  rw [broadcastInDim_apply _ _ D (ix2 e 0) (ix1 e) (fun a => by
    match a with
    | ⟨0, _⟩ => show e.val = if 16515072 = 1 then 0 else e.val; simp)]

/-- The clip over any contents: broadcast the lower bound, take the maximum, broadcast the upper bound, take the
    minimum. -/
theorem clip_read (X : Valuation τ sig (Elt Ideal)) (L H : S_.Idx → EReal) (V : S500000x1.Idx → EReal)
    (hL : (X (Proc.devRef .tc main_cst_7) : S_.Idx → EReal) = L)
    (hH : (X (Proc.devRef .tc main_cst_8) : S_.Idx → EReal) = H)
    (hV : (X (Proc.devRef .tc main_v53) : S500000x1.Idx → EReal) = V) (i : Fin 500000) :
    (StableHlo.after hostOps4_1 X (Proc.devRef .tc main_v54) : S500000x1.Idx → EReal) (ix2 i 0)
      = min (H ix0) (max (L ix0) (V (ix2 i 0))) := by
  simp only [hostOps4_1]
  after_results
  dsimp only [StableHlo.TRef.of]
  rw [hL, hH, hV]
  show minimumf (F := Ideal) (φ := .f32) (broadcastInDim S500000x1 ![] bcast_S_S500000x1 H)
    (maximumf (F := Ideal) (φ := .f32) (broadcastInDim S500000x1 ![] bcast_S_S500000x1 L) V) (ix2 i 0) = _
  rw [minimumf_apply, maximumf_apply, broadcastInDim_scalar_apply, broadcastInDim_scalar_apply]

/-! ## The second gather and the bias column, over plain arrays -/

/-- A table gathered at the column of the words `B` (each read signed and clamped to the table), then laid out
    129024 × 128: lane `l` of row `r` reads the table at the clamped node of word `128 r + l`. -/
theorem take2_apply (T : S500000.Idx → EReal) (B : S16515072.Idx → BitVec 32) (r : Fin 129024) (l : Fin 128) :
    shapeCast S129024x128
      (Host.gather gather_S500000_S16515072x1_S16515072_n_0_n_n_0_1_1 T
        (broadcastInDim S16515072x1 ![0] bcast_S16515072_S16515072x1_0 B))
      shapeCasts_S16515072_S129024x128 (ix2 r l)
      = T (ix1 (Cert.Gcn.node (B (ix1 (flat r l))))) := by
  have hidx : broadcastInDim S16515072x1 ![0] bcast_S16515072_S16515072x1_0 B (ix2 (flat r l) 0) = B (ix1 (flat r l)) :=
    broadcastInDim_apply _ _ B _ _ (fun a => by
      match a with
      | ⟨0, _⟩ => show (flat r l).val = if 16515072 = 1 then 0 else (flat r l).val; simp)
  refine (ofFlat_apply _ r l).trans ?_
  refine (Cert.LibScatterTake.gather_vec _ rfl rfl rfl rfl _ _ (flat r l) (by decide)).trans ?_
  refine congrArg (fun a : Fin 500000 => T (ix1 a)) (Fin.ext ?_)
  show min (broadcastInDim S16515072x1 ![0] bcast_S16515072_S16515072x1_0 B (ix2 (flat r l) 0)).toInt.toNat (500000 - 1)
    = min (B (ix1 (flat r l))).toInt.toNat 499999
  rw [hidx] <;> omega

/-- A column laid flat reads, at position `n`, row `n` of the column. -/
theorem colFlat_apply {α : Type} (A : S500000x1.Idx → α) (n : Fin 500000) :
    shapeCast S500000 A shapeCasts_S500000x1_S500000 (ix1 n) = A (ix2 n 0) :=
  shapeCast_apply A _ _ _ (by
    rw [Shape.rowMajor_val_two, Shape.rowMajor_val_one]
    show n.val * 1 + 0 = n.val
    omega)

/-- The bias, a one-entry vector made a 1 × 1 array and then a column, reads its one entry everywhere. -/
theorem biasCol_apply (Bv : S1.Idx → EReal) (i : Fin 500000) :
    broadcastInDim S500000x1 ![0, 1] bcast_S1x1_S500000x1_0_1 (broadcastInDim S1x1 ![1] bcast_S1_S1x1_1 Bv) (ix2 i 0)
      = Bv (ix1 0) := by
  refine (broadcastInDim_apply _ _ _ (ix2 i 0) (ix2 0 0) (fun a => by
    match a with
    | ⟨0, _⟩ => show (0 : Nat) = if 1 = 1 then 0 else i.val; simp
    | ⟨1, _⟩ => show (0 : Nat) = if 1 = 1 then 0 else 0; simp)).trans ?_
  exact broadcastInDim_apply _ _ Bv (ix2 0 0) (ix1 0) (fun a => by
    match a with
    | ⟨0, _⟩ => show (0 : Nat) = if 1 = 1 then 0 else 0; simp)

theorem s1_apply (i : Fin 500000) : s1W m ρ c (ix2 i 0) = Cert.Gcn.s1P (xIn m c) (eiIn m c) i := by
  show W13 m ρ c (Proc.devRef .tc main_v35) (ix2 i 0) = _
  dsimp only [W13]
  simp only [hostOps1]
  after_results
  have hM : ∀ e : Fin 16515072, (W12 m ρ c (Proc.devRef .tc main_v30) : S129024x128.Idx → EReal) (ix2 (rowOf e) (laneOf e))
      = Cert.Gcn.normP (eiIn m c) e * xIn m c (Cert.Gcn.node (Cert.Gcn.srcP (eiIn m c) e)) := fun e => by
    refine (msg1_eq m ρ c _).trans ?_
    rw [norm_apply, val1_apply, flat_rowOf_laneOf]
  generalize (W12 m ρ c (Proc.devRef .tc main_v30) : S129024x128.Idx → EReal) = M at hM ⊢
  refine (aggCol_apply _ _ i).trans ?_
  unfold Cert.Gcn.s1P
  refine congrArg (0 + ·) (agg_congr (fun e => ?_) (fun e => ?_) i)
  · exact (congrFun (dst_at12 m ρ c) (ix1 e)).trans (dst_apply m ρ c e)
  · exact (toFlat_apply M e).trans (hM e)

theorem h1_apply (i : Fin 500000) (k : Fin 10) :
    h1W m ρ c (ix2 i k) = Cert.Gcn.h1P (xIn m c) (eiIn m c) (w1In m c) (b1In m c) i k := by
  show W16 m ρ c (Proc.devRef .tc main_v40) (ix2 i k) = _
  dsimp only [W16, W15]
  simp only [hostOps2_1, hostOps2]
  after_results
  have hL : (W14 m ρ c (Proc.devRef .tc main_v36) : S500000x10.Idx → EReal) (ix2 i k)
      = 0 + Cert.Gcn.s1P (xIn m c) (eiIn m c) i * w1In m c k := by
    refine (lin1_eq m ρ c i k).trans ?_
    rw [s1_apply]
  have hB : (W14 m ρ c (Proc.devRef .tc main_arg3) : S10.Idx → EReal) (ix1 k) = b1In m c k :=
    congrFun (arg3_at14 m ρ c) (ix1 k)
  generalize (W14 m ρ c (Proc.devRef .tc main_v36) : S500000x10.Idx → EReal) = L at hL ⊢
  generalize (W14 m ρ c (Proc.devRef .tc main_arg3) : S10.Idx → EReal) = B at hB ⊢
  show maximumf (addf L (broadcastInDim S500000x10 ![0, 1] bcast_S1x10_S500000x10_0_1
        (broadcastInDim S1x10 ![1] bcast_S10_S1x10_1 B)))
      (broadcastInDim S500000x10 ![] bcast_S_S500000x10 (constant (F := Ideal) S_ .f32 0x00000000#32)) (ix2 i k) = _
  rw [maximumf_apply, addf_apply, broadcastInDim_scalar_apply, constant_apply, Ideal.ofBits_zero_f32]
  rw [broadcastInDim_apply ![0, 1] _ _ (ix2 i k) (ix2 (0 : Fin 1) k) (fun a => by
    match a with
    | ⟨0, _⟩ => show (0 : ℕ) = if 1 = 1 then 0 else i.val; simp
    | ⟨1, _⟩ => show k.val = if 10 = 1 then 0 else k.val; simp)]
  rw [broadcastInDim_apply ![1] _ B (ix2 (0 : Fin 1) k) (ix1 k) (fun a => by
    match a with
    | ⟨0, _⟩ => show k.val = if 10 = 1 then 0 else k.val; simp)]
  rw [hL, hB]
  rfl

theorem val2_apply (r : Fin 129024) (l : Fin 128) :
    val2W m ρ c (ix2 r l)
      = Cert.Gcn.xw2P (xIn m c) (eiIn m c) (w1In m c) (b1In m c) (w2In m c) (Cert.Gcn.node (Cert.Gcn.srcP (eiIn m c) (flat r l))) := by
  -- the third region's output column, laid flat
  have h42 : ∀ n : Fin 500000, (W18 m ρ c (Proc.devRef .tc main_v42) : S500000.Idx → EReal) (ix1 n)
      = Cert.Gcn.xw2P (xIn m c) (eiIn m c) (w1In m c) (b1In m c) (w2In m c) n := fun n => by
    dsimp only [W18]
    simp only [hostOps3]
    after_results
    have hA : (W17 m ρ c (Proc.devRef .tc main_v41) : S500000x1.Idx → EReal) (ix2 n 0)
        = Cert.Gcn.xw2P (xIn m c) (eiIn m c) (w1In m c) (b1In m c) (w2In m c) n := by
      refine (xw2_eq m ρ c n).trans ?_
      rw [h1_apply m ρ c n 0, h1_apply m ρ c n 1, h1_apply m ρ c n 2, h1_apply m ρ c n 3, h1_apply m ρ c n 4,
        h1_apply m ρ c n 5, h1_apply m ρ c n 6, h1_apply m ρ c n 7, h1_apply m ρ c n 8, h1_apply m ρ c n 9]
      rfl
    generalize (W17 m ρ c (Proc.devRef .tc main_v41) : S500000x1.Idx → EReal) = A at hA ⊢
    exact (colFlat_apply A n).trans hA
  -- the source words, as that boundary finds them
  have h7 : ∀ e : Fin 16515072, (W18 m ρ c (Proc.devRef .tc main_v7) : S16515072.Idx → BitVec 32) (ix1 e)
      = Cert.Gcn.srcP (eiIn m c) e := fun e => (congrFun (src_at18 m ρ c) (ix1 e)).trans (src_apply m ρ c e)
  show W20 m ρ c (Proc.devRef .tc main_v44) (ix2 r l) = _
  dsimp only [W20, W19]
  generalize W18 m ρ c = X at h42 h7 ⊢
  simp only [hostOps3_2, hostOps3_1]
  after_results
  refine (take2_apply (X (Proc.devRef .tc main_v42)) (X (Proc.devRef .tc main_v7)) r l).trans ?_
  rw [h7, h42]

theorem out_apply (i : Fin 500000) :
    outW m ρ c (ix2 i 0) = Cert.Gcn.outP (xIn m c) (eiIn m c) (w1In m c) (b1In m c) (w2In m c) (b2In m c) i := by
  have hlo : (W22 m ρ c (Proc.devRef .tc main_cst_7) : S_.Idx → EReal) ix0 = Cert.Gcn.lo := by
    dsimp only [W22]
    simp only [hostOps4]
    after_results
    exact constant_apply _ _
  have hhi : (W22 m ρ c (Proc.devRef .tc main_cst_8) : S_.Idx → EReal) ix0 = Cert.Gcn.hi := by
    dsimp only [W22]
    simp only [hostOps4]
    after_results
    exact constant_apply _ _
  have h53 : ∀ i : Fin 500000, (W22 m ρ c (Proc.devRef .tc main_v53) : S500000x1.Idx → EReal) (ix2 i 0)
      = Cert.Gcn.s2P (xIn m c) (eiIn m c) (w1In m c) (b1In m c) (w2In m c) i + b2In m c := fun i => by
    dsimp only [W22]
    simp only [hostOps4]
    after_results
    have hM : ∀ e : Fin 16515072, (W21 m ρ c (Proc.devRef .tc main_v45) : S129024x128.Idx → EReal) (ix2 (rowOf e) (laneOf e))
        = Cert.Gcn.normP (eiIn m c) e
          * Cert.Gcn.xw2P (xIn m c) (eiIn m c) (w1In m c) (b1In m c) (w2In m c) (Cert.Gcn.node (Cert.Gcn.srcP (eiIn m c) e)) := fun e => by
      refine (msg2_eq m ρ c _).trans ?_
      rw [norm_apply, val2_apply, flat_rowOf_laneOf]
    have hD : ∀ e : Fin 16515072, (W21 m ρ c (Proc.devRef .tc main_v8) : S16515072.Idx → BitVec 32) (ix1 e)
        = Cert.Gcn.dstP (eiIn m c) e := fun e => (congrFun (dst_at21 m ρ c) (ix1 e)).trans (dst_apply m ρ c e)
    have hb : (W21 m ρ c (Proc.devRef .tc main_arg5) : S1.Idx → EReal) (ix1 0) = b2In m c :=
      congrFun (arg5_at21 m ρ c) (ix1 0)
    generalize (W21 m ρ c (Proc.devRef .tc main_v45) : S129024x128.Idx → EReal) = M at hM ⊢
    generalize (W21 m ρ c (Proc.devRef .tc main_v8) : S16515072.Idx → BitVec 32) = D at hD ⊢
    generalize (W21 m ρ c (Proc.devRef .tc main_arg5) : S1.Idx → EReal) = Bv at hb ⊢
    refine (addf_apply _ _ _).trans ?_
    refine congrArg₂ (· + ·) ?_ ((biasCol_apply Bv i).trans hb)
    refine (aggCol_apply _ _ i).trans ?_
    unfold Cert.Gcn.s2P
    refine congrArg (0 + ·) (agg_congr (fun e => hD e) (fun e => ?_) i)
    exact (toFlat_apply M e).trans (hM e)
  show W23 m ρ c (Proc.devRef .tc main_v54) (ix2 i 0) = _
  dsimp only [W23]
  refine (clip_read (W22 m ρ c) _ _ _ rfl rfl rfl i).trans ?_
  rw [hhi, hlo, h53]
  rfl

end Cert.KernelIdeal.Val

end
-- ==== Proof.PreFacts.lean ====
/-
  What the precondition says of the arguments: every feature and every first-layer weight is a real number, and
  every given edge word, read signed, is a node number in `[0, 500000)`.
-/
import proofs.«427156_j33560874451187_3_alg».proof.Defs
import proofs.«427156_j33560874451187_3_alg».proof.Proof.KBufs
import Idealize.ShloMosaic.Lib.ReduceAll
import Idealize.ShloMosaic.Lib.StableHlo.Predicate

noncomputable section

namespace Cert.KernelIdeal.Val

open Idealize.ShloMosaic Idealize.ShloMosaic.TcCoe Idealize.ShloMosaic.ValueIdx Idealize.SL.Sem
open Cert.KernelIdeal Cert.KernelIdeal.Gen

namespace Pre

/-- The rank-0 shape has exactly one index, so a reduction over all axes lands in a one-index result. -/
theorem idx0_subsingleton : Subsingleton Cert.Pre_finite_inputs.S_.Idx := ⟨fun a b => funext fun d => d.elim0⟩

/-- An extended real whose absolute value, max x (-x), is below +∞ is a real number: at either infinity that
    maximum is +∞ itself. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry of the test |x| < +∞ (the bound being the f32 pattern 0x7F800000 broadcast from a scalar): where the
    comparison word is 1 the entry is a real number. -/
theorem real_of_entry {s : Shape} (hb : Cert.Pre_finite_inputs.S_.BroadcastsInDim s ![]) (x : FVec Ideal s .f32) (i : s.Idx)
    (h : cmpf .olt (Host.absf x) (broadcastInDim s ![] hb (constant Cert.Pre_finite_inputs.S_ .f32 0x7F800000#32)) i = 1#1) :
    ∃ r : ℝ, x i = (r : EReal) := by
  have htop : Ideal.ofBits .f32 0x7F800000#32 = (⊤ : EReal) := by simp [Ideal.ofBits, Ideal.ieee]
  have h' : BitVec.ofBool (decide (max (x i) (-(x i)) < Ideal.ofBits .f32 0x7F800000#32)) = 1#1 := h
  rw [htop] at h'
  have hbool : ∀ b : Bool, BitVec.ofBool b = 1#1 → b = true := by decide
  exact real_of_abs_lt_top (x i) (of_decide_eq_true (hbool _ h'))

/-- One entry of the two signed tests 0 ≤ w and w < 500000 (each bound broadcast from a scalar): where both
    comparison words are 1 the word, read signed, lies in [0, 500000). -/
theorem range_of_entry {s : Shape} (hb : Cert.Pre_finite_inputs.S_.BroadcastsInDim s ![]) (w : IVec s 32) (i : s.Idx)
    (h0 : cmpi .sge w (broadcastInDim s ![] hb (constantI Cert.Pre_finite_inputs.S_ 32 0#32)) i = 1#1)
    (h1 : cmpi .slt w (broadcastInDim s ![] hb (constantI Cert.Pre_finite_inputs.S_ 32 500000#32)) i = 1#1) :
    0 ≤ (w i).toInt ∧ (w i).toInt < 500000 := by
  have h0' : IntOp.cmpi .sge (w i) 0#32 = 1#1 := h0
  have h1' : IntOp.cmpi .slt (w i) 500000#32 = 1#1 := h1
  rw [IntOp.cmpi_sge] at h0'
  rw [IntOp.cmpi_slt] at h1'
  have z : (0#32 : BitVec 32).toInt = 0 := by decide
  have f : (500000#32 : BitVec 32).toInt = 500000 := by decide
  rw [z] at h0'
  rw [f] at h1'
  exact ⟨h0', h1'⟩

/-- The precondition's function, read back over arbitrary arguments. It is a conjunction of seven reductions by "and":
    finiteness of each of the five float arguments, then the two signed range tests on the edge words. Where the
    whole is 1 each reduction is 1, and a reduction over all axes that is 1 had a 1 at every entry. -/
theorem fn_decode [Cert.Pre_finite_inputs.Facts]
    (a0 : FVec Ideal Cert.Pre_finite_inputs.S500000x1 .f32) (a1 : IVec Cert.Pre_finite_inputs.S2x16000000 32)
    (a2 : FVec Ideal Cert.Pre_finite_inputs.S1x10 .f32) (a3 : FVec Ideal Cert.Pre_finite_inputs.S10 .f32)
    (a4 : FVec Ideal Cert.Pre_finite_inputs.S10x1 .f32) (a5 : FVec Ideal Cert.Pre_finite_inputs.S1 .f32)
    (j : Cert.Pre_finite_inputs.S_.Idx)
    (h : Cert.Pre_finite_inputs.fn (F := Ideal) a0 a1 a2 a3 a4 a5 j = 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal))
      ∧ (∀ i, 0 ≤ (a1 i).toInt ∧ (a1 i).toInt < 500000) := by
  haveI := idx0_subsingleton
  dsimp only [Cert.Pre_finite_inputs.fn, Cert.Pre_finite_inputs.fn_part1, Idealize.ShloMosaic.andi] at h
  simp only [IntOp.andi_eq_one] at h
  obtain ⟨⟨⟨⟨⟨⟨h0, h2⟩, h3⟩, h4⟩, h5⟩, hge⟩, hlt⟩ := h
  refine ⟨fun i => ?_, fun i => ?_, fun i => ?_, fun i => ?_, fun i => ?_, fun i => ?_⟩
  · exact real_of_entry _ a0 i (Host.reduce_andi_all _ _ _ _ j h0 i)
  · exact real_of_entry _ a2 i (Host.reduce_andi_all _ _ _ _ j h2 i)
  · exact real_of_entry _ a3 i (Host.reduce_andi_all _ _ _ _ j h3 i)
  · exact real_of_entry _ a4 i (Host.reduce_andi_all _ _ _ _ j h4 i)
  · exact real_of_entry _ a5 i (Host.reduce_andi_all _ _ _ _ j h5 i)
  · exact range_of_entry _ a1 i (Host.reduce_andi_all _ _ _ _ j hge i) (Host.reduce_andi_all _ _ _ _ j hlt i)

end Pre

variable (m : (ℓ : Loc nD τ sig) → Buf (Elt Ideal) ℓ) (ρ : Dev nD → PrngReg) (c : Dev nD)

variable [hP : Cert.Pre_finite_inputs.Facts]

theorem x_real (hpre : Cert.Pre_KernelIdeal m) (i : Fin 500000) : ∃ r : ℝ, xIn m c i = (r : EReal) := by
  have h := congrFun (hpre c) ix0
  exact (Pre.fn_decode _ _ _ _ _ _ ix0 h).1 (ix2 i 0)
theorem w1_real (hpre : Cert.Pre_KernelIdeal m) (k : Fin 10) : ∃ r : ℝ, w1In m c k = (r : EReal) := by
  have h := congrFun (hpre c) ix0
  exact (Pre.fn_decode _ _ _ _ _ _ ix0 h).2.1 (ix2 0 k)
theorem ei_range (hpre : Cert.Pre_KernelIdeal m) (r : Fin 2) (e : Fin 16000000) :
    0 ≤ (eiIn m c r e).toInt ∧ (eiIn m c r e).toInt < 500000 := by
  have h := congrFun (hpre c) ix0
  exact (Pre.fn_decode _ _ _ _ _ _ ix0 h).2.2.2.2.2 (ix2 r e)

end Cert.KernelIdeal.Val

end
-- ==== Proof.RInputs.lean ====
/-
  The reference program's arguments as plain functions (the same reading as on the kernel's side).
-/
import proofs.«427156_j33560874451187_3_alg».proof.Proof.RefRead
import proofs.«427156_j33560874451187_3_alg».proof.Proof.GcnSpec

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.ReadP

def xOf (X : S500000x1.Idx → EReal) : Fin 500000 → EReal := fun i => X (ix2 i 0)
def eiOf (EI : S2x16000000.Idx → BitVec 32) : Fin 2 → Fin 16000000 → BitVec 32 := fun r e => EI (ix2 r e)
def w1Of (W1 : S1x10.Idx → EReal) : Fin 10 → EReal := fun k => W1 (ix2 0 k)
def b1Of (B1 : S10.Idx → EReal) : Fin 10 → EReal := fun k => B1 (ix1 k)
def w2Of (W2 : S10x1.Idx → EReal) : Fin 10 → EReal := fun k => W2 (ix2 k 0)
def b2Of (B2 : S1.Idx → EReal) : EReal := B2 (ix1 0)

end Cert.ReferenceIdeal.RefVal

end
-- ==== Proof.RNorm.lean ====
/-
  The reference's edge list and its normalisation, read at an index.

  The reference joins the given edge words with the self-loops' node numbers (16,500,000 edges, every weight 1),
  counts each node's incoming edges, takes the reciprocal square root, and multiplies the two ends' factors per
  edge — each end looked up after a negative word has had 500000 added.  It computes all of this twice, once per
  layer, by the same operations; both copies are read here.

  Each step is first stated over any arrays of the right sizes (a joined list read at a position of either piece,
  a count as a sum over the edges aimed at a node, a lookup as the table at the word's node); the two copies then
  instantiate the steps with their own arrays.
-/
import proofs.«427156_j33560874451187_3_alg».proof.Proof.RInputs
import proofs.«427156_j33560874451187_3_alg».proof.Proof.LibScatterTake

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.ReadP

/-! ## The steps, over any arrays -/

section Steps
open Cert.Gcn

/-- The word \`0x3F800000\` is the number one. -/
theorem ofBits_one : Ideal.ofBits .f32 0x3F800000#32 = 1 := by
  simp [Ideal.ofBits, Ideal.ieee, -EReal.coe_mul]; norm_num

/-- Two copies of a row stacked: either row of the result is that row. -/
theorem rows_apply (v2 v3 : (⟨2, ![1, 500000]⟩ : Shape).Idx → BitVec 32)
    (h : Shape.Concatenates [(⟨2, ![1, 500000]⟩ : Shape), ⟨2, ![1, 500000]⟩] ⟨2, ![2, 500000]⟩ 0)
    (f : Fin 500000 → BitVec 32)
    (h2 : ∀ n, v2 (ix2 0 n) = f n) (h3 : ∀ n, v3 (ix2 0 n) = f n) (r : Fin 2) (n : Fin 500000) :
    concatenate ⟨2, ![2, 500000]⟩ 0 [⟨_, v2⟩, ⟨_, v3⟩] h (ix2 r n) = f n := by
  match r with
  | ⟨0, _⟩ =>
    refine (concatenate_pair_apply_left 0 v2 v3 h _ rfl (ix2 0 n) (fun b => ?_)).trans (h2 n)
    match b with
    | ⟨0, _⟩ => rfl
    | ⟨1, _⟩ => rfl
  | ⟨1, _⟩ =>
    refine (concatenate_pair_apply_right 0 v2 v3 h _ rfl rfl (ix2 0 n) (fun b hb => ?_) rfl).trans (h3 n)
    match b, hb with
    | ⟨0, _⟩, hb => exact absurd rfl hb
    | ⟨1, _⟩, _ => rfl

/-- The given words followed by the node numbers, along the edge axis: the plain list's word. -/
theorem joined_apply (x1 : (⟨2, ![2, 16000000]⟩ : Shape).Idx → BitVec 32) (v4 : (⟨2, ![2, 500000]⟩ : Shape).Idx → BitVec 32)
    (h : Shape.Concatenates [(⟨2, ![2, 16000000]⟩ : Shape), ⟨2, ![2, 500000]⟩] ⟨2, ![2, 16500000]⟩ 1)
    (ei : Fin 2 → Fin 16000000 → BitVec 32) (hx : ∀ r e, x1 (ix2 r e) = ei r e)
    (h4 : ∀ r (n : Fin 500000), v4 (ix2 r n) = BitVec.ofNat 32 n.val) (r : Fin 2) (e : Fin 16500000) :
    concatenate ⟨2, ![2, 16500000]⟩ 1 [⟨_, x1⟩, ⟨_, v4⟩] h (ix2 r e) = wordL ei r e := by
  unfold wordL
  by_cases he : e.val < 16000000
  · rw [dif_pos he]
    refine (concatenate_pair_apply_left 1 x1 v4 h _ rfl (ix2 r ⟨e.val, he⟩) (fun b => ?_)).trans (hx r _)
    match b with
    | ⟨0, _⟩ => rfl
    | ⟨1, _⟩ => rfl
  · rw [dif_neg he]
    -- name the position past the given words, so that no subtraction stands in the goal
    obtain ⟨k, hk⟩ : ∃ k : Fin 500000, k.val + 16000000 = e.val :=
      ⟨⟨e.val - 16000000, by have := e.isLt; omega⟩, Nat.sub_add_cancel (Nat.le_of_not_lt he)⟩
    have hk' : e.val - 16000000 = k.val := by omega
    rw [hk']
    refine (concatenate_pair_apply_right 1 x1 v4 h (ix2 r e) rfl rfl (ix2 r k) (fun b hb => ?_) hk).trans (h4 r k)
    match b, hb with
    | ⟨0, _⟩, _ => rfl
    | ⟨1, _⟩, hb => exact absurd rfl hb

/-- Two all-ones vectors joined are all ones. -/
theorem ones_apply (a : (⟨1, ![16000000]⟩ : Shape).Idx → EReal) (b : (⟨1, ![500000]⟩ : Shape).Idx → EReal)
    (h : Shape.Concatenates [(⟨1, ![16000000]⟩ : Shape), ⟨1, ![500000]⟩] ⟨1, ![16500000]⟩ 0)
    (ha : ∀ i, a i = 1) (hb : ∀ i, b i = 1) (e : Fin 16500000) :
    concatenate ⟨1, ![16500000]⟩ 0 [⟨_, a⟩, ⟨_, b⟩] h (ix1 e) = 1 := by
  by_cases he : e.val < 16000000
  · refine (concatenate_pair_apply_left 0 a b h _ rfl (ix1 ⟨e.val, he⟩) (fun c => ?_)).trans (ha _)
    match c with
    | ⟨0, _⟩ => rfl
  · obtain ⟨k, hk⟩ : ∃ k : Fin 500000, k.val + 16000000 = e.val :=
      ⟨⟨e.val - 16000000, by have := e.isLt; omega⟩, Nat.sub_add_cancel (Nat.le_of_not_lt he)⟩
    refine (concatenate_pair_apply_right 0 a b h (ix1 e) rfl rfl (ix1 k) (fun c hc => ?_) hk).trans (hb _)
    match c, hc with
    | ⟨0, _⟩, hc => exact absurd rfl hc

/-- Adding the weight one at every edge's target onto zero counts each node's incoming edges. -/
theorem deg_apply (d : ScatterDims ⟨1, ![500000]⟩ ⟨2, ![16500000, 1]⟩ ⟨1, ![16500000]⟩)
    (huw : d.updateWindowDims = []) (hiw : d.insertedWindowDims = [0]) (hsd : d.scatterDimsToOperandDims = [0])
    (hivd : d.indexVectorDim = 1)
    (z : FVec Ideal ⟨1, ![500000]⟩ .f32) (idx : IVec ⟨2, ![16500000, 1]⟩ 32) (w : FVec Ideal ⟨1, ![16500000]⟩ .f32)
    (dst : Fin 16500000 → BitVec 32)
    (hz : ∀ i, z i = 0) (hidx : ∀ e, idx (ix2 e 0) = dst e) (hw : ∀ e, w (ix1 e) = 1) (i : Fin 500000) :
    Host.scatterAdd d z idx w (ix1 i) = 0 + agg dst (fun _ => 1) i := by
  rw [Cert.LibScatterTake.scatterAdd_vec d huw hiw hsd hivd z idx w i, hz]
  unfold agg
  simp only [hidx, hw]

/-- A lookup in a 500000-entry table by a column of words reads the table at the word's node. -/
theorem take_apply {α : Type} (d : GatherDims ⟨1, ![500000]⟩ ⟨2, ![16500000, 1]⟩ ⟨1, ![16500000]⟩)
    (hcoll : d.collapsedSliceDims = [0]) (hob : d.operandBatchingDims = [])
    (hsim : d.startIndexMap = [0]) (hivd : d.indexVectorDim = 1)
    (x : (⟨1, ![500000]⟩ : Shape).Idx → α) (idx : IVec ⟨2, ![16500000, 1]⟩ 32) (w : Fin 16500000 → BitVec 32)
    (hidx : ∀ e, idx (ix2 e 0) = w e) (e : Fin 16500000) :
    Host.gather d x idx (ix1 e) = x (ix1 (node (w e))) := by
  rw [← hidx e]
  exact Cert.LibScatterTake.gather_vec d hcoll hob hsim hivd x idx e (by decide)

end Steps

variable (EI : S2x16000000.Idx → BitVec 32)

/-! ## First copy (first layer) -/

/-- Both rows of the node-number block read the node's number. -/
theorem nodes1_apply (r : Fin 2) (n : Fin 500000) : val_main_v4 (F := Ideal) (ix2 r n) = BitVec.ofNat 32 n.val := by
  unfold val_main_v4
  exact rows_apply _ _ _ (fun n => BitVec.ofNat 32 n.val)
    (fun n => by rw [val_main_v2_apply]; rfl) (fun n => by rw [val_main_v3_apply]; rfl) r n

/-- Position \`e\` of the flat source words is position \`(0, e)\` of the joined list. -/
theorem idxsrc1 (e : Fin 16500000) : idx_main_v8 (idx_main_v9 (ix1 e)) = ix2 (0 : Fin 2) e := by
  funext a
  match a with
  | ⟨0, _⟩ => rfl
  | ⟨1, _⟩ => exact Fin.ext (Nat.mod_eq_of_lt e.isLt)
/-- Position \`e\` of the flat target words is position \`(1, e)\` of the joined list. -/
theorem idxdst1 (e : Fin 16500000) : idx_main_v10 (idx_main_v11 (ix1 e)) = ix2 (1 : Fin 2) e := by
  funext a
  match a with
  | ⟨0, _⟩ => rfl
  | ⟨1, _⟩ => exact Fin.ext (Nat.mod_eq_of_lt e.isLt)

theorem src1_apply (e : Fin 16500000) : val_main_v9 (F := Ideal) EI (ix1 e) = Cert.Gcn.srcL (eiOf EI) e := by
  rw [val_main_v9_apply, val_main_v8_apply, idxsrc1 e]
  unfold val_main_v5
  exact joined_apply EI _ _ (eiOf EI) (fun _ _ => rfl) nodes1_apply 0 e
theorem dst1_apply (e : Fin 16500000) : val_main_v11 (F := Ideal) EI (ix1 e) = Cert.Gcn.dstL (eiOf EI) e := by
  rw [val_main_v11_apply, val_main_v10_apply, idxdst1 e]
  unfold val_main_v5
  exact joined_apply EI _ _ (eiOf EI) (fun _ _ => rfl) nodes1_apply 1 e
theorem ew1_apply (e : Fin 16500000) : val_main_v7 (F := Ideal) (ix1 e) = 1 := by
  unfold val_main_v7
  exact ones_apply _ _ _ (fun i => by rw [val_main_v0_apply, val_main_cst_apply]; exact ofBits_one)
    (fun i => by rw [val_main_v6_apply, val_main_cst_0_apply]; exact ofBits_one) e

/-- A column's entry \`(e, 0)\` is the flat array's entry \`e\` (the three columns the scatter and the lookups read). -/
theorem idxcolA1 (e : Fin 16500000) : idx_main_v13 (ix2 e 0) = ix1 e := by
  funext a
  match a with
  | ⟨0, _⟩ => rfl
theorem idxcolB1 (e : Fin 16500000) : idx_main_v26 (ix2 e 0) = ix1 e := by
  funext a
  match a with
  | ⟨0, _⟩ => rfl
theorem idxcolC1 (e : Fin 16500000) : idx_main_v34 (ix2 e 0) = ix1 e := by
  funext a
  match a with
  | ⟨0, _⟩ => rfl

/-- The scatter-add of the weights onto zero is the degree. -/
theorem deg1_apply (i : Fin 500000) : val_main_v14 (F := Ideal) EI (ix1 i) = Cert.Gcn.degL (eiOf EI) i := by
  unfold val_main_v14
  exact deg_apply _ rfl rfl rfl rfl _ _ _ (Cert.Gcn.dstL (eiOf EI))
    (fun i => by rw [val_main_v12_apply, val_main_cst_1_apply]; exact Ideal.ofBits_zero_f32)
    (fun e => by rw [val_main_v13_apply, idxcolA1 e]; exact dst1_apply EI e)
    (fun e => ew1_apply e) i

theorem dinv1_apply (i : Fin 500000) : val_main_v20 (F := Ideal) EI (ix1 i) = Cert.Gcn.dinvL (eiOf EI) i := by
  rw [val_main_v20_apply, val_main_v16_apply, val_main_v19_apply, val_main_v18_apply, val_main_call0_v1_apply,
    val_main_call0_v0_apply, val_main_cst_4_apply, val_main_v15_apply, val_main_cst_2_apply, val_main_v17_apply,
    val_main_cst_3_apply, deg1_apply]
  rfl

/-- The source words after the from-the-end rewrite, as the factor lookup (`v25`) and the feature lookup (`v43`) read them. -/
theorem wsrc1_apply (e : Fin 16500000) :
    val_main_v25 (F := Ideal) EI (ix1 e) = Cert.Gcn.wrapw (Cert.Gcn.srcL (eiOf EI) e) := by
  rw [val_main_v25_apply, val_main_v22_apply, val_main_v24_apply, val_main_v21_apply, val_main_c_apply, val_main_v23_apply,
    val_main_c_5_apply, src1_apply]
  rfl
/-- The same rewrite as the feature lookup reads it. -/
theorem wsrc1'_apply (e : Fin 16500000) :
    val_main_v43 (F := Ideal) EI (ix1 e) = Cert.Gcn.wrapw (Cert.Gcn.srcL (eiOf EI) e) := by
  rw [val_main_v43_apply, val_main_v40_apply, val_main_v42_apply, val_main_v39_apply, val_main_c_8_apply, val_main_v41_apply,
    val_main_c_9_apply, src1_apply]
  rfl
/-- The target words after the from-the-end rewrite. -/
theorem wdst1_apply (e : Fin 16500000) :
    val_main_v33 (F := Ideal) EI (ix1 e) = Cert.Gcn.wrapw (Cert.Gcn.dstL (eiOf EI) e) := by
  rw [val_main_v33_apply, val_main_v30_apply, val_main_v32_apply, val_main_v29_apply, val_main_c_6_apply, val_main_v31_apply,
    val_main_c_7_apply, dst1_apply]
  rfl

/-- The source end's factor, looked up. -/
theorem fsrc1_apply (e : Fin 16500000) :
    val_main_v27 (F := Ideal) EI (ix1 e)
      = Cert.Gcn.dinvL (eiOf EI) (Cert.Gcn.node (Cert.Gcn.wrapw (Cert.Gcn.srcL (eiOf EI) e))) := by
  unfold val_main_v27
  refine (take_apply _ rfl rfl rfl rfl _ _ (fun e => Cert.Gcn.wrapw (Cert.Gcn.srcL (eiOf EI) e)) (fun e => ?_) e).trans
    (dinv1_apply EI _)
  rw [val_main_v26_apply, idxcolB1 e]
  exact wsrc1_apply EI e
/-- The target end's factor, looked up. -/
theorem fdst1_apply (e : Fin 16500000) :
    val_main_v35 (F := Ideal) EI (ix1 e)
      = Cert.Gcn.dinvL (eiOf EI) (Cert.Gcn.node (Cert.Gcn.wrapw (Cert.Gcn.dstL (eiOf EI) e))) := by
  unfold val_main_v35
  refine (take_apply _ rfl rfl rfl rfl _ _ (fun e => Cert.Gcn.wrapw (Cert.Gcn.dstL (eiOf EI) e)) (fun e => ?_) e).trans
    (dinv1_apply EI _)
  rw [val_main_v34_apply, idxcolC1 e]
  exact wdst1_apply EI e

theorem norm1_apply (e : Fin 16500000) : val_main_v36 (F := Ideal) EI (ix1 e) = Cert.Gcn.normL (eiOf EI) e := by
  rw [val_main_v36_apply, val_main_v28_apply, ew1_apply, fsrc1_apply, fdst1_apply]
  rfl

/-! ## Second copy (second layer) -/

/-- Both rows of the node-number block read the node's number. -/
theorem nodes2_apply (r : Fin 2) (n : Fin 500000) : val_main_v58 (F := Ideal) (ix2 r n) = BitVec.ofNat 32 n.val := by
  unfold val_main_v58
  exact rows_apply _ _ _ (fun n => BitVec.ofNat 32 n.val)
    (fun n => by rw [val_main_v56_apply]; rfl) (fun n => by rw [val_main_v57_apply]; rfl) r n

/-- Position \`e\` of the flat source words is position \`(0, e)\` of the joined list. -/
theorem idxsrc2 (e : Fin 16500000) : idx_main_v62 (idx_main_v63 (ix1 e)) = ix2 (0 : Fin 2) e := by
  funext a
  match a with
  | ⟨0, _⟩ => rfl
  | ⟨1, _⟩ => exact Fin.ext (Nat.mod_eq_of_lt e.isLt)
/-- Position \`e\` of the flat target words is position \`(1, e)\` of the joined list. -/
theorem idxdst2 (e : Fin 16500000) : idx_main_v64 (idx_main_v65 (ix1 e)) = ix2 (1 : Fin 2) e := by
  funext a
  match a with
  | ⟨0, _⟩ => rfl
  | ⟨1, _⟩ => exact Fin.ext (Nat.mod_eq_of_lt e.isLt)

theorem src2_apply (e : Fin 16500000) : val_main_v63 (F := Ideal) EI (ix1 e) = Cert.Gcn.srcL (eiOf EI) e := by
  rw [val_main_v63_apply, val_main_v62_apply, idxsrc2 e]
  unfold val_main_v59
  exact joined_apply EI _ _ (eiOf EI) (fun _ _ => rfl) nodes2_apply 0 e
theorem dst2_apply (e : Fin 16500000) : val_main_v65 (F := Ideal) EI (ix1 e) = Cert.Gcn.dstL (eiOf EI) e := by
  rw [val_main_v65_apply, val_main_v64_apply, idxdst2 e]
  unfold val_main_v59
  exact joined_apply EI _ _ (eiOf EI) (fun _ _ => rfl) nodes2_apply 1 e
theorem ew2_apply (e : Fin 16500000) : val_main_v61 (F := Ideal) (ix1 e) = 1 := by
  unfold val_main_v61
  exact ones_apply _ _ _ (fun i => by rw [val_main_v0_apply, val_main_cst_apply]; exact ofBits_one)
    (fun i => by rw [val_main_v60_apply, val_main_cst_11_apply]; exact ofBits_one) e

/-- A column's entry \`(e, 0)\` is the flat array's entry \`e\` (the three columns the scatter and the lookups read). -/
theorem idxcolA2 (e : Fin 16500000) : idx_main_v67 (ix2 e 0) = ix1 e := by
  funext a
  match a with
  | ⟨0, _⟩ => rfl
theorem idxcolB2 (e : Fin 16500000) : idx_main_v80 (ix2 e 0) = ix1 e := by
  funext a
  match a with
  | ⟨0, _⟩ => rfl
theorem idxcolC2 (e : Fin 16500000) : idx_main_v88 (ix2 e 0) = ix1 e := by
  funext a
  match a with
  | ⟨0, _⟩ => rfl

/-- The scatter-add of the weights onto zero is the degree. -/
theorem deg2_apply (i : Fin 500000) : val_main_v68 (F := Ideal) EI (ix1 i) = Cert.Gcn.degL (eiOf EI) i := by
  unfold val_main_v68
  exact deg_apply _ rfl rfl rfl rfl _ _ _ (Cert.Gcn.dstL (eiOf EI))
    (fun i => by rw [val_main_v66_apply, val_main_cst_12_apply]; exact Ideal.ofBits_zero_f32)
    (fun e => by rw [val_main_v67_apply, idxcolA2 e]; exact dst2_apply EI e)
    (fun e => ew2_apply e) i

theorem dinv2_apply (i : Fin 500000) : val_main_v74 (F := Ideal) EI (ix1 i) = Cert.Gcn.dinvL (eiOf EI) i := by
  rw [val_main_v74_apply, val_main_v70_apply, val_main_v73_apply, val_main_v72_apply, val_main_call2_v1_apply,
    val_main_call2_v0_apply, val_main_cst_15_apply, val_main_v69_apply, val_main_cst_13_apply, val_main_v71_apply,
    val_main_cst_14_apply, deg2_apply]
  rfl

/-- The source words after the from-the-end rewrite, as the factor lookup reads them. -/
theorem wsrcg2_apply (e : Fin 16500000) :
    val_main_v79 (F := Ideal) EI (ix1 e) = Cert.Gcn.wrapw (Cert.Gcn.srcL (eiOf EI) e) := by
  rw [val_main_v79_apply, val_main_v76_apply, val_main_v78_apply, val_main_v75_apply, val_main_c_16_apply, val_main_v77_apply,
    val_main_c_17_apply, src2_apply]
  rfl
/-- The same rewrite as the feature lookup reads it. -/
theorem wsrc2_apply (e : Fin 16500000) :
    val_main_v97 (F := Ideal) EI (ix1 e) = Cert.Gcn.wrapw (Cert.Gcn.srcL (eiOf EI) e) := by
  rw [val_main_v97_apply, val_main_v94_apply, val_main_v96_apply, val_main_v93_apply, val_main_c_20_apply, val_main_v95_apply,
    val_main_c_21_apply, src2_apply]
  rfl
/-- The target words after the from-the-end rewrite. -/
theorem wdst2_apply (e : Fin 16500000) :
    val_main_v87 (F := Ideal) EI (ix1 e) = Cert.Gcn.wrapw (Cert.Gcn.dstL (eiOf EI) e) := by
  rw [val_main_v87_apply, val_main_v84_apply, val_main_v86_apply, val_main_v83_apply, val_main_c_18_apply, val_main_v85_apply,
    val_main_c_19_apply, dst2_apply]
  rfl

/-- The source end's factor, looked up. -/
theorem fsrc2_apply (e : Fin 16500000) :
    val_main_v81 (F := Ideal) EI (ix1 e)
      = Cert.Gcn.dinvL (eiOf EI) (Cert.Gcn.node (Cert.Gcn.wrapw (Cert.Gcn.srcL (eiOf EI) e))) := by
  unfold val_main_v81
  refine (take_apply _ rfl rfl rfl rfl _ _ (fun e => Cert.Gcn.wrapw (Cert.Gcn.srcL (eiOf EI) e)) (fun e => ?_) e).trans
    (dinv2_apply EI _)
  rw [val_main_v80_apply, idxcolB2 e]
  exact wsrcg2_apply EI e
/-- The target end's factor, looked up. -/
theorem fdst2_apply (e : Fin 16500000) :
    val_main_v89 (F := Ideal) EI (ix1 e)
      = Cert.Gcn.dinvL (eiOf EI) (Cert.Gcn.node (Cert.Gcn.wrapw (Cert.Gcn.dstL (eiOf EI) e))) := by
  unfold val_main_v89
  refine (take_apply _ rfl rfl rfl rfl _ _ (fun e => Cert.Gcn.wrapw (Cert.Gcn.dstL (eiOf EI) e)) (fun e => ?_) e).trans
    (dinv2_apply EI _)
  rw [val_main_v88_apply, idxcolC2 e]
  exact wdst2_apply EI e

theorem norm2_apply (e : Fin 16500000) : val_main_v90 (F := Ideal) EI (ix1 e) = Cert.Gcn.normL (eiOf EI) e := by
  rw [val_main_v90_apply, val_main_v82_apply, ew2_apply, fsrc2_apply, fdst2_apply]
  rfl

end Cert.ReferenceIdeal.RefVal

end
-- ==== Proof.RLayers.lean ====
/-
  The reference's two layers, read at an index: the linear map, the per-edge products, the aggregation at the
  targets, bias, rectifier; then the same again at width one, bias, and the clip.
-/
import proofs.«427156_j33560874451187_3_alg».proof.Proof.RNorm

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.ReadP

variable (X : S500000x1.Idx → EReal) (EI : S2x16000000.Idx → BitVec 32) (W1 : S1x10.Idx → EReal) (B1 : S10.Idx → EReal)
  (W2 : S10x1.Idx → EReal) (B2 : S1.Idx → EReal)

/-! ## The first layer, one operation at a time

  Every lemma reads one printed operation at explicit coordinates; a layout operation only moves coordinates, so its
  reading is an equation between indices, proved coordinate by coordinate. -/

/-- The linear map: the contraction runs over the single feature, so both sides are the same one-term sum. -/
theorem layer1_lin_read (j : Fin 500000) (k : Fin 10) :
    val_main_v37 (F := Ideal) X W1 (ix2 j k) = Cert.Gcn.xw1L (xOf X) (w1Of W1) j k := by
  rw [val_main_v37_apply]
  unfold Cert.Gcn.xw1L
  refine Finset.sum_congr rfl fun q _ => ?_
  have hq : q.val = 0 := Nat.lt_one_iff.mp q.isLt
  have hl : lidx_main_v37 (ix2 j k) q = ix2 j 0 := by
    funext a
    match a with
    | ⟨0, _⟩ => rfl
    | ⟨1, _⟩ => exact Fin.ext hq
  have hr : ridx_main_v37 (ix2 j k) q = ix2 0 k := by
    funext a
    match a with
    | ⟨0, _⟩ => exact Fin.ext hq
    | ⟨1, _⟩ => rfl
  rw [hl, hr]
  rfl

/-- The target words as the column the aggregation reads. -/
theorem layer1_tgt_read (e : Fin 16500000) :
    val_main_v49 (F := Ideal) EI (ix2 e 0) = Cert.Gcn.dstL (eiOf EI) e := by
  rw [val_main_v49_apply]
  have h : idx_main_v49 (ix2 e 0) = ix1 e := by
    funext a
    match a with
    | ⟨0, _⟩ => rfl
  rw [h]
  exact dst1_apply EI e

/-- The rewritten source words as the column the row lookup reads. -/
theorem layer1_wsrc_read (e : Fin 16500000) :
    val_main_v44 (F := Ideal) EI (ix2 e 0) = Cert.Gcn.wrapw (Cert.Gcn.srcL (eiOf EI) e) := by
  rw [val_main_v44_apply]
  have h : idx_main_v44 (ix2 e 0) = ix1 e := by
    funext a
    match a with
    | ⟨0, _⟩ => rfl
  rw [h]
  exact wsrc1'_apply EI e

/-- The per-edge factor, made a column and then repeated across the ten output features. -/
theorem layer1_norm_read (e : Fin 16500000) (k : Fin 10) :
    val_main_v46 (F := Ideal) EI (ix2 e k) = Cert.Gcn.normL (eiOf EI) e := by
  rw [val_main_v46_apply, val_main_v38_apply]
  have h : idx_main_v38 (idx_main_v46 (ix2 e k)) = ix1 e := by
    funext a
    match a with
    | ⟨0, _⟩ => rfl
  rw [h]
  exact norm1_apply EI e

/-- The row lookup: edge `e` reads the linear map's row at its source word, clamped into the table; that clamp is `node`. -/
theorem layer1_gather_read (e : Fin 16500000) (k : Fin 10) :
    val_main_v45 (F := Ideal) X EI W1 (ix2 e k)
      = Cert.Gcn.xw1L (xOf X) (w1Of W1) (Cert.Gcn.node (Cert.Gcn.wrapw (Cert.Gcn.srcL (eiOf EI) e))) k := by
  unfold val_main_v45
  generalize hx : val_main_v37 (F := Ideal) X W1 = xv
  generalize hw : val_main_v44 (F := Ideal) EI = wv
  refine (Cert.LibScatterTake.gather_rows _ rfl rfl rfl rfl rfl rfl rfl xv wv e k (by decide)).trans ?_
  subst hx hw
  rw [layer1_lin_read]
  refine congrArg (fun j => Cert.Gcn.xw1L (xOf X) (w1Of W1) j k) (Fin.ext ?_)
  show min (val_main_v44 (F := Ideal) EI (ix2 e 0)).toInt.toNat (500000 - 1)
      = min (Cert.Gcn.wrapw (Cert.Gcn.srcL (eiOf EI) e)).toInt.toNat 499999
  rw [layer1_wsrc_read]

/-- One edge's message: its factor times the looked-up row. -/
theorem layer1_msg_read (e : Fin 16500000) (k : Fin 10) :
    val_main_v47 (F := Ideal) X EI W1 (ix2 e k)
      = Cert.Gcn.normL (eiOf EI) e
          * Cert.Gcn.xw1L (xOf X) (w1Of W1) (Cert.Gcn.node (Cert.Gcn.wrapw (Cert.Gcn.srcL (eiOf EI) e))) k := by
  rw [val_main_v47_apply, layer1_norm_read, layer1_gather_read]
  rfl

theorem layer1_zero_read (i : Fin 500000) (k : Fin 10) : val_main_v48 (F := Ideal) (ix2 i k) = 0 := by
  rw [val_main_v48_apply, val_main_cst_10_apply]
  exact Ideal.ofBits_zero_f32

/-- The aggregation at the targets: zero plus the messages of the edges whose target word is the node. -/
theorem layer1_agg_read (i : Fin 500000) (k : Fin 10) :
    val_main_v50 (F := Ideal) X EI W1 (ix2 i k)
      = 0 + Cert.Gcn.agg (Cert.Gcn.dstL (eiOf EI))
          (fun e => Cert.Gcn.normL (eiOf EI) e
            * Cert.Gcn.xw1L (xOf X) (w1Of W1) (Cert.Gcn.node (Cert.Gcn.wrapw (Cert.Gcn.srcL (eiOf EI) e))) k) i := by
  unfold val_main_v50
  generalize hz : val_main_v48 (F := Ideal) = z
  generalize hd : val_main_v49 (F := Ideal) EI = dcol
  generalize hu : val_main_v47 (F := Ideal) X EI W1 = u
  refine (Cert.LibScatterTake.scatterAdd_rows _ rfl rfl rfl rfl z dcol u i k).trans ?_
  subst hz hd hu
  unfold Cert.Gcn.agg
  rw [layer1_zero_read]
  refine congrArg (fun t => (0 : EReal) + t) ?_
  refine Finset.sum_congr (Finset.filter_congr fun e _ => by rw [layer1_tgt_read]) fun e _ => ?_
  exact layer1_msg_read X EI W1 e k

/-- The bias, made a row and repeated down the nodes. -/
theorem layer1_bias_read (i : Fin 500000) (k : Fin 10) :
    val_main_v52 (F := Ideal) B1 (ix2 i k) = b1Of B1 k := by
  rw [val_main_v52_apply, val_main_v51_apply]
  have h : idx_main_v51 (idx_main_v52 (ix2 i k)) = ix1 k := by
    funext a
    match a with
    | ⟨0, _⟩ => rfl
  rw [h]
  rfl

theorem layer1_relu0_read (i : Fin 500000) (k : Fin 10) : val_main_call1_v0 (F := Ideal) (ix2 i k) = 0 := by
  rw [val_main_call1_v0_apply, val_main_call1_cst_apply]
  exact Ideal.ofBits_zero_f32

theorem ref_h1_apply (i : Fin 500000) (k : Fin 10) :
    val_main_v54 (F := Ideal) X EI W1 B1 (ix2 i k) = Cert.Gcn.h1L (xOf X) (eiOf EI) (w1Of W1) (b1Of B1) i k := by
  rw [val_main_v54_apply, val_main_v53_apply, layer1_relu0_read, layer1_agg_read, layer1_bias_read]
  rfl

/-! ## The second layer: the same chain at width one, then the bias and the clip -/

/-- The second linear map: a ten-term contraction over the hidden features. -/
theorem layer2_lin_read (j : Fin 500000) :
    val_main_v91 (F := Ideal) X EI W1 B1 W2 (ix2 j 0)
      = Cert.Gcn.xw2L (xOf X) (eiOf EI) (w1Of W1) (b1Of B1) (w2Of W2) j := by
  rw [val_main_v91_apply]
  unfold Cert.Gcn.xw2L
  refine Finset.sum_congr rfl fun q _ => ?_
  have hl : lidx_main_v91 (ix2 j 0) q = ix2 j q := by
    funext a
    match a with
    | ⟨0, _⟩ => rfl
    | ⟨1, _⟩ => rfl
  have hr : ridx_main_v91 (ix2 j 0) q = ix2 q 0 := by
    funext a
    match a with
    | ⟨0, _⟩ => rfl
    | ⟨1, _⟩ => rfl
  rw [hl, hr, ref_h1_apply]
  rfl

theorem layer2_tgt_read (e : Fin 16500000) :
    val_main_v102 (F := Ideal) EI (ix2 e 0) = Cert.Gcn.dstL (eiOf EI) e := by
  rw [val_main_v102_apply]
  have h : idx_main_v102 (ix2 e 0) = ix1 e := by
    funext a
    match a with
    | ⟨0, _⟩ => rfl
  rw [h]
  exact dst2_apply EI e

theorem layer2_wsrc_read (e : Fin 16500000) :
    val_main_v98 (F := Ideal) EI (ix2 e 0) = Cert.Gcn.wrapw (Cert.Gcn.srcL (eiOf EI) e) := by
  rw [val_main_v98_apply]
  have h : idx_main_v98 (ix2 e 0) = ix1 e := by
    funext a
    match a with
    | ⟨0, _⟩ => rfl
  rw [h]
  exact wsrc2_apply EI e

theorem layer2_norm_read (e : Fin 16500000) :
    val_main_v92 (F := Ideal) EI (ix2 e 0) = Cert.Gcn.normL (eiOf EI) e := by
  rw [val_main_v92_apply]
  have h : idx_main_v92 (ix2 e 0) = ix1 e := by
    funext a
    match a with
    | ⟨0, _⟩ => rfl
  rw [h]
  exact norm2_apply EI e

theorem layer2_gather_read (e : Fin 16500000) :
    val_main_v99 (F := Ideal) X EI W1 B1 W2 (ix2 e 0)
      = Cert.Gcn.xw2L (xOf X) (eiOf EI) (w1Of W1) (b1Of B1) (w2Of W2)
          (Cert.Gcn.node (Cert.Gcn.wrapw (Cert.Gcn.srcL (eiOf EI) e))) := by
  unfold val_main_v99
  generalize hx : val_main_v91 (F := Ideal) X EI W1 B1 W2 = xv
  generalize hw : val_main_v98 (F := Ideal) EI = wv
  refine (Cert.LibScatterTake.gather_rows _ rfl rfl rfl rfl rfl rfl rfl xv wv e 0 (by decide)).trans ?_
  subst hx hw
  rw [layer2_lin_read]
  refine congrArg (fun j => Cert.Gcn.xw2L (xOf X) (eiOf EI) (w1Of W1) (b1Of B1) (w2Of W2) j) (Fin.ext ?_)
  show min (val_main_v98 (F := Ideal) EI (ix2 e 0)).toInt.toNat (500000 - 1)
      = min (Cert.Gcn.wrapw (Cert.Gcn.srcL (eiOf EI) e)).toInt.toNat 499999
  rw [layer2_wsrc_read]

theorem layer2_msg_read (e : Fin 16500000) :
    val_main_v100 (F := Ideal) X EI W1 B1 W2 (ix2 e 0)
      = Cert.Gcn.normL (eiOf EI) e
          * Cert.Gcn.xw2L (xOf X) (eiOf EI) (w1Of W1) (b1Of B1) (w2Of W2)
              (Cert.Gcn.node (Cert.Gcn.wrapw (Cert.Gcn.srcL (eiOf EI) e))) := by
  rw [val_main_v100_apply, layer2_norm_read, layer2_gather_read]
  rfl

theorem layer2_zero_read (i : Fin 500000) : val_main_v101 (F := Ideal) (ix2 i 0) = 0 := by
  rw [val_main_v101_apply, val_main_cst_22_apply]
  exact Ideal.ofBits_zero_f32

theorem layer2_agg_read (i : Fin 500000) :
    val_main_v103 (F := Ideal) X EI W1 B1 W2 (ix2 i 0)
      = Cert.Gcn.s2L (xOf X) (eiOf EI) (w1Of W1) (b1Of B1) (w2Of W2) i := by
  unfold val_main_v103
  generalize hz : val_main_v101 (F := Ideal) = z
  generalize hd : val_main_v102 (F := Ideal) EI = dcol
  generalize hu : val_main_v100 (F := Ideal) X EI W1 B1 W2 = u
  refine (Cert.LibScatterTake.scatterAdd_rows _ rfl rfl rfl rfl z dcol u i 0).trans ?_
  subst hz hd hu
  unfold Cert.Gcn.s2L Cert.Gcn.agg
  rw [layer2_zero_read]
  refine congrArg (fun t => (0 : EReal) + t) ?_
  refine Finset.sum_congr (Finset.filter_congr fun e _ => by rw [layer2_tgt_read]) fun e _ => ?_
  exact layer2_msg_read X EI W1 B1 W2 e

theorem layer2_bias_read (i : Fin 500000) : val_main_v105 (F := Ideal) B2 (ix2 i 0) = b2Of B2 := by
  rw [val_main_v105_apply, val_main_v104_apply]
  have h : idx_main_v104 (idx_main_v105 (ix2 i 0)) = ix1 0 := by
    funext a
    match a with
    | ⟨0, _⟩ => rfl
  rw [h]
  rfl

/-- The two clip bounds are the constants' words, repeated down the nodes. -/
theorem clip_lo_read (i : Fin 500000) : val_main_call3_v1 (F := Ideal) (ix2 i 0) = Cert.Gcn.lo := by
  rw [val_main_call3_v1_apply, val_main_call3_v0_apply, val_main_cst_23_apply]
  rfl
theorem clip_hi_read (i : Fin 500000) : val_main_call3_v4 (F := Ideal) (ix2 i 0) = Cert.Gcn.hi := by
  rw [val_main_call3_v4_apply, val_main_call3_v3_apply, val_main_cst_24_apply]
  rfl

theorem ref_value (i : Fin 500000) :
    val_main_v107 (F := Ideal) X EI W1 B1 W2 B2 (ix2 i 0)
      = Cert.Gcn.outL (xOf X) (eiOf EI) (w1Of W1) (b1Of B1) (w2Of W2) (b2Of B2) i := by
  rw [val_main_v107_apply, clip_hi_read, val_main_call3_v2_apply, clip_lo_read, val_main_v106_apply, layer2_agg_read, layer2_bias_read]
  rfl

end Cert.ReferenceIdeal.RefVal

end
-- ==== Proof.BridgeNorm.lean ====
/-
  The padded and the plain edge list have the same degrees, factors and per-edge normalisation.

  The padded list is the plain one followed by edges whose target word is 500000, which names no node, so an
  aggregate over the padded list is the aggregate over the plain one (the weight 0 on the padding is not even
  needed).  Degrees are natural numbers, so every factor is a real number.  With node words in range the
  from-the-end rewrite changes nothing, and the two lists look their factors up at the same nodes.
-/
import proofs.«427156_j33560874451187_3_alg».proof.Proof.GcnSpec

noncomputable section

namespace Cert.Gcn

open Idealize.ShloMosaic

variable (ei : Fin 2 → Fin 16000000 → BitVec 32)

/-- The first 16,500,000 positions of the padded list are the plain list. -/
theorem wordP_castLE (r : Fin 2) (e : Fin 16500000) :
    wordP ei r (Fin.castLE (by omega) e) = wordL ei r e := by
  have he : e.val < 16500000 := e.isLt
  unfold wordP wordL
  simp only [Fin.coe_castLE]
  by_cases h : e.val < 16000000
  · rw [dif_pos h, dif_pos h]
  · rw [dif_neg h, dif_neg h, if_pos he]

/-- The padding word, read signed, is 500000. -/
private theorem toInt_pad : (500000#32 : BitVec 32).toInt = 500000 := by decide

/-- Past the plain list every target word of the padded list is the padding word. -/
private theorem dstP_pad (e : Fin 16515072) (he : 16500000 ≤ e.val) : dstP ei e = 500000#32 := by
  unfold dstP wordP
  rw [dif_neg (by omega), if_neg (by omega)]

/-- Aggregating over the padded list is aggregating over the plain list: the padding's target names no node. -/
theorem agg_padded (f : Fin 16515072 → EReal) (g : Fin 16500000 → EReal)
    (hfg : ∀ e : Fin 16500000, f (Fin.castLE (by omega) e) = g e) (i : Fin 500000) :
    agg (dstP ei) f i = agg (dstL ei) g i := by
  have hi : i.val < 500000 := i.isLt
  have hd : ∀ e : Fin 16500000, dstP ei (Fin.castLE (by omega) e) = dstL ei e := fun e => wordP_castLE ei 1 e
  unfold agg
  symm
  refine Finset.sum_of_injOn (Fin.castLE (by omega)) ?_ ?_ ?_ ?_
  · intro a _ b _ hab
    exact Fin.castLE_injective _ hab
  · intro e he
    simp only [Finset.coe_filter, Finset.mem_univ, true_and, Set.mem_setOf_eq] at he ⊢
    rw [hd e]; exact he
  · intro e he hne
    exfalso
    simp only [Finset.mem_filter, Finset.mem_univ, true_and] at he
    by_cases hlt : e.val < 16500000
    · apply hne
      refine ⟨⟨e.val, hlt⟩, ?_, Fin.ext rfl⟩
      simp only [Finset.coe_filter, Finset.mem_univ, true_and, Set.mem_setOf_eq]
      rw [← hd ⟨e.val, hlt⟩]
      exact he
    · rw [dstP_pad ei e (by omega), toInt_pad] at he
      omega
  · intro e _
    exact (hfg e).symm

theorem dinvP_eq (i : Fin 500000) : dinvP ei i = dinvL ei i := by
  unfold dinvP dinvL degP degL
  rw [agg_padded ei wP (fun _ => 1) (fun e => if_pos e.isLt) i]

/-- The small positive word under the square root is a positive real number. -/
private theorem eps_real : ∃ e : ℝ, 0 < e ∧ Ideal.ofBits .f32 0x0DA24260#32 = (e : EReal) := by
  refine ⟨(10633824 : ℝ) * (2 : ℝ) ^ (-123 : ℤ), by positivity, ?_⟩
  simp [Ideal.ofBits, Ideal.ieee, -EReal.coe_mul]

/-- The zero word is the real number zero. -/
private theorem zero_real : Ideal.ofBits .f32 0x00000000#32 = ((0 : ℝ) : EReal) := by
  simp [Ideal.ofBits, Ideal.ieee]

/-- The reciprocal square root of the larger of a real and a positive real is a real. -/
private theorem rsqrt_max_real (r e : ℝ) (he : 0 < e) :
    ∃ s : ℝ, Ideal.rsqrt (max (r : EReal) (e : EReal)) = (s : EReal) := by
  have hm : max (r : EReal) (e : EReal) = ((max r e : ℝ) : EReal) := by
    rcases le_total r e with h | h
    · rw [max_eq_right h, max_eq_right (EReal.coe_le_coe_iff.mpr h)]
    · rw [max_eq_left h, max_eq_left (EReal.coe_le_coe_iff.mpr h)]
  have hpos : 0 < max r e := lt_of_lt_of_le he (le_max_right r e)
  rw [hm, Ideal.rsqrt_coe, if_neg (not_lt.mpr hpos.le), if_neg hpos.ne']
  exact ⟨_, rfl⟩

/-- The factor of a real degree is a real. -/
private theorem dinvAt_real (r : ℝ) : ∃ s : ℝ, dinvAt (r : EReal) = (s : EReal) := by
  obtain ⟨e, he, hε⟩ := eps_real
  unfold dinvAt Scalar.select
  split
  · rw [Ideal.hostUnary_rsqrt_def, hε]
    exact rsqrt_max_real r e he
  · exact ⟨0, zero_real⟩

/-- A degree is the number of edges aimed at the node. -/
private theorem degL_nat (i : Fin 500000) :
    degL ei i = (((Finset.univ.filter (fun e : Fin 16500000 => (dstL ei e).toInt = (i.val : Int))).card : ℝ) : EReal) := by
  unfold degL agg
  rw [Finset.sum_const, nsmul_one, zero_add, EReal.coe_natCast]

/-- Every factor is a real number (a degree is a count). -/
theorem dinvL_real (i : Fin 500000) : ∃ r : ℝ, dinvL ei i = (r : EReal) := by
  unfold dinvL
  rw [degL_nat]
  exact dinvAt_real _

/-- A word that reads as a non-negative integer is kept by the from-the-end rewrite. -/
private theorem wrapw_of_nonneg (w : BitVec 32) (h : 0 ≤ w.toInt) : wrapw w = w := by
  have hs : w.slt 0#32 = false := by
    rw [BitVec.slt_eq_decide, BitVec.toInt_zero]
    exact decide_eq_false (not_lt.mpr h)
  unfold wrapw Scalar.select IntOp.cmpi
  simp only [hs]
  rfl

/-- Every word of the plain list reads as a non-negative integer when the given words do. -/
private theorem wordL_nonneg (hei : ∀ r e, 0 ≤ (ei r e).toInt ∧ (ei r e).toInt < 500000) (r : Fin 2) (e : Fin 16500000) :
    0 ≤ (wordL ei r e).toInt := by
  have he : e.val < 16500000 := e.isLt
  unfold wordL
  by_cases h : e.val < 16000000
  · rw [dif_pos h]; exact (hei r ⟨e.val, h⟩).1
  · rw [dif_neg h]
    have hlt : 2 * (BitVec.ofNat 32 (e.val - 16000000)).toNat < 2 ^ 32 := by
      rw [BitVec.toNat_ofNat]; omega
    rw [BitVec.toInt_eq_toNat_of_lt hlt]
    exact Int.natCast_nonneg _

/-- With every given node word in range, a word of the plain list is non-negative, so the rewrite keeps it. -/
theorem wrapw_wordL (hei : ∀ r e, 0 ≤ (ei r e).toInt ∧ (ei r e).toInt < 500000) (r : Fin 2) (e : Fin 16500000) :
    wrapw (wordL ei r e) = wordL ei r e := by
  exact wrapw_of_nonneg _ (wordL_nonneg ei hei r e)

theorem normP_eq (hei : ∀ r e, 0 ≤ (ei r e).toInt ∧ (ei r e).toInt < 500000) (e : Fin 16500000) :
    normP ei (Fin.castLE (by omega) e) = normL ei e := by
  have hw : wP (Fin.castLE (by omega) e) = 1 := if_pos e.isLt
  unfold normP normL srcP dstP srcL dstL
  rw [wordP_castLE, wordP_castLE, wrapw_wordL ei hei, wrapw_wordL ei hei, dinvP_eq, dinvP_eq, hw, mul_one, mul_one]

theorem normL_real (e : Fin 16500000) : ∃ r : ℝ, normL ei e = (r : EReal) := by
  obtain ⟨r1, h1⟩ := dinvL_real ei (node (wrapw (srcL ei e)))
  obtain ⟨r2, h2⟩ := dinvL_real ei (node (wrapw (dstL ei e)))
  unfold normL
  rw [h1, h2, mul_one]
  exact ⟨r1 * r2, (EReal.coe_mul r1 r2).symm⟩

end Cert.Gcn

end
-- ==== Proof.BridgeLayers.lean ====
/-
  The two layers over the padded list and over the plain list give the same result.

  First layer: the padded list aggregates `norm · x[src]` and multiplies the aggregate by the weight; the plain list
  multiplies each `x[src]` by the weight first.  The two agree by distributing the weight over the sum, which on the
  extended reals needs every term to be a real number: the factors are, and the features and the weight row are
  by hypothesis.  Second layer: the ten products are added in another order (addition on the extended reals is
  commutative and associative), and both lists aggregate the same per-edge products.
-/
import proofs.«427156_j33560874451187_3_alg».proof.Proof.BridgeNorm

noncomputable section

namespace Cert.Gcn

open Idealize.ShloMosaic

variable (x : Fin 500000 → EReal) (ei : Fin 2 → Fin 16000000 → BitVec 32)
  (w1 b1 w2 : Fin 10 → EReal) (b2 : EReal)

/-- A finite sum of real numbers, read in the extended reals, is the extended-real reading of the real sum. -/
private theorem coe_sum_real {ι : Type} (s : Finset ι) (f : ι → ℝ) :
    (∑ e ∈ s, ((f e : ℝ) : EReal)) = ((∑ e ∈ s, f e : ℝ) : EReal) := by
  classical
  induction s using Finset.induction_on with
  | empty => simp
  | insert a s ha ih => rw [Finset.sum_insert ha, Finset.sum_insert ha, ih, EReal.coe_add]

/-- Distributing a factor over a sum of products.  On the extended reals multiplication does not distribute over
    addition in general (`⊤ + ⊥`), so every term and the factor are taken to be real numbers: the identity is
    then the one of the real numbers, carried through the coercion. -/
private theorem sum_mul_of_real {ι : Type} (s : Finset ι) (n y : ι → EReal) (w : EReal)
    (hn : ∀ e, ∃ r : ℝ, n e = (r : EReal)) (hy : ∀ e, ∃ r : ℝ, y e = (r : EReal))
    (hw : ∃ r : ℝ, w = (r : EReal)) :
    (∑ e ∈ s, n e * y e) * w = ∑ e ∈ s, n e * (y e * w) := by
  obtain ⟨wr, rfl⟩ := hw
  choose nr hnr using hn
  choose yr hyr using hy
  have hl : ∀ e, n e * y e = ((nr e * yr e : ℝ) : EReal) := fun e => by rw [hnr, hyr, EReal.coe_mul]
  have hr : ∀ e, n e * (y e * (wr : EReal)) = ((nr e * (yr e * wr) : ℝ) : EReal) := fun e => by
    rw [hnr, hyr, EReal.coe_mul, EReal.coe_mul]
  rw [Finset.sum_congr rfl (fun e _ => hl e), Finset.sum_congr rfl (fun e _ => hr e),
    coe_sum_real, coe_sum_real, ← EReal.coe_mul, Finset.sum_mul]
  exact congrArg _ (Finset.sum_congr rfl (fun e _ => mul_assoc _ _ _))

/-- Ten terms added one after the other onto zero are the sum over the ten indices. -/
private theorem sum_ten (f : Fin 10 → EReal) :
    ∑ k : Fin 10, f k
      = ((((((((((0 + f 0) + f 1) + f 2) + f 3) + f 4) + f 5) + f 6) + f 7) + f 8) + f 9) := by
  simp only [Fin.sum_univ_castSucc, Fin.sum_univ_zero]
  rfl

theorem h1P_eq (hx : ∀ i, ∃ r : ℝ, x i = (r : EReal)) (hw1 : ∀ k, ∃ r : ℝ, w1 k = (r : EReal))
    (hei : ∀ r e, 0 ≤ (ei r e).toInt ∧ (ei r e).toInt < 500000) (i : Fin 500000) (k : Fin 10) :
    h1P x ei w1 b1 i k = h1L x ei w1 b1 i k := by
  -- the padded aggregate is the plain one: per edge the same factor and the same source node
  have hagg : agg (dstP ei) (fun e => normP ei e * x (node (srcP ei e))) i
      = agg (dstL ei) (fun e => normL ei e * x (node (srcL ei e))) i := by
    refine agg_padded ei _ _ (fun e => ?_) i
    have hs : srcP ei (Fin.castLE (by omega) e) = srcL ei e := wordP_castLE ei 0 e
    simp only [normP_eq ei hei e, hs]
  -- a plain edge's term: the one-term contraction is its term, and the source word is kept
  have hterm : (fun e : Fin 16500000 => normL ei e * xw1L x w1 (node (wrapw (srcL ei e))) k)
      = fun e => normL ei e * (x (node (srcL ei e)) * w1 k) := by
    funext e
    have hwr : wrapw (srcL ei e) = srcL ei e := wrapw_wordL ei hei 0 e
    rw [hwr, xw1L, Fin.sum_univ_one]
  unfold h1P h1L s1P
  rw [hagg, hterm]
  simp only [zero_add]
  unfold agg
  rw [sum_mul_of_real _ (fun e => normL ei e) (fun e => x (node (srcL ei e))) (w1 k)
    (fun e => normL_real ei e) (fun e => hx _) (hw1 k)]

theorem xw2P_eq (hx : ∀ i, ∃ r : ℝ, x i = (r : EReal)) (hw1 : ∀ k, ∃ r : ℝ, w1 k = (r : EReal))
    (hei : ∀ r e, 0 ≤ (ei r e).toInt ∧ (ei r e).toInt < 500000) (i : Fin 500000) :
    xw2P x ei w1 b1 w2 i = xw2L x ei w1 b1 w2 i := by
  unfold xw2P xw2L
  rw [sum_ten (fun k => h1L x ei w1 b1 i k * w2 k)]
  simp only [h1P_eq x ei w1 b1 hx hw1 hei]

theorem outP_eq_outL (hx : ∀ i, ∃ r : ℝ, x i = (r : EReal)) (hw1 : ∀ k, ∃ r : ℝ, w1 k = (r : EReal))
    (hei : ∀ r e, 0 ≤ (ei r e).toInt ∧ (ei r e).toInt < 500000) (i : Fin 500000) :
    outP x ei w1 b1 w2 b2 i = outL x ei w1 b1 w2 b2 i := by
  -- per edge: the same factor, and the second layer's value gathered at the same node
  have hagg : agg (dstP ei) (fun e => normP ei e * xw2P x ei w1 b1 w2 (node (srcP ei e))) i
      = agg (dstL ei) (fun e => normL ei e * xw2L x ei w1 b1 w2 (node (wrapw (srcL ei e)))) i := by
    refine agg_padded ei _ _ (fun e => ?_) i
    have hs : srcP ei (Fin.castLE (by omega) e) = srcL ei e := wordP_castLE ei 0 e
    have hwr : wrapw (srcL ei e) = srcL ei e := wrapw_wordL ei hei 0 e
    simp only [normP_eq ei hei e, hs, hwr, xw2P_eq x ei w1 b1 w2 hx hw1 hei]
  unfold outP outL s2P s2L
  rw [hagg]

end Cert.Gcn

end
-- ==== Proof.lean ====
/-
  The certificate's claim: the three frames, the idealization's ledger (empty here), and the value claim.

  The value claim's argument.  The idealized kernel's run ends with its result buffer at what the last boundary
  of its program holds there; read index by index, through the host operations and the four regions, that is two
  graph-convolution layers over the PADDED edge list (the given edges, a self-loop per node, padding aimed at no
  node), the first layer's weight applied after aggregating.  The reference's run ends with its result at the
  composed term of its operations, which index by index is the same two layers over the PLAIN edge list, the
  weight applied before aggregating and every node word first rewritten from-the-end when negative.  Under the
  precondition — features and weights finite, every given node word in [0, 500000) — the rewrite changes no word,
  the padding contributes nothing, every normalisation factor is a real number, and the weight distributes over
  the aggregate: the two results are equal entry by entry.
-/
import proofs.«427156_j33560874451187_3_alg».proof.Defs
import proofs.«427156_j33560874451187_3_alg».proof.Proof.Gen.Kernel
import proofs.«427156_j33560874451187_3_alg».proof.Proof.Gen.Kernel.Frame
import proofs.«427156_j33560874451187_3_alg».proof.Proof.Gen.KernelIdeal
import proofs.«427156_j33560874451187_3_alg».proof.Proof.Gen.KernelIdeal.Frame
import proofs.«427156_j33560874451187_3_alg».proof.Proof.Gen.ReferenceIdeal
import proofs.«427156_j33560874451187_3_alg».proof.Proof.Gen.Pre_finite_inputs
import proofs.«427156_j33560874451187_3_alg».proof.Proof.KRun
import proofs.«427156_j33560874451187_3_alg».proof.Proof.KLayers
import proofs.«427156_j33560874451187_3_alg».proof.Proof.PreFacts
import proofs.«427156_j33560874451187_3_alg».proof.Proof.RLayers
import proofs.«427156_j33560874451187_3_alg».proof.Proof.BridgeLayers
import Idealize.ShloMosaic.Adequacy
import Idealize.ShloMosaic.Init

noncomputable section

namespace Cert.Proof

open Idealize.ShloMosaic Idealize.ShloMosaic.TcCoe Idealize.ShloMosaic.ValueIdx Idealize.SL.Sem

section Claims
variable [hK : Cert.Kernel.Facts] [hKI : Cert.KernelIdeal.Facts] [hRI : Cert.ReferenceIdeal.Facts]
  [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel's result array, entry by entry, is the reference's: both are the two layers, over the padded and
    over the plain edge list, and those agree under the precondition. -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.ReadP.val_main_v107 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Val.outW m ρ c := by
  funext j
  obtain ⟨i, rfl⟩ : ∃ i : Fin 500000, j = ix2 i 0 := ⟨j 0, by
    funext a
    match a with
    | ⟨0, _⟩ => rfl
    | ⟨1, h⟩ => exact Fin.ext (Nat.lt_one_iff.mp (j ⟨1, h⟩).isLt)⟩
  rw [Cert.ReferenceIdeal.RefVal.ref_value, Cert.KernelIdeal.Val.out_apply]
  exact (Cert.Gcn.outP_eq_outL _ _ _ _ _ _ (Cert.KernelIdeal.Val.x_real m c hpre) (Cert.KernelIdeal.Val.w1_real m c hpre)
    (Cert.KernelIdeal.Val.ei_range m c hpre) i).symm

theorem algebraic : Cert.algebraic_KernelIdeal_ReferenceIdeal := by
  intro m ρ m' ρ' hpre hagree
  refine ⟨fun c => Cert.KernelIdeal.Val.outW m ρ c, Cert.KernelIdeal.GenP.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v107_eq, (hagree c).1, (hagree c).2.1, (hagree c).2.2.1, (hagree c).2.2.2.1,
    (hagree c).2.2.2.2.1, (hagree c).2.2.2.2.2]
  exact result_eq m ρ hpre c

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
